-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x64 : Shape := ⟨2, ![600000, 64]⟩
abbrev S600000 : Shape := ⟨1, ![600000]⟩
abbrev S128x128 : Shape := ⟨2, ![128, 128]⟩
abbrev S64x128 : Shape := ⟨2, ![64, 128]⟩
abbrev S256x1 : Shape := ⟨2, ![256, 1]⟩
abbrev S128x1 : Shape := ⟨2, ![128, 1]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S256x1 : S_.BroadcastsInDim S256x1 (![] : Fin 0 → Fin S256x1.rank)
  reducesTo_S256x1_S_d0_1 : S256x1.ReducesTo [0, 1] S_
  bcast_S_S128x1 : S_.BroadcastsInDim S128x1 (![] : Fin 0 → Fin S128x1.rank)
  reducesTo_S128x1_S_d0_1 : S128x1.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S600000 : S_.BroadcastsInDim S600000 (![] : Fin 0 → Fin S600000.rank)
  reducesTo_S600000_S_d0 : S600000.ReducesTo [0] S_

variable [Facts]

def fn_part4 {F : FTy → Type} [FloatOps F] (main_arg2 : IVec S600000 32) (main_arg3 : IVec S600000 32) (main_v63 : IVec S_ 1) (main_v67 : IVec S_ 1) : IVec S_ 1 :=
  let main_v68 : IVec S_ 1 := andi main_v63 main_v67
  let main_c_26 : IVec S_ 32 := constantI S_ 32 0#32
  let main_v69 : IVec S600000 32 := broadcastInDim S600000 ![] bcast_S_S600000 main_c_26
  let main_v70 : IVec S600000 1 := cmpi .sge main_arg2 main_v69
  let main_c_27 : IVec S_ 32 := constantI S_ 32 50000#32
  let main_v71 : IVec S600000 32 := broadcastInDim S600000 ![] bcast_S_S600000 main_c_27
  let main_v72 : IVec S600000 1 := cmpi .slt main_arg2 main_v71
  let main_v73 : IVec S600000 1 := andi main_v70 main_v72
  let main_c_28 : IVec S_ 1 := constantI S_ 1 1#1
  let main_v74 : IVec S_ 1 := (fun x v => Host.reduce IntOp.andi x v reducesTo_S600000_S_d0 h_S_) main_v73 main_c_28
  let main_v75 : IVec S_ 1 := andi main_v68 main_v74
  let main_c_29 : IVec S_ 32 := constantI S_ 32 0#32
  let main_v76 : IVec S600000 32 := broadcastInDim S600000 ![] bcast_S_S600000 main_c_29
  let main_v77 : IVec S600000 1 := cmpi .sge main_arg3 main_v76
  let main_c_30 : IVec S_ 32 := constantI S_ 32 50000#32
  let main_v78 : IVec S600000 32 := broadcastInDim S600000 ![] bcast_S_S600000 main_c_30
  let main_v79 : IVec S600000 1 := cmpi .slt main_arg3 main_v78
  let main_v80 : IVec S600000 1 := andi main_v77 main_v79
  let main_c_31 : IVec S_ 1 := constantI S_ 1 1#1
  let main_v81 : IVec S_ 1 := (fun x v => Host.reduce IntOp.andi x v reducesTo_S600000_S_d0 h_S_) main_v80 main_c_31
  let main_v82 : IVec S_ 1 := andi main_v75 main_v81
  main_v82

def fn_part3 {F : FTy → Type} [FloatOps F] (main_arg2 : IVec S600000 32) (main_arg3 : IVec S600000 32) (main_arg13 : FVec F S16 .f32) (main_arg14 : FVec F S16x1 .f32) (main_arg15 : FVec F S1 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x1 .f32 := Host.absf main_arg14
  let main_cst_22 : FVec F S_ .f32 := constant S_ .f32 0x7F800000#32
  let main_v60 : FVec F S16x1 .f32 := broadcastInDim S16x1 ![] bcast_S_S16x1 main_cst_22
  let main_v61 : IVec S16x1 1 := cmpf .olt main_v59 main_v60
  let main_c_23 : IVec S_ 1 := constantI S_ 1 1#1
  let main_v62 : IVec S_ 1 := (fun x v => Host.reduce IntOp.andi x v reducesTo_S16x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_arg3 main_v63 main_v67

def fn_part2 {F : FTy → Type} [FloatOps F] (main_arg2 : IVec S600000 32) (main_arg3 : IVec S600000 32) (main_arg9 : FVec F S512 .f32) (main_arg10 : FVec F S512x128 .f32) (main_arg11 : FVec F S128 .f32) (main_arg12 : FVec F S128x16 .f32) (main_arg13 : FVec F S16 .f32) (main_arg14 : FVec F S16x1 .f32) (main_arg15 : FVec F S1 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg10
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x16 .f32 := Host.absf main_arg12
  let main_cst_18 : FVec F S_ .f32 := constant S_ .f32 0x7F800000#32
  let main_v50 : FVec F S128x16 .f32 := broadcastInDim S128x16 ![] bcast_S_S128x16 main_cst_18
  fn_part3 (F := F) main_arg2 main_arg3 main_arg13 main_arg14 main_arg15 main_v48 main_v49 main_v50

def fn_part1 {F : FTy → Type} [FloatOps F] (main_arg2 : IVec S600000 32) (main_arg3 : IVec S600000 32) (main_arg6 : FVec F S256x1 .f32) (main_arg7 : FVec F S128x1 .f32) (main_arg8 : FVec F S128x512 .f32) (main_arg9 : FVec F S512 .f32) (main_arg10 : FVec F S512x128 .f32) (main_arg11 : FVec F S128 .f32) (main_arg12 : FVec F S128x16 .f32) (main_arg13 : FVec F S16 .f32) (main_arg14 : FVec F S16x1 .f32) (main_arg15 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S256x1 .f32 := Host.absf main_arg6
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128x512 .f32 := Host.absf main_arg8
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg2 main_arg3 main_arg9 main_arg10 main_arg11 main_arg12 main_arg13 main_arg14 main_arg15 main_v33

def fn {F : FTy → Type} [FloatOps F] (main_arg0 : FVec F S50000x128 .f32) (main_arg1 : FVec F S600000x64 .f32) (main_arg2 : IVec S600000 32) (main_arg3 : IVec S600000 32) (main_arg4 : FVec F S128x128 .f32) (main_arg5 : FVec F S64x128 .f32) (main_arg6 : FVec F S256x1 .f32) (main_arg7 : FVec F S128x1 .f32) (main_arg8 : FVec F S128x512 .f32) (main_arg9 : FVec F S512 .f32) (main_arg10 : FVec F S512x128 .f32) (main_arg11 : FVec F S128 .f32) (main_arg12 : FVec F S128x16 .f32) (main_arg13 : FVec F S16 .f32) (main_arg14 : FVec F S16x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg1
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg2 main_arg3 main_arg6 main_arg7 main_arg8 main_arg9 main_arg10 main_arg11 main_arg12 main_arg13 main_arg14 main_arg15 main_v13 main_v16
-- ==== Kernel.lean ====
abbrev S50000x128 : Shape := ⟨2, ![50000, 128]⟩
abbrev S600000x64 : Shape := ⟨2, ![600000, 64]⟩
abbrev S600000 : Shape := ⟨1, ![600000]⟩
abbrev S128x128 : Shape := ⟨2, ![128, 128]⟩
abbrev S64x128 : Shape := ⟨2, ![64, 128]⟩
abbrev S256x1 : Shape := ⟨2, ![256, 1]⟩
abbrev S128x1 : Shape := ⟨2, ![128, 1]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x16 : Shape := ⟨2, ![128, 16]⟩
abbrev S16 : Shape := ⟨1, ![16]⟩
abbrev S16x1 : Shape := ⟨2, ![16, 1]⟩
abbrev S1 : Shape := ⟨1, ![1]⟩
abbrev S1x128 : Shape := ⟨2, ![1, 128]⟩
abbrev S50000x1 : Shape := ⟨2, ![50000, 1]⟩
abbrev S_ : Shape := ⟨0, ![]⟩
abbrev S600000x1 : Shape := ⟨2, ![600000, 1]⟩
abbrev S1x1 : Shape := ⟨2, ![1, 1]⟩
abbrev S600000x128 : Shape := ⟨2, ![600000, 128]⟩
abbrev S64x1 : Shape := ⟨2, ![64, 1]⟩
abbrev S1x64 : Shape := ⟨2, ![1, 64]⟩
abbrev S1x512 : Shape := ⟨2, ![1, 512]⟩
abbrev S1x16 : Shape := ⟨2, ![1, 16]⟩
abbrev S5000x128 : Shape := ⟨2, ![5000, 128]⟩
abbrev S5000x1 : Shape := ⟨2, ![5000, 1]⟩
abbrev S5000 : Shape := ⟨1, ![5000]⟩
abbrev S6000x64 : Shape := ⟨2, ![6000, 64]⟩
abbrev S6000x1 : Shape := ⟨2, ![6000, 1]⟩
abbrev S6000 : Shape := ⟨1, ![6000]⟩

abbrev nBuf : Space → Nat
  | .hbm => 149
  | .vmem => 18
  | .smem => 0
  | _ => 0

abbrev hbmTy0_0 (i : Nat) : BufTy := match i % 128 with
  | 0 => ⟨S50000x128, .f32⟩
  | 1 => ⟨S600000x64, .f32⟩
  | 2 => ⟨S600000, .i32⟩
  | 3 => ⟨S600000, .i32⟩
  | 4 => ⟨S128x128, .f32⟩
  | 5 => ⟨S64x128, .f32⟩
  | 6 => ⟨S256x1, .f32⟩
  | 7 => ⟨S128x1, .f32⟩
  | 8 => ⟨S128x512, .f32⟩
  | 9 => ⟨S512, .f32⟩
  | 10 => ⟨S512x128, .f32⟩
  | 11 => ⟨S128, .f32⟩
  | 12 => ⟨S128x16, .f32⟩
  | 13 => ⟨S16, .f32⟩
  | 14 => ⟨S16x1, .f32⟩
  | 15 => ⟨S1, .f32⟩
  | 16 => ⟨S128x1, .f32⟩
  | 17 => ⟨S128, .f32⟩
  | 18 => ⟨S1x128, .f32⟩
  | 19 => ⟨S128x1, .f32⟩
  | 20 => ⟨S128, .f32⟩
  | 21 => ⟨S1x128, .f32⟩
  | 22 => ⟨S50000x128, .f32⟩
  | 23 => ⟨S50000x1, .f32⟩
  | 24 => ⟨S50000x1, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S1, .i32⟩
  | 34 => ⟨S_, .i32⟩
  | 35 => ⟨S600000x1, .i32⟩
  | 36 => ⟨S600000x1, .i1⟩
  | 37 => ⟨S1x1, .i32⟩
  | 38 => ⟨S600000x1, .i32⟩
  | 39 => ⟨S600000x1, .i1⟩
  | 40 => ⟨S600000x1, .i1⟩
  | 41 => ⟨S_, .i1⟩
  | 42 => ⟨S600000, .i1⟩
  | 43 => ⟨S600000x128, .f32⟩
  | 44 => ⟨S600000x128, .i1⟩
  | 45 => ⟨S_, .f32⟩
  | 46 => ⟨S600000x128, .f32⟩
  | 47 => ⟨S600000x128, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S1, .i32⟩
  | 57 => ⟨S_, .i32⟩
  | 58 => ⟨S600000x1, .i32⟩
  | 59 => ⟨S600000x1, .i1⟩
  | 60 => ⟨S1x1, .i32⟩
  | 61 => ⟨S600000x1, .i32⟩
  | 62 => ⟨S600000x1, .i1⟩
  | 63 => ⟨S600000x1, .i1⟩
  | 64 => ⟨S_, .i1⟩
  | 65 => ⟨S600000, .i1⟩
  | 66 => ⟨S600000x1, .f32⟩
  | 67 => ⟨S600000x1, .i1⟩
  | 68 => ⟨S_, .f32⟩
  | 69 => ⟨S600000x1, .f32⟩
  | 70 => ⟨S600000x1, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S1, .i32⟩
  | 80 => ⟨S_, .i32⟩
  | 81 => ⟨S600000x1, .i32⟩
  | 82 => ⟨S600000x1, .i1⟩
  | 83 => ⟨S1x1, .i32⟩
  | 84 => ⟨S600000x1, .i32⟩
  | 85 => ⟨S600000x1, .i1⟩
  | 86 => ⟨S600000x1, .i1⟩
  | 87 => ⟨S_, .i1⟩
  | 88 => ⟨S600000, .i1⟩
  | 89 => ⟨S600000x1, .f32⟩
  | 90 => ⟨S600000x1, .i1⟩
  | 91 => ⟨S_, .f32⟩
  | 92 => ⟨S600000x1, .f32⟩
  | 93 => ⟨S600000x1, .f32⟩
  | 94 => ⟨S600000x1, .f32⟩
  | 95 => ⟨S64x1, .f32⟩
  | 96 => ⟨S1x64, .f32⟩
  | 97 => ⟨S600000x1, .f32⟩
  | 98 => ⟨S_, .f32⟩
  | 99 => ⟨S_, .f32⟩
  | 100 => ⟨S600000x1, .f32⟩
  | 101 => ⟨S600000x1, .f32⟩
  | 102 => ⟨S600000x1, .f32⟩
  | 103 => ⟨S_, .f32⟩
  | 104 => ⟨S_, .f32⟩
  | 105 => ⟨S600000x1, .f32⟩
  | 106 => ⟨S600000x1, .f32⟩
  | 107 => ⟨S600000x1, .f32⟩
  | 108 => ⟨S_, .f32⟩
  | 109 => ⟨S_, .f32⟩
  | 110 => ⟨S600000x1, .f32⟩
  | 111 => ⟨S600000x1, .f32⟩
  | 112 => ⟨S600000x128, .f32⟩
  | 113 => ⟨S600000x128, .f32⟩
  | 114 => ⟨S_, .f32⟩
  | 115 => ⟨S600000x128, .f32⟩
  | 116 => ⟨S600000x128, .i1⟩
  | 117 => ⟨S_, .f32⟩
  | 118 => ⟨S600000x128, .f32⟩
  | 119 => ⟨S600000x128, .f32⟩
  | 120 => ⟨S600000x128, .f32⟩
  | 121 => ⟨S_, .f32⟩
  | 122 => ⟨S50000x128, .f32⟩
  | 123 => ⟨S600000x1, .i32⟩
  | 124 => ⟨S50000x128, .f32⟩
  | 125 => ⟨S_, .f32⟩
  | 126 => ⟨S128, .f32⟩
  | 127 => ⟨S1x128, .f32⟩
  | _ => ⟨S50000x128, .f32⟩

abbrev hbmTy0_1 (i : Nat) : BufTy := match i % 128 with
  | 0 => ⟨S1x512, .f32⟩
  | 1 => ⟨S1x512, .f32⟩
  | 2 => ⟨S1x512, .f32⟩
  | 3 => ⟨S_, .f32⟩
  | 4 => ⟨S1x512, .f32⟩
  | 5 => ⟨S1x512, .f32⟩
  | 6 => ⟨S1x128, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S1x16, .f32⟩
  | 13 => ⟨S1x16, .f32⟩
  | 14 => ⟨S1x16, .f32⟩
  | 15 => ⟨S_, .f32⟩
  | 16 => ⟨S1x16, .f32⟩
  | 17 => ⟨S1x16, .f32⟩
  | 18 => ⟨S1x1, .f32⟩
  | 19 => ⟨S1x1, .f32⟩
  | 20 => ⟨S1x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S6000x64, .f32⟩
  | .local _ .vmem, ⟨12, _⟩ => ⟨S6000x64, .f32⟩
  | .local _ .vmem, ⟨13, _⟩ => ⟨S6000x1, .f32⟩
  | .local _ .vmem, ⟨14, _⟩ => ⟨S6000x1, .f32⟩
  | .local _ .vmem, ⟨15, _⟩ => ⟨S1x64, .f32⟩
  | .local _ .vmem, ⟨16, _⟩ => ⟨S6000x1, .f32⟩
  | .local _ .vmem, ⟨17, _⟩ => ⟨S6000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6_0 : Ref sig .tc := ⟨.hbm, 22, rfl⟩
abbrev main_call0_v6_1 : Ref sig .tc := ⟨.hbm, 23, rfl⟩
abbrev main_call0_v6_2 : Ref sig .tc := ⟨.hbm, 24, rfl⟩
abbrev main_call0_call0_c : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_c_0 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_c_1 : Ref sig .tc := ⟨.hbm, 33, rfl⟩
abbrev main_call0_call0_c_2 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_c_3 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_cst : Ref sig .tc := ⟨.hbm, 45, rfl⟩
abbrev main_call0_call0_v15 : Ref sig .tc := ⟨.hbm, 46, rfl⟩
abbrev main_call0_v7 : Ref sig .tc := ⟨.hbm, 47, rfl⟩
abbrev main_call0_call1_c : Ref sig .tc := ⟨.hbm, 48, rfl⟩
abbrev main_call0_call1_v0 : Ref sig .tc := ⟨.hbm, 49, rfl⟩
abbrev main_call0_call1_v1 : Ref sig .tc := ⟨.hbm, 50, rfl⟩
abbrev main_call0_call1_c_0 : Ref sig .tc := ⟨.hbm, 51, rfl⟩
abbrev main_call0_call1_v2 : Ref sig .tc := ⟨.hbm, 52, rfl⟩
abbrev main_call0_call1_v3 : Ref sig .tc := ⟨.hbm, 53, rfl⟩
abbrev main_call0_call1_v4 : Ref sig .tc := ⟨.hbm, 54, rfl⟩
abbrev main_call0_call1_v5 : Ref sig .tc := ⟨.hbm, 55, rfl⟩
abbrev main_call0_call1_c_1 : Ref sig .tc := ⟨.hbm, 56, rfl⟩
abbrev main_call0_call1_c_2 : Ref sig .tc := ⟨.hbm, 57, rfl⟩
abbrev main_call0_call1_v6 : Ref sig .tc := ⟨.hbm, 58, rfl⟩
abbrev main_call0_call1_v7 : Ref sig .tc := ⟨.hbm, 59, rfl⟩
abbrev main_call0_call1_v8 : Ref sig .tc := ⟨.hbm, 60, rfl⟩
abbrev main_call0_call1_v9 : Ref sig .tc := ⟨.hbm, 61, rfl⟩
abbrev main_call0_call1_v10 : Ref sig .tc := ⟨.hbm, 62, rfl⟩
abbrev main_call0_call1_v11 : Ref sig .tc := ⟨.hbm, 63, rfl⟩
abbrev main_call0_call1_c_3 : Ref sig .tc := ⟨.hbm, 64, rfl⟩
abbrev main_call0_call1_v12 : Ref sig .tc := ⟨.hbm, 65, rfl⟩
abbrev main_call0_call1_v13 : Ref sig .tc := ⟨.hbm, 66, rfl⟩
abbrev main_call0_call1_v14 : Ref sig .tc := ⟨.hbm, 67, rfl⟩
abbrev main_call0_call1_cst : Ref sig .tc := ⟨.hbm, 68, rfl⟩
abbrev main_call0_call1_v15 : Ref sig .tc := ⟨.hbm, 69, rfl⟩
abbrev main_call0_v8 : Ref sig .tc := ⟨.hbm, 70, rfl⟩
abbrev main_call0_call2_c : Ref sig .tc := ⟨.hbm, 71, rfl⟩
abbrev main_call0_call2_v0 : Ref sig .tc := ⟨.hbm, 72, rfl⟩
abbrev main_call0_call2_v1 : Ref sig .tc := ⟨.hbm, 73, rfl⟩
abbrev main_call0_call2_c_0 : Ref sig .tc := ⟨.hbm, 74, rfl⟩
abbrev main_call0_call2_v2 : Ref sig .tc := ⟨.hbm, 75, rfl⟩
abbrev main_call0_call2_v3 : Ref sig .tc := ⟨.hbm, 76, rfl⟩
abbrev main_call0_call2_v4 : Ref sig .tc := ⟨.hbm, 77, rfl⟩
abbrev main_call0_call2_v5 : Ref sig .tc := ⟨.hbm, 78, rfl⟩
abbrev main_call0_call2_c_1 : Ref sig .tc := ⟨.hbm, 79, rfl⟩
abbrev main_call0_call2_c_2 : Ref sig .tc := ⟨.hbm, 80, rfl⟩
abbrev main_call0_call2_v6 : Ref sig .tc := ⟨.hbm, 81, rfl⟩
abbrev main_call0_call2_v7 : Ref sig .tc := ⟨.hbm, 82, rfl⟩
abbrev main_call0_call2_v8 : Ref sig .tc := ⟨.hbm, 83, rfl⟩
abbrev main_call0_call2_v9 : Ref sig .tc := ⟨.hbm, 84, rfl⟩
abbrev main_call0_call2_v10 : Ref sig .tc := ⟨.hbm, 85, rfl⟩
abbrev main_call0_call2_v11 : Ref sig .tc := ⟨.hbm, 86, rfl⟩
abbrev main_call0_call2_c_3 : Ref sig .tc := ⟨.hbm, 87, rfl⟩
abbrev main_call0_call2_v12 : Ref sig .tc := ⟨.hbm, 88, rfl⟩
abbrev main_call0_call2_v13 : Ref sig .tc := ⟨.hbm, 89, rfl⟩
abbrev main_call0_call2_v14 : Ref sig .tc := ⟨.hbm, 90, rfl⟩
abbrev main_call0_call2_cst : Ref sig .tc := ⟨.hbm, 91, rfl⟩
abbrev main_call0_call2_v15 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_v12 : Ref sig .tc := ⟨.hbm, 96, rfl⟩
abbrev main_call0_v13 : Ref sig .tc := ⟨.hbm, 97, rfl⟩
abbrev main_call0_cst : Ref sig .tc := ⟨.hbm, 98, rfl⟩
abbrev main_call0_v14 : Ref sig .tc := ⟨.hbm, 99, rfl⟩
abbrev main_call0_v15 : Ref sig .tc := ⟨.hbm, 100, rfl⟩
abbrev main_call0_v16 : Ref sig .tc := ⟨.hbm, 101, rfl⟩
abbrev main_call0_v17 : Ref sig .tc := ⟨.hbm, 102, rfl⟩
abbrev main_call0_cst_0 : Ref sig .tc := ⟨.hbm, 103, rfl⟩
abbrev main_call0_v18 : Ref sig .tc := ⟨.hbm, 104, rfl⟩
abbrev main_call0_v19 : Ref sig .tc := ⟨.hbm, 105, rfl⟩
abbrev main_call0_v20 : Ref sig .tc := ⟨.hbm, 106, rfl⟩
abbrev main_call0_v21 : Ref sig .tc := ⟨.hbm, 107, rfl⟩
abbrev main_call0_cst_1 : Ref sig .tc := ⟨.hbm, 108, rfl⟩
abbrev main_call0_v22 : Ref sig .tc := ⟨.hbm, 109, rfl⟩
abbrev main_call0_v23 : Ref sig .tc := ⟨.hbm, 110, rfl⟩
abbrev main_call0_v24 : Ref sig .tc := ⟨.hbm, 111, rfl⟩
abbrev main_call0_v25 : Ref sig .tc := ⟨.hbm, 112, rfl⟩
abbrev main_call0_v26 : Ref sig .tc := ⟨.hbm, 113, rfl⟩
abbrev main_call0_cst_2 : Ref sig .tc := ⟨.hbm, 114, rfl⟩
abbrev main_call0_v27 : Ref sig .tc := ⟨.hbm, 115, rfl⟩
abbrev main_call0_v28 : Ref sig .tc := ⟨.hbm, 116, rfl⟩
abbrev main_call0_cst_3 : Ref sig .tc := ⟨.hbm, 117, rfl⟩
abbrev main_call0_v29 : Ref sig .tc := ⟨.hbm, 118, rfl⟩
abbrev main_call0_v30 : Ref sig .tc := ⟨.hbm, 119, rfl⟩
abbrev main_call0_v31 : Ref sig .tc := ⟨.hbm, 120, rfl⟩
abbrev main_call0_cst_4 : Ref sig .tc := ⟨.hbm, 121, rfl⟩
abbrev main_call0_v32 : Ref sig .tc := ⟨.hbm, 122, rfl⟩
abbrev main_call0_v33 : Ref sig .tc := ⟨.hbm, 123, rfl⟩
abbrev main_call0_v34 : Ref sig .tc := ⟨.hbm, 124, rfl⟩
abbrev main_call0_cst_5 : Ref sig .tc := ⟨.hbm, 125, rfl⟩
abbrev main_call0_v35 : Ref sig .tc := ⟨.hbm, 126, rfl⟩
abbrev main_call0_v36 : Ref sig .tc := ⟨.hbm, 127, rfl⟩
abbrev main_call0_v37 : Ref sig .tc := ⟨.hbm, 128, rfl⟩
abbrev main_call0_v38 : Ref sig .tc := ⟨.hbm, 129, rfl⟩
abbrev main_call0_v39 : Ref sig .tc := ⟨.hbm, 130, rfl⟩
abbrev main_call0_call4_cst : Ref sig .tc := ⟨.hbm, 131, rfl⟩
abbrev main_call0_call4_v0 : Ref sig .tc := ⟨.hbm, 132, rfl⟩
abbrev main_call0_v40 : Ref sig .tc := ⟨.hbm, 133, rfl⟩
abbrev main_call0_v41 : Ref sig .tc := ⟨.hbm, 134, rfl⟩
abbrev main_call0_v42 : Ref sig .tc := ⟨.hbm, 135, rfl⟩
abbrev main_call0_v43 : Ref sig .tc := ⟨.hbm, 136, rfl⟩
abbrev main_call0_call5_cst : Ref sig .tc := ⟨.hbm, 137, rfl⟩
abbrev main_call0_call5_v0 : Ref sig .tc := ⟨.hbm, 138, rfl⟩
abbrev main_call0_v44 : Ref sig .tc := ⟨.hbm, 139, rfl⟩
abbrev main_call0_v45 : Ref sig .tc := ⟨.hbm, 140, rfl⟩
abbrev main_call0_v46 : Ref sig .tc := ⟨.hbm, 141, rfl⟩
abbrev main_call0_v47 : Ref sig .tc := ⟨.hbm, 142, rfl⟩
abbrev main_call0_call6_cst : Ref sig .tc := ⟨.hbm, 143, rfl⟩
abbrev main_call0_call6_v0 : Ref sig .tc := ⟨.hbm, 144, rfl⟩
abbrev main_call0_v48 : Ref sig .tc := ⟨.hbm, 145, rfl⟩
abbrev main_call0_v49 : Ref sig .tc := ⟨.hbm, 146, rfl⟩
abbrev main_call0_v50 : Ref sig .tc := ⟨.hbm, 147, rfl⟩
abbrev main_v0 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S256x1_S128x1_0_0 : S256x1.Slices ![0, 0] S128x1
  shapeCasts_S128x1_S128 : S128x1.ShapeCasts S128
  shapeCasts_S128_S1x128 : S128.ShapeCasts S1x128
  slices_S256x1_S128x1_128_0 : S256x1.Slices ![128, 0] S128x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S64x1_S1x64 : S64x1.ShapeCasts S1x64
  reducesTo_S600000x1_S_d0_1 : S600000x1.ReducesTo [0, 1] S_
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  reducesTo_S50000x128_S128_d0 : S50000x128.ReducesTo [0] S128
  bcast_S128_S1x128_1 : S128.BroadcastsInDim S1x128 (![1] : Fin 1 → Fin S1x128.rank)
  bcast_S512_S1x512_1 : S512.BroadcastsInDim S1x512 (![1] : Fin 1 → Fin S1x512.rank)
  bcast_S_S1x512 : S_.BroadcastsInDim S1x512 (![] : Fin 0 → Fin S1x512.rank)
  bcast_S_S1x128 : S_.BroadcastsInDim S1x128 (![] : Fin 0 → Fin S1x128.rank)
  bcast_S16_S1x16_1 : S16.BroadcastsInDim S1x16 (![1] : Fin 1 → Fin S1x16.rank)
  bcast_S_S1x16 : S_.BroadcastsInDim S1x16 (![] : Fin 0 → Fin S1x16.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  inb_S6000x64_S6000x64_0_0 : ∀ a, (![0, 0] : Fin 2 → Nat) a + S6000x64.size a ≤ S6000x64.size a
  h_S6000x64 : 0 < S6000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  reduces_S6000x64_S6000 : S6000x64.Reduces [1] S6000
  shapeCasts_S6000_S6000x1 : S6000.ShapeCasts S6000x1
  gather_S50000x128_S600000x1_S600000x128_1_0_n_n_0_1_1128_wf : GatherDims.WF S50000x128 S600000x1 S600000x128 [1] [0] [] [0] [] 1 ![1, 128]
  gather_S50000x1_S600000x1_S600000x1_1_0_n_n_0_1_11_wf : GatherDims.WF S50000x1 S600000x1 S600000x1 [1] [0] [] [0] [] 1 ![1, 1]
  dot_S64x128_S128x1_S64x1_1_0_0_1_n_n_wf : DotDims.WF S64x128 S128x1 S64x1 [1] [0] [0] [1] [] []
  scatter_S50000x128_S600000x1_S600000x128_1_0_0_1_wf : ScatterDims.WF S50000x128 S600000x1 S600000x128 [1] [0] [0] 1
  dot_S1x128_S128x512_S1x512_1_0_0_1_n_n_wf : DotDims.WF S1x128 S128x512 S1x512 [1] [0] [0] [1] [] []
  dot_S1x512_S512x128_S1x128_1_0_0_1_n_n_wf : DotDims.WF S1x512 S512x128 S1x128 [1] [0] [0] [1] [] []
  dot_S1x128_S128x16_S1x16_1_0_0_1_n_n_wf : DotDims.WF S1x128 S128x16 S1x16 [1] [0] [0] [1] [] []
  dot_S1x16_S16x1_S1x1_1_0_0_1_n_n_wf : DotDims.WF S1x16 S16x1 S1x1 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S50000x1.size a
  hwx0_5 : ∀ i : grid0.Coords, EltTy.bits .f32 = 32 ∨ (Rect.block (s := S50000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S50000x1.size a
  hwx0_6 : ∀ i : grid0.Coords, EltTy.bits .f32 = 32 ∨ (Rect.block (s := S50000x1) S5000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S600000x64.size a
  hwx1_0 : ∀ i : grid1.Coords, EltTy.bits .f32 = 32 ∨ (Rect.block (s := S600000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S600000x1.size a
  hwx1_1 : ∀ i : grid1.Coords, EltTy.bits .f32 = 32 ∨ (Rect.block (s := S600000x1) S6000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x1.size a ≤ S600000x1.size a
  hwx1_3 : ∀ i : grid1.Coords, EltTy.bits .f32 = 32 ∨ (Rect.block (s := S600000x1) S6000x1.size (cc1_transform_3 i) (hinb1_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x1_S600000x1_S600000x1_1_0_n_n_0_1_11 : GatherDims S50000x1 S600000x1 S600000x1 where
  offsetDims := [1]
  collapsedSliceDims := [0]
  operandBatchingDims := []
  startIndicesBatchingDims := []
  startIndexMap := [0]
  indexVectorDim := 1
  sliceSizes := ![1, 1]
  wf := gather_S50000x1_S600000x1_S600000x1_1_0_n_n_0_1_11_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6_1) S5000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6_2) S5000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v10) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v12) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v13) S6000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x64 : Shape := ⟨2, ![600000, 64]⟩
abbrev S600000 : Shape := ⟨1, ![600000]⟩
abbrev S128x128 : Shape := ⟨2, ![128, 128]⟩
abbrev S64x128 : Shape := ⟨2, ![64, 128]⟩
abbrev S256x1 : Shape := ⟨2, ![256, 1]⟩
abbrev S128x1 : Shape := ⟨2, ![128, 1]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩
abbrev S600000x1 : Shape := ⟨2, ![600000, 1]⟩
abbrev S600000x128 : Shape := ⟨2, ![600000, 128]⟩
abbrev S1x1 : Shape := ⟨2, ![1, 1]⟩
abbrev S1x128 : Shape := ⟨2, ![1, 128]⟩
abbrev S1x512 : Shape := ⟨2, ![1, 512]⟩
abbrev S1x16 : Shape := ⟨2, ![1, 16]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x64, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S64x128, .f32⟩
  | .hbm, ⟨6, _⟩ => ⟨S256x1, .f32⟩
  | .hbm, ⟨7, _⟩ => ⟨S128x1, .f32⟩
  | .hbm, ⟨8, _⟩ => ⟨S128x512, .f32⟩
  | .hbm, ⟨9, _⟩ => ⟨S512, .f32⟩
  | .hbm, ⟨10, _⟩ => ⟨S512x128, .f32⟩
  | .hbm, ⟨11, _⟩ => ⟨S128, .f32⟩
  | .hbm, ⟨12, _⟩ => ⟨S128x16, .f32⟩
  | .hbm, ⟨13, _⟩ => ⟨S16, .f32⟩
  | .hbm, ⟨14, _⟩ => ⟨S16x1, .f32⟩
  | .hbm, ⟨15, _⟩ => ⟨S1, .f32⟩
  | .hbm, ⟨16, _⟩ => ⟨S50000x128, .f32⟩
  | .hbm, ⟨17, _⟩ => ⟨S_, .f32⟩
  | .hbm, ⟨18, _⟩ => ⟨S50000x128, .f32⟩
  | .hbm, ⟨19, _⟩ => ⟨S50000x128, .i1⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S128x1, .f32⟩
  | .hbm, ⟨43, _⟩ => ⟨S600000x1, .f32⟩
  | .hbm, ⟨44, _⟩ => ⟨S128x1, .f32⟩
  | .hbm, ⟨45, _⟩ => ⟨S600000x1, .f32⟩
  | .hbm, ⟨46, _⟩ => ⟨S600000x1, .f32⟩
  | .hbm, ⟨47, _⟩ => ⟨S600000x1, .f32⟩
  | .hbm, ⟨48, _⟩ => ⟨S600000x1, .f32⟩
  | .hbm, ⟨49, _⟩ => ⟨S_, .f32⟩
  | .hbm, ⟨50, _⟩ => ⟨S600000x1, .f32⟩
  | .hbm, ⟨51, _⟩ => ⟨S600000x1, .f32⟩
  | .hbm, ⟨52, _⟩ => ⟨S_, .f32⟩
  | .hbm, ⟨53, _⟩ => ⟨S600000x1, .f32⟩
  | .hbm, ⟨54, _⟩ => ⟨S600000x1, .f32⟩
  | .hbm, ⟨55, _⟩ => ⟨S600000x128, .f32⟩
  | .hbm, ⟨56, _⟩ => ⟨S600000x128, .f32⟩
  | .hbm, ⟨57, _⟩ => ⟨S600000x128, .f32⟩
  | .hbm, ⟨58, _⟩ => ⟨S600000x1, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S1x1, .f32⟩
  | .hbm, ⟨65, _⟩ => ⟨S600000x1, .f32⟩
  | .hbm, ⟨66, _⟩ => ⟨S600000x1, .f32⟩
  | .hbm, ⟨67, _⟩ => ⟨S600000x1, .f32⟩
  | .hbm, ⟨68, _⟩ => ⟨S_, .f32⟩
  | .hbm, ⟨69, _⟩ => ⟨S1, .f32⟩
  | .hbm, ⟨70, _⟩ => ⟨S1x1, .f32⟩
  | .hbm, ⟨71, _⟩ => ⟨S600000x1, .f32⟩
  | .hbm, ⟨72, _⟩ => ⟨S600000x1, .f32⟩
  | .hbm, ⟨73, _⟩ => ⟨S600000x128, .f32⟩
  | .hbm, ⟨74, _⟩ => ⟨S600000x128, .f32⟩
  | .hbm, ⟨75, _⟩ => ⟨S_, .f32⟩
  | .hbm, ⟨76, _⟩ => ⟨S600000x128, .f32⟩
  | .hbm, ⟨77, _⟩ => ⟨S600000x128, .i1⟩
  | .hbm, ⟨78, _⟩ => ⟨S_, .f32⟩
  | .hbm, ⟨79, _⟩ => ⟨S600000x128, .f32⟩
  | .hbm, ⟨80, _⟩ => ⟨S600000x128, .f32⟩
  | .hbm, ⟨81, _⟩ => ⟨S600000x128, .f32⟩
  | .hbm, ⟨82, _⟩ => ⟨S_, .f32⟩
  | .hbm, ⟨83, _⟩ => ⟨S50000x128, .f32⟩
  | .hbm, ⟨84, _⟩ => ⟨S600000x1, .i32⟩
  | .hbm, ⟨85, _⟩ => ⟨S50000x128, .f32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S1x512, .f32⟩
  | .hbm, ⟨90, _⟩ => ⟨S1x512, .f32⟩
  | .hbm, ⟨91, _⟩ => ⟨S1x512, .f32⟩
  | .hbm, ⟨92, _⟩ => ⟨S_, .f32⟩
  | .hbm, ⟨93, _⟩ => ⟨S1x512, .f32⟩
  | .hbm, ⟨94, _⟩ => ⟨S1x512, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S_, .f32⟩
  | .hbm, ⟨99, _⟩ => ⟨S1x128, .f32⟩
  | .hbm, ⟨100, _⟩ => ⟨S1x128, .f32⟩
  | .hbm, ⟨101, _⟩ => ⟨S1x16, .f32⟩
  | .hbm, ⟨102, _⟩ => ⟨S1x16, .f32⟩
  | .hbm, ⟨103, _⟩ => ⟨S1x16, .f32⟩
  | .hbm, ⟨104, _⟩ => ⟨S_, .f32⟩
  | .hbm, ⟨105, _⟩ => ⟨S1x16, .f32⟩
  | .hbm, ⟨106, _⟩ => ⟨S1x16, .f32⟩
  | .hbm, ⟨107, _⟩ => ⟨S1x1, .f32⟩
  | .hbm, ⟨108, _⟩ => ⟨S1x1, .f32⟩
  | .hbm, ⟨109, _⟩ => ⟨S1x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call2_cst : Ref sig .tc := ⟨.hbm, 92, rfl⟩
abbrev main_call2_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call3_cst : Ref sig .tc := ⟨.hbm, 98, rfl⟩
abbrev main_call3_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call4_cst : Ref sig .tc := ⟨.hbm, 104, rfl⟩
abbrev main_call4_v0 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S256x1_S128x1_0_0 : S256x1.Slices ![0, 0] S128x1
  slices_S256x1_S128x1_128_0 : S256x1.Slices ![128, 0] S128x1
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  reducesTo_S600000x1_S1_d0 : S600000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x128 : S_.BroadcastsInDim S600000x128 (![] : Fin 0 → Fin S600000x128.rank)
  reducesTo_S50000x128_S128_d0 : S50000x128.ReducesTo [0] S128
  bcast_S128_S1x128_1 : S128.BroadcastsInDim S1x128 (![1] : Fin 1 → Fin S1x128.rank)
  bcast_S512_S1x512_1 : S512.BroadcastsInDim S1x512 (![1] : Fin 1 → Fin S1x512.rank)
  bcast_S_S1x512 : S_.BroadcastsInDim S1x512 (![] : Fin 0 → Fin S1x512.rank)
  bcast_S_S1x128 : S_.BroadcastsInDim S1x128 (![] : Fin 0 → Fin S1x128.rank)
  bcast_S16_S1x16_1 : S16.BroadcastsInDim S1x16 (![1] : Fin 1 → Fin S1x16.rank)
  bcast_S_S1x16 : S_.BroadcastsInDim S1x16 (![] : Fin 0 → Fin S1x16.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  dot_S600000x128_S128x1_S600000x1_1_0_0_1_n_n_wf : DotDims.WF S600000x128 S128x1 S600000x1 [1] [0] [0] [1] [] []
  dot_S600000x64_S64x128_S600000x128_1_0_0_1_n_n_wf : DotDims.WF S600000x64 S64x128 S600000x128 [1] [0] [0] [1] [] []
  scatter_S50000x128_S600000x1_S600000x128_1_0_0_1_wf : ScatterDims.WF S50000x128 S600000x1 S600000x128 [1] [0] [0] 1
  dot_S1x128_S128x512_S1x512_1_0_0_1_n_n_wf : DotDims.WF S1x128 S128x512 S1x512 [1] [0] [0] [1] [] []
  dot_S1x512_S512x128_S1x128_1_0_0_1_n_n_wf : DotDims.WF S1x512 S512x128 S1x128 [1] [0] [0] [1] [] []
  dot_S1x128_S128x16_S1x16_1_0_0_1_n_n_wf : DotDims.WF S1x128 S128x16 S1x16 [1] [0] [0] [1] [] []
  dot_S1x16_S16x1_S1x1_1_0_0_1_n_n_wf : DotDims.WF S1x16 S16x1 S1x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf

class Facts : Prop extends Facts₀ where

variable [Facts]
-- ==== Proof.Tail.lean ====
/-
  The end of both programs, from the per-edge logits on, as functions of arrays.

  Both programs turn the column of logits `L` (one per edge) into softmax weights over ALL edges, scale each gathered
  source row `hs e` by its edge's weight, apply the leaky rectifier, add the rows up per destination node
  (`segment_sum`), add the nodes up, and run a four-layer perceptron on the resulting row. From the softmax weights on
  the two programs apply the same operations, so that part is ONE function here, `tailFrom`, never opened: the two
  sides are compared by the equality of its arguments.

  The softmax itself is spelt differently. The kernel's program takes the maximum and the sum over both axes of the
  E × 1 column, to scalars, and divides by `max (sum, 1e-30)`; the reference reduces over the edge axis only, to a
  one-entry vector, takes the maximum of that with -∞ once more, and divides by the sum. `smK` and `smR` are the
  two spellings.
-/
import proofs.«412961_j88510686036316_2_alg».proof.Proof.Gen.KernelIdeal
import proofs.«412961_j88510686036316_2_alg».proof.Proof.Gen.ReferenceIdeal

noncomputable section

namespace Cert.Tail

open Idealize.ShloMosaic

variable {F : FTy → Type} [FloatOps F]

section K
open Cert.KernelIdeal Cert.KernelIdeal.Gen

/-- From the softmax weights `sm` (E × 1) and the gathered source rows `hs` (E × D): the messages
    `leaky (sm e · hs e k)`, summed into their destination rows (`segment_sum`), summed over the nodes: one 1 × D row. -/
def aggFrom (sm : FVec F S600000x1 .f32) (hs : FVec F S600000x128 .f32) (dst : IVec S600000 32) : FVec F S1x128 .f32 :=
  broadcastInDim S1x128 ![1] bcast_S128_S1x128_1
    (Host.reduceAdd
      (Host.scatterAdd scatter_S50000x128_S600000x1_S600000x128_1_0_0_1
        (broadcastInDim S50000x128 ![] bcast_S_S50000x128 (constant S_ .f32 0x00000000#32))
        (broadcastInDim S600000x1 ![0] bcast_S600000_S600000x1_0 dst)
        (select
          (cmpf .ogt (mulf (broadcastInDim S600000x128 ![0, 1] bcast_S600000x1_S600000x128_0_1 sm) hs)
            (broadcastInDim S600000x128 ![] bcast_S_S600000x128 (constant S_ .f32 0x00000000#32)))
          (mulf (broadcastInDim S600000x128 ![0, 1] bcast_S600000x1_S600000x128_0_1 sm) hs)
          (mulf (broadcastInDim S600000x128 ![] bcast_S_S600000x128 (constant S_ .f32 0x3C23D70A#32))
            (mulf (broadcastInDim S600000x128 ![0, 1] bcast_S600000x1_S600000x128_0_1 sm) hs))))
      (constant S_ .f32 0x00000000#32) reducesTo_S50000x128_S128_d0 h_S_)

/-- The perceptron on the readout row `g`: `relu (relu (relu (g W1 + b1) W2 + b2) W3 + b3) W4 + b4`. -/
def mlpFrom (g : FVec F S1x128 .f32)
    (w1 : FVec F S128x512 .f32) (b1 : FVec F S512 .f32) (w2 : FVec F S512x128 .f32) (b2 : FVec F S128 .f32)
    (w3 : FVec F S128x16 .f32) (b3 : FVec F S16 .f32) (w4 : FVec F S16x1 .f32) (b4 : FVec F S1 .f32) : FVec F S1x1 .f32 :=
  addf (Host.dotGeneral dot_S1x16_S16x1_S1x1_1_0_0_1_n_n none
    (maximumf (addf (Host.dotGeneral dot_S1x128_S128x16_S1x16_1_0_0_1_n_n none
      (maximumf (addf (Host.dotGeneral dot_S1x512_S512x128_S1x128_1_0_0_1_n_n none
        (maximumf (addf (Host.dotGeneral dot_S1x128_S128x512_S1x512_1_0_0_1_n_n none g w1)
          (broadcastInDim S1x512 ![1] bcast_S512_S1x512_1 b1))
          (broadcastInDim S1x512 ![] bcast_S_S1x512 (constant S_ .f32 0x00000000#32)))
        w2) (broadcastInDim S1x128 ![1] bcast_S128_S1x128_1 b2))
        (broadcastInDim S1x128 ![] bcast_S_S1x128 (constant S_ .f32 0x00000000#32)))
      w3) (broadcastInDim S1x16 ![1] bcast_S16_S1x16_1 b3))
      (broadcastInDim S1x16 ![] bcast_S_S1x16 (constant S_ .f32 0x00000000#32)))
    w4) (broadcastInDim S1x1 ![1] bcast_S1_S1x1_1 b4)

/-- The shared end of both programs: the readout row of the messages, then the perceptron. -/
def tailFrom (sm : FVec F S600000x1 .f32) (hs : FVec F S600000x128 .f32) (dst : IVec S600000 32)
    (w1 : FVec F S128x512 .f32) (b1 : FVec F S512 .f32) (w2 : FVec F S512x128 .f32) (b2 : FVec F S128 .f32)
    (w3 : FVec F S128x16 .f32) (b3 : FVec F S16 .f32) (w4 : FVec F S16x1 .f32) (b4 : FVec F S1 .f32) : FVec F S1x1 .f32 :=
  mlpFrom (aggFrom sm hs dst) w1 b1 w2 b2 w3 b3 w4 b4

/-- The kernel program's softmax over all edges: maximum and sum taken over both axes, the divisor
    `max (sum, 1e-30)`. -/
def smK (L : FVec F S600000x1 .f32) : FVec F S600000x1 .f32 :=
  Host.divf
    (Host.exp (subf L (broadcastInDim S600000x1 ![] bcast_S_S600000x1
      (Host.reduce FloatOps.maximumf L (constant S_ .f32 0xFF800000#32) reducesTo_S600000x1_S_d0_1 h_S_))))
    (broadcastInDim S600000x1 ![] bcast_S_S600000x1
      (maximumf
        (Host.reduceAdd
          (Host.exp (subf L (broadcastInDim S600000x1 ![] bcast_S_S600000x1
            (Host.reduce FloatOps.maximumf L (constant S_ .f32 0xFF800000#32) reducesTo_S600000x1_S_d0_1 h_S_))))
          (constant S_ .f32 0x00000000#32) reducesTo_S600000x1_S_d0_1 h_S_)
        (constant S_ .f32 0x0DA24260#32)))

end K

section R
open Cert.ReferenceIdeal Cert.ReferenceIdeal.Gen

/-- The reference's softmax along the edge axis (`jax.nn.softmax (·, axis = 0)` of an E × 1 column). -/
def smR (L : FVec F S600000x1 .f32) : FVec F S600000x1 .f32 :=
  Host.divf
    (Host.exp (subf L (broadcastInDim S600000x1 ![0, 1] bcast_S1x1_S600000x1_0_1
      (broadcastInDim S1x1 ![1] bcast_S1_S1x1_1
        (maximumf (broadcastInDim S1 ![] bcast_S_S1 (constant S_ .f32 0xFF800000#32))
          (Host.reduce FloatOps.maximumf L (constant S_ .f32 0xFF800000#32) reducesTo_S600000x1_S1_d0 h_S_))))))
    (broadcastInDim S600000x1 ![0, 1] bcast_S1x1_S600000x1_0_1
      (broadcastInDim S1x1 ![1] bcast_S1_S1x1_1
        (Host.reduceAdd
          (Host.exp (subf L (broadcastInDim S600000x1 ![0, 1] bcast_S1x1_S600000x1_0_1
            (broadcastInDim S1x1 ![1] bcast_S1_S1x1_1
              (maximumf (broadcastInDim S1 ![] bcast_S_S1 (constant S_ .f32 0xFF800000#32))
                (Host.reduce FloatOps.maximumf L (constant S_ .f32 0xFF800000#32) reducesTo_S600000x1_S1_d0 h_S_))))))
          (constant S_ .f32 0x00000000#32) reducesTo_S600000x1_S1_d0 h_S_)))

end R

end Cert.Tail

end
-- ==== Proof.TailOps.lean ====
/- The last stretch of host operations of the kernel program (`Cert.KernelIdeal.Gen.hostOps2`, 51 operations), each
   respelt over its buffers, in three consecutive lists: the softmax over all edges (14 operations), the messages with
   their sum per destination node and the sum over the nodes (16), the perceptron (21). A table, no argument: that the
   three lists in order ARE the printed stretch is proved where they are used. -/
import proofs.«412961_j88510686036316_2_alg».proof.Proof.Gen.KernelIdeal.Launch

noncomputable section

namespace Cert.KernelIdeal.TailOps

open Cert.KernelIdeal Cert.KernelIdeal.Gen Idealize.ShloMosaic Idealize.ShloMosaic.TcCoe Idealize.SL.Sem

variable {F : FTy → Type} [FloatOps F]

/-- The softmax: from the logits to the weights. -/
abbrev opsSm : List (HloOp τ sig (Elt F)) :=
  ( StableHlo.nullary main_call0_cst ((constant S_ .f32 0xFF800000#32) : (⟨S_, .f32⟩ : BufTy).Contents (Elt F))
  :: StableHlo.binary main_call0_v13 main_call0_cst main_call0_v14 (((fun x v => Host.reduce FloatOps.maximumf x v reducesTo_S600000x1_S_d0_1 h_S_)) : (⟨S600000x1, .f32⟩ : BufTy).Contents (Elt F) → (⟨S_, .f32⟩ : BufTy).Contents (Elt F) → (⟨S_, .f32⟩ : BufTy).Contents (Elt F))
  :: StableHlo.unary main_call0_v14 main_call0_v15 (((broadcastInDim S600000x1 ![] bcast_S_S600000x1)) : (⟨S_, .f32⟩ : BufTy).Contents (Elt F) → (⟨S600000x1, .f32⟩ : BufTy).Contents (Elt F))
  :: StableHlo.binary main_call0_v13 main_call0_v15 main_call0_v16 ((subf) : (⟨S600000x1, .f32⟩ : BufTy).Contents (Elt F) → (⟨S600000x1, .f32⟩ : BufTy).Contents (Elt F) → (⟨S600000x1, .f32⟩ : BufTy).Contents (Elt F))
  :: StableHlo.unary main_call0_v16 main_call0_v17 ((Host.exp) : (⟨S600000x1, .f32⟩ : BufTy).Contents (Elt F) → (⟨S600000x1, .f32⟩ : BufTy).Contents (Elt F))
  :: StableHlo.nullary main_call0_cst_0 ((constant S_ .f32 0x00000000#32) : (⟨S_, .f32⟩ : BufTy).Contents (Elt F))
  :: StableHlo.binary main_call0_v17 main_call0_cst_0 main_call0_v18 (((fun x v => Host.reduceAdd x v reducesTo_S600000x1_S_d0_1 h_S_)) : (⟨S600000x1, .f32⟩ : BufTy).Contents (Elt F) → (⟨S_, .f32⟩ : BufTy).Contents (Elt F) → (⟨S_, .f32⟩ : BufTy).Contents (Elt F))
  :: StableHlo.unary main_call0_v14 main_call0_v19 (((broadcastInDim S600000x1 ![] bcast_S_S600000x1)) : (⟨S_, .f32⟩ : BufTy).Contents (Elt F) → (⟨S600000x1, .f32⟩ : BufTy).Contents (Elt F))
  :: StableHlo.binary main_call0_v13 main_call0_v19 main_call0_v20 ((subf) : (⟨S600000x1, .f32⟩ : BufTy).Contents (Elt F) → (⟨S600000x1, .f32⟩ : BufTy).Contents (Elt F) → (⟨S600000x1, .f32⟩ : BufTy).Contents (Elt F))
  :: StableHlo.unary main_call0_v20 main_call0_v21 ((Host.exp) : (⟨S600000x1, .f32⟩ : BufTy).Contents (Elt F) → (⟨S600000x1, .f32⟩ : BufTy).Contents (Elt F))
  :: StableHlo.nullary main_call0_cst_1 ((constant S_ .f32 0x0DA24260#32) : (⟨S_, .f32⟩ : BufTy).Contents (Elt F))
  :: StableHlo.binary main_call0_v18 main_call0_cst_1 main_call0_v22 ((maximumf) : (⟨S_, .f32⟩ : BufTy).Contents (Elt F) → (⟨S_, .f32⟩ : BufTy).Contents (Elt F) → (⟨S_, .f32⟩ : BufTy).Contents (Elt F))
  :: StableHlo.unary main_call0_v22 main_call0_v23 (((broadcastInDim S600000x1 ![] bcast_S_S600000x1)) : (⟨S_, .f32⟩ : BufTy).Contents (Elt F) → (⟨S600000x1, .f32⟩ : BufTy).Contents (Elt F))
  :: StableHlo.binary main_call0_v21 main_call0_v23 main_call0_v24 ((Host.divf) : (⟨S600000x1, .f32⟩ : BufTy).Contents (Elt F) → (⟨S600000x1, .f32⟩ : BufTy).Contents (Elt F) → (⟨S600000x1, .f32⟩ : BufTy).Contents (Elt F))
  :: [] )

/-- The messages, their sum per destination node, the sum over the nodes. -/
abbrev opsAgg : List (HloOp τ sig (Elt F)) :=
  ( StableHlo.unary main_call0_v24 main_call0_v25 (((broadcastInDim S600000x128 ![0, 1] bcast_S600000x1_S600000x128_0_1)) : (⟨S600000x1, .f32⟩ : BufTy).Contents (Elt F) → (⟨S600000x128, .f32⟩ : BufTy).Contents (Elt F))
  :: StableHlo.binary main_call0_v25 main_call0_v7 main_call0_v26 ((mulf) : (⟨S600000x128, .f32⟩ : BufTy).Contents (Elt F) → (⟨S600000x128, .f32⟩ : BufTy).Contents (Elt F) → (⟨S600000x128, .f32⟩ : BufTy).Contents (Elt F))
  :: StableHlo.nullary main_call0_cst_2 ((constant S_ .f32 0x00000000#32) : (⟨S_, .f32⟩ : BufTy).Contents (Elt F))
  :: StableHlo.unary main_call0_cst_2 main_call0_v27 (((broadcastInDim S600000x128 ![] bcast_S_S600000x128)) : (⟨S_, .f32⟩ : BufTy).Contents (Elt F) → (⟨S600000x128, .f32⟩ : BufTy).Contents (Elt F))
  :: StableHlo.binary main_call0_v26 main_call0_v27 main_call0_v28 (((cmpf .ogt)) : (⟨S600000x128, .f32⟩ : BufTy).Contents (Elt F) → (⟨S600000x128, .f32⟩ : BufTy).Contents (Elt F) → (⟨S600000x128, .i1⟩ : BufTy).Contents (Elt F))
  :: StableHlo.nullary main_call0_cst_3 ((constant S_ .f32 0x3C23D70A#32) : (⟨S_, .f32⟩ : BufTy).Contents (Elt F))
  :: StableHlo.unary main_call0_cst_3 main_call0_v29 (((broadcastInDim S600000x128 ![] bcast_S_S600000x128)) : (⟨S_, .f32⟩ : BufTy).Contents (Elt F) → (⟨S600000x128, .f32⟩ : BufTy).Contents (Elt F))
  :: StableHlo.binary main_call0_v29 main_call0_v26 main_call0_v30 ((mulf) : (⟨S600000x128, .f32⟩ : BufTy).Contents (Elt F) → (⟨S600000x128, .f32⟩ : BufTy).Contents (Elt F) → (⟨S600000x128, .f32⟩ : BufTy).Contents (Elt F))
  :: StableHlo.ternary main_call0_v28 main_call0_v26 main_call0_v30 main_call0_v31 ((select) : (⟨S600000x128, .i1⟩ : BufTy).Contents (Elt F) → (⟨S600000x128, .f32⟩ : BufTy).Contents (Elt F) → (⟨S600000x128, .f32⟩ : BufTy).Contents (Elt F) → (⟨S600000x128, .f32⟩ : BufTy).Contents (Elt F))
  :: StableHlo.nullary main_call0_cst_4 ((constant S_ .f32 0x00000000#32) : (⟨S_, .f32⟩ : BufTy).Contents (Elt F))
  :: StableHlo.unary main_call0_cst_4 main_call0_v32 (((broadcastInDim S50000x128 ![] bcast_S_S50000x128)) : (⟨S_, .f32⟩ : BufTy).Contents (Elt F) → (⟨S50000x128, .f32⟩ : BufTy).Contents (Elt F))
  :: StableHlo.unary main_arg3 main_call0_v33 (((broadcastInDim S600000x1 ![0] bcast_S600000_S600000x1_0)) : (⟨S600000, .i32⟩ : BufTy).Contents (Elt F) → (⟨S600000x1, .i32⟩ : BufTy).Contents (Elt F))
  :: StableHlo.ternary main_call0_v32 main_call0_v33 main_call0_v31 main_call0_v34 (((fun x i u => Host.scatterAdd scatter_S50000x128_S600000x1_S600000x128_1_0_0_1 x i u)) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))
  :: StableHlo.nullary main_call0_cst_5 ((constant S_ .f32 0x00000000#32) : (⟨S_, .f32⟩ : BufTy).Contents (Elt F))
  :: StableHlo.binary main_call0_v34 main_call0_cst_5 main_call0_v35 (((fun x v => Host.reduceAdd x v reducesTo_S50000x128_S128_d0 h_S_)) : (⟨S50000x128, .f32⟩ : BufTy).Contents (Elt F) → (⟨S_, .f32⟩ : BufTy).Contents (Elt F) → (⟨S128, .f32⟩ : BufTy).Contents (Elt F))
  :: StableHlo.unary main_call0_v35 main_call0_v36 (((broadcastInDim S1x128 ![1] bcast_S128_S1x128_1)) : (⟨S128, .f32⟩ : BufTy).Contents (Elt F) → (⟨S1x128, .f32⟩ : BufTy).Contents (Elt F))
  :: [] )

/-- The perceptron. -/
abbrev opsMlp : List (HloOp τ sig (Elt F)) :=
  ( StableHlo.binary main_call0_v36 main_arg8 main_call0_v37 (((fun l r => Host.dotGeneral dot_S1x128_S128x512_S1x512_1_0_0_1_n_n none l r)) : (⟨S1x128, .f32⟩ : BufTy).Contents (Elt F) → (⟨S128x512, .f32⟩ : BufTy).Contents (Elt F) → (⟨S1x512, .f32⟩ : BufTy).Contents (Elt F))
  :: StableHlo.unary main_arg9 main_call0_v38 (((broadcastInDim S1x512 ![1] bcast_S512_S1x512_1)) : (⟨S512, .f32⟩ : BufTy).Contents (Elt F) → (⟨S1x512, .f32⟩ : BufTy).Contents (Elt F))
  :: StableHlo.binary main_call0_v37 main_call0_v38 main_call0_v39 ((addf) : (⟨S1x512, .f32⟩ : BufTy).Contents (Elt F) → (⟨S1x512, .f32⟩ : BufTy).Contents (Elt F) → (⟨S1x512, .f32⟩ : BufTy).Contents (Elt F))
  :: StableHlo.nullary main_call0_call4_cst ((constant S_ .f32 0x00000000#32) : (⟨S_, .f32⟩ : BufTy).Contents (Elt F))
  :: StableHlo.unary main_call0_call4_cst main_call0_call4_v0 (((broadcastInDim S1x512 ![] bcast_S_S1x512)) : (⟨S_, .f32⟩ : BufTy).Contents (Elt F) → (⟨S1x512, .f32⟩ : BufTy).Contents (Elt F))
  :: StableHlo.binary main_call0_v39 main_call0_call4_v0 main_call0_v40 ((maximumf) : (⟨S1x512, .f32⟩ : BufTy).Contents (Elt F) → (⟨S1x512, .f32⟩ : BufTy).Contents (Elt F) → (⟨S1x512, .f32⟩ : BufTy).Contents (Elt F))
  :: StableHlo.binary main_call0_v40 main_arg10 main_call0_v41 (((fun l r => Host.dotGeneral dot_S1x512_S512x128_S1x128_1_0_0_1_n_n none l r)) : (⟨S1x512, .f32⟩ : BufTy).Contents (Elt F) → (⟨S512x128, .f32⟩ : BufTy).Contents (Elt F) → (⟨S1x128, .f32⟩ : BufTy).Contents (Elt F))
  :: StableHlo.unary main_arg11 main_call0_v42 (((broadcastInDim S1x128 ![1] bcast_S128_S1x128_1)) : (⟨S128, .f32⟩ : BufTy).Contents (Elt F) → (⟨S1x128, .f32⟩ : BufTy).Contents (Elt F))
  :: StableHlo.binary main_call0_v41 main_call0_v42 main_call0_v43 ((addf) : (⟨S1x128, .f32⟩ : BufTy).Contents (Elt F) → (⟨S1x128, .f32⟩ : BufTy).Contents (Elt F) → (⟨S1x128, .f32⟩ : BufTy).Contents (Elt F))
  :: StableHlo.nullary main_call0_call5_cst ((constant S_ .f32 0x00000000#32) : (⟨S_, .f32⟩ : BufTy).Contents (Elt F))
  :: StableHlo.unary main_call0_call5_cst main_call0_call5_v0 (((broadcastInDim S1x128 ![] bcast_S_S1x128)) : (⟨S_, .f32⟩ : BufTy).Contents (Elt F) → (⟨S1x128, .f32⟩ : BufTy).Contents (Elt F))
  :: StableHlo.binary main_call0_v43 main_call0_call5_v0 main_call0_v44 ((maximumf) : (⟨S1x128, .f32⟩ : BufTy).Contents (Elt F) → (⟨S1x128, .f32⟩ : BufTy).Contents (Elt F) → (⟨S1x128, .f32⟩ : BufTy).Contents (Elt F))
  :: StableHlo.binary main_call0_v44 main_arg12 main_call0_v45 (((fun l r => Host.dotGeneral dot_S1x128_S128x16_S1x16_1_0_0_1_n_n none l r)) : (⟨S1x128, .f32⟩ : BufTy).Contents (Elt F) → (⟨S128x16, .f32⟩ : BufTy).Contents (Elt F) → (⟨S1x16, .f32⟩ : BufTy).Contents (Elt F))
  :: StableHlo.unary main_arg13 main_call0_v46 (((broadcastInDim S1x16 ![1] bcast_S16_S1x16_1)) : (⟨S16, .f32⟩ : BufTy).Contents (Elt F) → (⟨S1x16, .f32⟩ : BufTy).Contents (Elt F))
  :: StableHlo.binary main_call0_v45 main_call0_v46 main_call0_v47 ((addf) : (⟨S1x16, .f32⟩ : BufTy).Contents (Elt F) → (⟨S1x16, .f32⟩ : BufTy).Contents (Elt F) → (⟨S1x16, .f32⟩ : BufTy).Contents (Elt F))
  :: StableHlo.nullary main_call0_call6_cst ((constant S_ .f32 0x00000000#32) : (⟨S_, .f32⟩ : BufTy).Contents (Elt F))
  :: StableHlo.unary main_call0_call6_cst main_call0_call6_v0 (((broadcastInDim S1x16 ![] bcast_S_S1x16)) : (⟨S_, .f32⟩ : BufTy).Contents (Elt F) → (⟨S1x16, .f32⟩ : BufTy).Contents (Elt F))
  :: StableHlo.binary main_call0_v47 main_call0_call6_v0 main_call0_v48 ((maximumf) : (⟨S1x16, .f32⟩ : BufTy).Contents (Elt F) → (⟨S1x16, .f32⟩ : BufTy).Contents (Elt F) → (⟨S1x16, .f32⟩ : BufTy).Contents (Elt F))
  :: StableHlo.binary main_call0_v48 main_arg14 main_call0_v49 (((fun l r => Host.dotGeneral dot_S1x16_S16x1_S1x1_1_0_0_1_n_n none l r)) : (⟨S1x16, .f32⟩ : BufTy).Contents (Elt F) → (⟨S16x1, .f32⟩ : BufTy).Contents (Elt F) → (⟨S1x1, .f32⟩ : BufTy).Contents (Elt F))
  :: StableHlo.unary main_arg15 main_call0_v50 (((broadcastInDim S1x1 ![1] bcast_S1_S1x1_1)) : (⟨S1, .f32⟩ : BufTy).Contents (Elt F) → (⟨S1x1, .f32⟩ : BufTy).Contents (Elt F))
  :: StableHlo.binary main_call0_v49 main_call0_v50 main_v0 ((addf) : (⟨S1x1, .f32⟩ : BufTy).Contents (Elt F) → (⟨S1x1, .f32⟩ : BufTy).Contents (Elt F) → (⟨S1x1, .f32⟩ : BufTy).Contents (Elt F))
  :: [] )

end Cert.KernelIdeal.TailOps

end
-- ==== Proof.Boundary.lean ====
/-
  The buffer contents at the boundaries of the kernel program's five segments (a stretch of host operations, the
  node-update call, a stretch, the edge-logit call, a stretch), read where the value proof needs them.

  * An argument array that no host operation writes and no call stages as an output keeps its launch contents at every
    boundary (`W1_arg…`, `W2_arg…`, `W4_arg…`).
  * Before the first call the host slices the attention vector `a` (256 × 1) into its halves and lays each out as a
    1 × 128 row: `a1_row`, `a2_row`.
  * After the second call the host computes the result from the logits, the gathered source rows, the destination
    indices and the perceptron's weights: the softmax `Cert.Tail.smK` followed by `Cert.Tail.tailFrom` (`result_tail`).
-/
import proofs.«412961_j88510686036316_2_alg».proof.Proof.Gen.KernelIdeal.Frame
import proofs.«412961_j88510686036316_2_alg».proof.Proof.Tail
import proofs.«412961_j88510686036316_2_alg».proof.Proof.TailOps
import Idealize.ShloMosaic.Lib.StableHlo.Run

set_option maxRecDepth 16384

noncomputable section

namespace Cert.KernelIdeal.Boundary

open Cert.KernelIdeal Cert.KernelIdeal.Gen Cert.KernelIdeal.TailOps Idealize.ShloMosaic Idealize.ShloMosaic.TcCoe Idealize.SL.Sem
  Idealize.ShloMosaic.StableHlo

variable {F : FTy → Type} [FloatOps F]
variable (m : (ℓ : Loc nD τ sig) → Buf (Elt F) ℓ) (ρ : Dev nD → PrngReg) (c : Dev nD)

/-- A stretch of host operations none of which writes the buffer leaves it as it was. -/
local macro "skip_stretch" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at the first call's entry -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  skip_stretch hostOps0
theorem W1_arg1 : W1 m ρ c (Proc.devRef .tc main_arg1) = m ((c : Thread nD τ).loc main_arg1) := by
  show StableHlo.after hostOps0 (W0 m ρ c) (Proc.devRef .tc main_arg1) = W0 m ρ c (Proc.devRef .tc main_arg1)
  skip_stretch hostOps0
theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  skip_stretch hostOps0
theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  skip_stretch hostOps0
theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  skip_stretch hostOps0
theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  skip_stretch hostOps0
theorem W1_arg7 : W1 m ρ c (Proc.devRef .tc main_arg7) = m ((c : Thread nD τ).loc main_arg7) := by
  show StableHlo.after hostOps0 (W0 m ρ c) (Proc.devRef .tc main_arg7) = W0 m ρ c (Proc.devRef .tc main_arg7)
  skip_stretch hostOps0
theorem W1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  skip_stretch hostOps0
theorem W1_arg9 : W1 m ρ c (Proc.devRef .tc main_arg9) = m ((c : Thread nD τ).loc main_arg9) := by
  show StableHlo.after hostOps0 (W0 m ρ c) (Proc.devRef .tc main_arg9) = W0 m ρ c (Proc.devRef .tc main_arg9)
  skip_stretch hostOps0
theorem W1_arg10 : W1 m ρ c (Proc.devRef .tc main_arg10) = m ((c : Thread nD τ).loc main_arg10) := by
  show StableHlo.after hostOps0 (W0 m ρ c) (Proc.devRef .tc main_arg10) = W0 m ρ c (Proc.devRef .tc main_arg10)
  skip_stretch hostOps0
theorem W1_arg11 : W1 m ρ c (Proc.devRef .tc main_arg11) = m ((c : Thread nD τ).loc main_arg11) := by
  show StableHlo.after hostOps0 (W0 m ρ c) (Proc.devRef .tc main_arg11) = W0 m ρ c (Proc.devRef .tc main_arg11)
  skip_stretch hostOps0
theorem W1_arg12 : W1 m ρ c (Proc.devRef .tc main_arg12) = m ((c : Thread nD τ).loc main_arg12) := by
  show StableHlo.after hostOps0 (W0 m ρ c) (Proc.devRef .tc main_arg12) = W0 m ρ c (Proc.devRef .tc main_arg12)
  skip_stretch hostOps0
theorem W1_arg13 : W1 m ρ c (Proc.devRef .tc main_arg13) = m ((c : Thread nD τ).loc main_arg13) := by
  show StableHlo.after hostOps0 (W0 m ρ c) (Proc.devRef .tc main_arg13) = W0 m ρ c (Proc.devRef .tc main_arg13)
  skip_stretch hostOps0
theorem W1_arg14 : W1 m ρ c (Proc.devRef .tc main_arg14) = m ((c : Thread nD τ).loc main_arg14) := by
  show StableHlo.after hostOps0 (W0 m ρ c) (Proc.devRef .tc main_arg14) = W0 m ρ c (Proc.devRef .tc main_arg14)
  skip_stretch hostOps0
theorem W1_arg15 : W1 m ρ c (Proc.devRef .tc main_arg15) = m ((c : Thread nD τ).loc main_arg15) := by
  show StableHlo.after hostOps0 (W0 m ρ c) (Proc.devRef .tc main_arg15) = W0 m ρ c (Proc.devRef .tc main_arg15)
  skip_stretch hostOps0

/-! ## The arguments at the first call's exit (the call stages `h` and `W_u` only) -/

theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg5 : W2 m ρ c (Proc.devRef .tc main_arg5) = m ((c : Thread nD τ).loc main_arg5) :=
  (W2_of_ne m ρ c main_arg5 (by decide)).trans (W1_arg5 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)

/-! ## The arguments the last stretch reads, at the second call's exit -/

theorem W4_arg3 : W4 m ρ c (Proc.devRef .tc main_arg3) = m ((c : Thread nD τ).loc main_arg3) :=
  (W4_of_ne m ρ c main_arg3 (by decide)).trans
    ((by show StableHlo.after hostOps1 (W2 m ρ c) (Proc.devRef .tc main_arg3) = W2 m ρ c (Proc.devRef .tc main_arg3)
         skip_stretch hostOps1 : W3 m ρ c (Proc.devRef .tc main_arg3) = W2 m ρ c (Proc.devRef .tc main_arg3)).trans (W2_arg3 m ρ c))
theorem W4_arg8 : W4 m ρ c (Proc.devRef .tc main_arg8) = m ((c : Thread nD τ).loc main_arg8) :=
  (W4_of_ne m ρ c main_arg8 (by decide)).trans
    ((by show StableHlo.after hostOps1 (W2 m ρ c) (Proc.devRef .tc main_arg8) = W2 m ρ c (Proc.devRef .tc main_arg8)
         skip_stretch hostOps1 : W3 m ρ c (Proc.devRef .tc main_arg8) = W2 m ρ c (Proc.devRef .tc main_arg8)).trans (W2_arg8 m ρ c))
theorem W4_arg9 : W4 m ρ c (Proc.devRef .tc main_arg9) = m ((c : Thread nD τ).loc main_arg9) :=
  (W4_of_ne m ρ c main_arg9 (by decide)).trans
    ((by show StableHlo.after hostOps1 (W2 m ρ c) (Proc.devRef .tc main_arg9) = W2 m ρ c (Proc.devRef .tc main_arg9)
         skip_stretch hostOps1 : W3 m ρ c (Proc.devRef .tc main_arg9) = W2 m ρ c (Proc.devRef .tc main_arg9)).trans (W2_arg9 m ρ c))
theorem W4_arg10 : W4 m ρ c (Proc.devRef .tc main_arg10) = m ((c : Thread nD τ).loc main_arg10) :=
  (W4_of_ne m ρ c main_arg10 (by decide)).trans
    ((by show StableHlo.after hostOps1 (W2 m ρ c) (Proc.devRef .tc main_arg10) = W2 m ρ c (Proc.devRef .tc main_arg10)
         skip_stretch hostOps1 : W3 m ρ c (Proc.devRef .tc main_arg10) = W2 m ρ c (Proc.devRef .tc main_arg10)).trans (W2_arg10 m ρ c))
theorem W4_arg11 : W4 m ρ c (Proc.devRef .tc main_arg11) = m ((c : Thread nD τ).loc main_arg11) :=
  (W4_of_ne m ρ c main_arg11 (by decide)).trans
    ((by show StableHlo.after hostOps1 (W2 m ρ c) (Proc.devRef .tc main_arg11) = W2 m ρ c (Proc.devRef .tc main_arg11)
         skip_stretch hostOps1 : W3 m ρ c (Proc.devRef .tc main_arg11) = W2 m ρ c (Proc.devRef .tc main_arg11)).trans (W2_arg11 m ρ c))
theorem W4_arg12 : W4 m ρ c (Proc.devRef .tc main_arg12) = m ((c : Thread nD τ).loc main_arg12) :=
  (W4_of_ne m ρ c main_arg12 (by decide)).trans
    ((by show StableHlo.after hostOps1 (W2 m ρ c) (Proc.devRef .tc main_arg12) = W2 m ρ c (Proc.devRef .tc main_arg12)
         skip_stretch hostOps1 : W3 m ρ c (Proc.devRef .tc main_arg12) = W2 m ρ c (Proc.devRef .tc main_arg12)).trans (W2_arg12 m ρ c))
theorem W4_arg13 : W4 m ρ c (Proc.devRef .tc main_arg13) = m ((c : Thread nD τ).loc main_arg13) :=
  (W4_of_ne m ρ c main_arg13 (by decide)).trans
    ((by show StableHlo.after hostOps1 (W2 m ρ c) (Proc.devRef .tc main_arg13) = W2 m ρ c (Proc.devRef .tc main_arg13)
         skip_stretch hostOps1 : W3 m ρ c (Proc.devRef .tc main_arg13) = W2 m ρ c (Proc.devRef .tc main_arg13)).trans (W2_arg13 m ρ c))
theorem W4_arg14 : W4 m ρ c (Proc.devRef .tc main_arg14) = m ((c : Thread nD τ).loc main_arg14) :=
  (W4_of_ne m ρ c main_arg14 (by decide)).trans
    ((by show StableHlo.after hostOps1 (W2 m ρ c) (Proc.devRef .tc main_arg14) = W2 m ρ c (Proc.devRef .tc main_arg14)
         skip_stretch hostOps1 : W3 m ρ c (Proc.devRef .tc main_arg14) = W2 m ρ c (Proc.devRef .tc main_arg14)).trans (W2_arg14 m ρ c))
theorem W4_arg15 : W4 m ρ c (Proc.devRef .tc main_arg15) = m ((c : Thread nD τ).loc main_arg15) :=
  (W4_of_ne m ρ c main_arg15 (by decide)).trans
    ((by show StableHlo.after hostOps1 (W2 m ρ c) (Proc.devRef .tc main_arg15) = W2 m ρ c (Proc.devRef .tc main_arg15)
         skip_stretch hostOps1 : W3 m ρ c (Proc.devRef .tc main_arg15) = W2 m ρ c (Proc.devRef .tc main_arg15)).trans (W2_arg15 m ρ c))

/-- The gathered source rows are not one of the second call's arrays: they pass it unchanged. -/
theorem W4_hs : W4 m ρ c (Proc.devRef .tc main_call0_v7) = W3 m ρ c (Proc.devRef .tc main_call0_v7) :=
  W4_of_ne m ρ c main_call0_v7 (by decide)

/-! ## The attention vector's halves as rows -/

theorem a1_row : W1 m ρ c (Proc.devRef .tc main_call0_v2)
    = shapeCast S1x128 (shapeCast S128 (extractStridedSlice S128x1 ![0, 0] (m ((c : Thread nD τ).loc main_arg6)) slices_S256x1_S128x1_0_0) shapeCasts_S128x1_S128) shapeCasts_S128_S1x128 := by
  show StableHlo.after hostOps0 (W0 m ρ c) (Proc.devRef .tc main_call0_v2) = _
  after_results
  rfl

theorem a2_row : W1 m ρ c (Proc.devRef .tc main_call0_v5)
    = shapeCast S1x128 (shapeCast S128 (extractStridedSlice S128x1 ![128, 0] (m ((c : Thread nD τ).loc main_arg6)) slices_S256x1_S128x1_128_0) shapeCasts_S128x1_S128) shapeCasts_S128_S1x128 := by
  show StableHlo.after hostOps0 (W0 m ρ c) (Proc.devRef .tc main_call0_v5) = _
  after_results
  rfl

/-! ## The last stretch, in three stages

The last stretch of host operations is read in three pieces — the softmax (14 operations), the messages with
their scatter-add and the readout sum (16), the perceptron (21) — each over an arbitrary valuation, with the
operations spelt over the buffers themselves (the lists `opsSm`, `opsAgg`, `opsMlp`). -/

/-- An operation printed over typed references whose types are the buffers' own is the operation over the buffers. -/
theorem nullary_raw (y : Ref sig .tc) (v : y.ty.Contents (Elt F)) (h1 : y.space ≠ .host) (h2 : y.isScoped = false) :
    (StableHlo.TRef.nullary (τ := τ) (⟨y, rfl, h1, h2⟩ : StableHlo.TRef sig y.ty) v : HloOp τ sig (Elt F))
      = StableHlo.nullary y v ⟨h1, h2⟩ := rfl
theorem unary_raw (x y : Ref sig .tc) (f : x.ty.Contents (Elt F) → y.ty.Contents (Elt F))
    (hx1 : x.space ≠ .host) (hx2 : x.isScoped = false) (hy1 : y.space ≠ .host) (hy2 : y.isScoped = false) :
    (StableHlo.TRef.unary (τ := τ) (⟨x, rfl, hx1, hx2⟩ : StableHlo.TRef sig x.ty) (⟨y, rfl, hy1, hy2⟩ : StableHlo.TRef sig y.ty) f : HloOp τ sig (Elt F))
      = StableHlo.unary x y f ⟨hx1, hx2⟩ ⟨hy1, hy2⟩ := rfl
theorem binary_raw (a b y : Ref sig .tc) (f : a.ty.Contents (Elt F) → b.ty.Contents (Elt F) → y.ty.Contents (Elt F))
    (ha1 : a.space ≠ .host) (ha2 : a.isScoped = false) (hb1 : b.space ≠ .host) (hb2 : b.isScoped = false)
    (hy1 : y.space ≠ .host) (hy2 : y.isScoped = false) :
    (StableHlo.TRef.binary (τ := τ) (⟨a, rfl, ha1, ha2⟩ : StableHlo.TRef sig a.ty) (⟨b, rfl, hb1, hb2⟩ : StableHlo.TRef sig b.ty)
        (⟨y, rfl, hy1, hy2⟩ : StableHlo.TRef sig y.ty) f : HloOp τ sig (Elt F))
      = StableHlo.binary a b y f ⟨ha1, ha2⟩ ⟨hb1, hb2⟩ ⟨hy1, hy2⟩ := rfl
theorem ternary_raw (c a b y : Ref sig .tc)
    (f : c.ty.Contents (Elt F) → a.ty.Contents (Elt F) → b.ty.Contents (Elt F) → y.ty.Contents (Elt F))
    (hc1 : c.space ≠ .host) (hc2 : c.isScoped = false) (ha1 : a.space ≠ .host) (ha2 : a.isScoped = false)
    (hb1 : b.space ≠ .host) (hb2 : b.isScoped = false) (hy1 : y.space ≠ .host) (hy2 : y.isScoped = false) :
    (StableHlo.TRef.ternary (τ := τ) (⟨c, rfl, hc1, hc2⟩ : StableHlo.TRef sig c.ty) (⟨a, rfl, ha1, ha2⟩ : StableHlo.TRef sig a.ty)
        (⟨b, rfl, hb1, hb2⟩ : StableHlo.TRef sig b.ty) (⟨y, rfl, hy1, hy2⟩ : StableHlo.TRef sig y.ty) f : HloOp τ sig (Elt F))
      = StableHlo.ternary c a b y f ⟨hc1, hc2⟩ ⟨ha1, ha2⟩ ⟨hb1, hb2⟩ ⟨hy1, hy2⟩ := rfl

/-- The head operations of the two spellings are one operation, by its kind's lemma above. -/
local macro "same_op" : tactic =>
  `(tactic| first | exact nullary_raw .. | exact unary_raw .. | exact binary_raw .. | exact ternary_raw ..)

/-- The three lists in order are the printed stretch: operation by operation the two spellings are one operation. -/
theorem hostOps2_split : (hostOps2 : List (HloOp τ sig (Elt F))) = opsSm ++ (opsAgg ++ opsMlp) := by
  show (hostOps2 : List (HloOp τ sig (Elt F))) = _
  simp only [opsSm, opsAgg, opsMlp, List.cons_append, List.nil_append]
  unfold hostOps2
  iterate 51 (refine congrArg₂ List.cons ?_ ?_; · same_op)
  rfl

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op ops ih => exact ih _

section Stages
variable (V : Valuation τ sig (Elt F))

theorem stageSm : StableHlo.after opsSm V (Proc.devRef .tc main_call0_v24) = Cert.Tail.smK (V (Proc.devRef .tc main_call0_v13)) := by
  after_results_simp
  rfl

theorem stageAgg : StableHlo.after opsAgg V (Proc.devRef .tc main_call0_v36)
    = Cert.Tail.aggFrom (V (Proc.devRef .tc main_call0_v24)) (V (Proc.devRef .tc main_call0_v7)) (V (Proc.devRef .tc main_arg3)) := by
  after_results_simp
  rfl

theorem stageMlp : StableHlo.after opsMlp V (Proc.devRef .tc main_v0)
    = Cert.Tail.mlpFrom (V (Proc.devRef .tc main_call0_v36)) (V (Proc.devRef .tc main_arg8)) (V (Proc.devRef .tc main_arg9))
        (V (Proc.devRef .tc main_arg10)) (V (Proc.devRef .tc main_arg11)) (V (Proc.devRef .tc main_arg12))
        (V (Proc.devRef .tc main_arg13)) (V (Proc.devRef .tc main_arg14)) (V (Proc.devRef .tc main_arg15)) := by
  after_results_simp
  rfl

theorem keepSm_main_call0_v7 : StableHlo.after opsSm V (Proc.devRef .tc main_call0_v7) = V (Proc.devRef .tc main_call0_v7) := by
  skip_stretch opsSm
theorem keepSm_main_arg3 : StableHlo.after opsSm V (Proc.devRef .tc main_arg3) = V (Proc.devRef .tc main_arg3) := by
  skip_stretch opsSm
theorem keepSm_main_arg8 : StableHlo.after opsSm V (Proc.devRef .tc main_arg8) = V (Proc.devRef .tc main_arg8) := by
  skip_stretch opsSm
theorem keepSm_main_arg9 : StableHlo.after opsSm V (Proc.devRef .tc main_arg9) = V (Proc.devRef .tc main_arg9) := by
  skip_stretch opsSm
theorem keepSm_main_arg10 : StableHlo.after opsSm V (Proc.devRef .tc main_arg10) = V (Proc.devRef .tc main_arg10) := by
  skip_stretch opsSm
theorem keepSm_main_arg11 : StableHlo.after opsSm V (Proc.devRef .tc main_arg11) = V (Proc.devRef .tc main_arg11) := by
  skip_stretch opsSm
theorem keepSm_main_arg12 : StableHlo.after opsSm V (Proc.devRef .tc main_arg12) = V (Proc.devRef .tc main_arg12) := by
  skip_stretch opsSm
theorem keepSm_main_arg13 : StableHlo.after opsSm V (Proc.devRef .tc main_arg13) = V (Proc.devRef .tc main_arg13) := by
  skip_stretch opsSm
theorem keepSm_main_arg14 : StableHlo.after opsSm V (Proc.devRef .tc main_arg14) = V (Proc.devRef .tc main_arg14) := by
  skip_stretch opsSm
theorem keepSm_main_arg15 : StableHlo.after opsSm V (Proc.devRef .tc main_arg15) = V (Proc.devRef .tc main_arg15) := by
  skip_stretch opsSm
theorem keepAgg_main_arg8 : StableHlo.after opsAgg V (Proc.devRef .tc main_arg8) = V (Proc.devRef .tc main_arg8) := by
  skip_stretch opsAgg
theorem keepAgg_main_arg9 : StableHlo.after opsAgg V (Proc.devRef .tc main_arg9) = V (Proc.devRef .tc main_arg9) := by
  skip_stretch opsAgg
theorem keepAgg_main_arg10 : StableHlo.after opsAgg V (Proc.devRef .tc main_arg10) = V (Proc.devRef .tc main_arg10) := by
  skip_stretch opsAgg
theorem keepAgg_main_arg11 : StableHlo.after opsAgg V (Proc.devRef .tc main_arg11) = V (Proc.devRef .tc main_arg11) := by
  skip_stretch opsAgg
theorem keepAgg_main_arg12 : StableHlo.after opsAgg V (Proc.devRef .tc main_arg12) = V (Proc.devRef .tc main_arg12) := by
  skip_stretch opsAgg
theorem keepAgg_main_arg13 : StableHlo.after opsAgg V (Proc.devRef .tc main_arg13) = V (Proc.devRef .tc main_arg13) := by
  skip_stretch opsAgg
theorem keepAgg_main_arg14 : StableHlo.after opsAgg V (Proc.devRef .tc main_arg14) = V (Proc.devRef .tc main_arg14) := by
  skip_stretch opsAgg
theorem keepAgg_main_arg15 : StableHlo.after opsAgg V (Proc.devRef .tc main_arg15) = V (Proc.devRef .tc main_arg15) := by
  skip_stretch opsAgg

end Stages

/-! ## The result -/

/-- The result buffer at the end: the softmax of the logits the second call left, then the shared tail, over the
    buffers as the second call's exit has them. -/
theorem result_tail : W5 m ρ c (Proc.devRef .tc main_v0)
    = Cert.Tail.tailFrom (Cert.Tail.smK (W4 m ρ c (Proc.devRef .tc main_call0_v13))) (W4 m ρ c (Proc.devRef .tc main_call0_v7))
        (W4 m ρ c (Proc.devRef .tc main_arg3)) (W4 m ρ c (Proc.devRef .tc main_arg8)) (W4 m ρ c (Proc.devRef .tc main_arg9))
        (W4 m ρ c (Proc.devRef .tc main_arg10)) (W4 m ρ c (Proc.devRef .tc main_arg11)) (W4 m ρ c (Proc.devRef .tc main_arg12))
        (W4 m ρ c (Proc.devRef .tc main_arg13)) (W4 m ρ c (Proc.devRef .tc main_arg14)) (W4 m ρ c (Proc.devRef .tc main_arg15)) := by
  show StableHlo.after hostOps2 (W4 m ρ c) (Proc.devRef .tc main_v0) = _
  rw [hostOps2_split, after_append, after_append, stageMlp, stageAgg, stageSm]
  rw [keepAgg_main_arg8, keepAgg_main_arg9, keepAgg_main_arg10, keepAgg_main_arg11, keepAgg_main_arg12, keepAgg_main_arg13, keepAgg_main_arg14, keepAgg_main_arg15]
  rw [keepSm_main_call0_v7, keepSm_main_arg3, keepSm_main_arg8, keepSm_main_arg9, keepSm_main_arg10, keepSm_main_arg11, keepSm_main_arg12, keepSm_main_arg13, keepSm_main_arg14, keepSm_main_arg15]
  rfl

end Cert.KernelIdeal.Boundary

end
-- ==== Proof.Spec.lean ====
/-
  The scalars and per-entry formulas both programs compute, over the extended reals.

  `h` is the N × D table of node features, `wu` the D × D update matrix, `a` the 2D × 1 attention vector (its first
  D entries score the source node, its last D the destination node), `ed` the E × De table of edge features, `we` the
  De × D edge matrix, `wm` the D × 1 message vector. With N = 50000, D = 128, E = 600000, De = 64:

  * `hp n j = leaky (∑ k, h n k · wu k j)`: the updated node features;
  * `s1 n = ∑ k, hp n k · a k` and `s2 n = ∑ k, hp n k · a (D + k)`: a node's score as a source and as a destination;
  * `wc k = ∑ j, we k j · wm j`: the edge matrix folded with the message vector;
  * `logit e = σ (s1 (src e) + s2 (dst e)) · ∑ k, ed e k · wc k`: an edge's logit, σ the logistic function.
-/
import Idealize.ShloMosaic.PureOps.Ideal
import Idealize.ShloMosaic.Lib.ValueIdx

noncomputable section

namespace Cert.Spec

open Idealize.ShloMosaic Idealize.ShloMosaic.ValueIdx
open scoped BigOperators

/-- An A × B array of extended reals. -/
abbrev Arr (a b : Nat) : Type := (⟨2, ![a, b]⟩ : Shape).Idx → EReal

/-- The leaky rectifier as both programs spell it: `y` where `y > 0`, else `0.01f · y` (the literal is the f32
    nearest 0.01, the same word in both programs). -/
def leakyE (y : EReal) : EReal :=
  Scalar.select (FloatOps.cmpf (F := Ideal) (φ := .f32) .ogt y (FloatOps.ofBits (F := Ideal) .f32 0x00000000#32)) y
    (FloatOps.mulf (F := Ideal) (φ := .f32) (FloatOps.ofBits (F := Ideal) .f32 0x3C23D70A#32) y)

/-- Entry `(n, j)` of the updated node features `leaky (h · wu)`. -/
def hp (h : Arr 50000 128) (wu : Arr 128 128) (n : Fin 50000) (j : Fin 128) : EReal :=
  leakyE (∑ k : Fin 128, h (ix2 n k) * wu (ix2 k j))

/-- Node `n`'s score as a SOURCE: its updated row against the first 128 entries of `a`. -/
def s1 (h : Arr 50000 128) (wu : Arr 128 128) (a : Arr 256 1) (n : Fin 50000) : EReal :=
  ∑ k : Fin 128, hp h wu n k * a (ix2 (⟨k.val, by omega⟩ : Fin 256) (0 : Fin 1))

/-- Node `n`'s score as a DESTINATION: its updated row against the last 128 entries of `a`. -/
def s2 (h : Arr 50000 128) (wu : Arr 128 128) (a : Arr 256 1) (n : Fin 50000) : EReal :=
  ∑ k : Fin 128, hp h wu n k * a (ix2 (⟨128 + k.val, by omega⟩ : Fin 256) (0 : Fin 1))

/-- Entry `k` of the edge matrix folded with the message vector, `we · wm`. -/
def wc (we : Arr 64 128) (wm : Arr 128 1) (k : Fin 64) : EReal :=
  ∑ j : Fin 128, we (ix2 k j) * wm (ix2 j (0 : Fin 1))

/-- The node a 32-bit index word names, when it is in range (read as a signed integer). -/
def node (w : BitVec 32) (h : 0 ≤ w.toInt ∧ w.toInt < 50000) : Fin 50000 := ⟨w.toInt.toNat, by omega⟩

/-- Edge `e`'s logit from its endpoints' node numbers `s` (source) and `d` (destination). -/
def logit (h : Arr 50000 128) (wu : Arr 128 128) (a : Arr 256 1) (ed : Arr 600000 64) (we : Arr 64 128) (wm : Arr 128 1)
    (s d : Fin 50000) (e : Fin 600000) : EReal :=
  Ideal.logistic (s1 h wu a s + s2 h wu a d) * ∑ k : Fin 64, ed (ix2 e k) * wc we wm k

end Cert.Spec

end
-- ==== Proof.NodeValue.lean ====
/-
  The node update (the program's first kernel launch) as whole arrays, at the ideal values.

  A grid point t of the ten stages rows 5000·t … 5000·t + 4999 of the node features h together with the whole update
  matrix W and the two halves a₁, a₂ of the attention vector (each a 1 × 128 row), and leaves in its three output
  blocks, for a row r of the block and a column j,

      h'(r, j) = leaky (∑ₖ h(r, k) · W(k, j)),      s₁(r) = ∑ₖ h'(r, k) · a₁(k),      s₂(r) = ∑ₖ h'(r, k) · a₂(k).

  The ten blocks of each output tile its array (row n lies in block n / 5000, at row n mod 5000 of it), so after the
  last write-back the three arrays hold these formulas at every row n of the 50000.
-/
import proofs.«412961_j88510686036316_2_alg».proof.Proof.Gen.KernelIdeal.Frame
import proofs.«412961_j88510686036316_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.NodeValue

open Cert.KernelIdeal Cert.KernelIdeal.Gen Idealize.ShloMosaic Idealize.ShloMosaic.TcCoe Idealize.ShloMosaic.ValueIdx Idealize.SL.Sem
open scoped BigOperators

/-! ## The body's arithmetic at an index -/

/-- The zero offsets of a whole-buffer access. -/
theorem offsets_zero : (![0, 0] : Fin 2 → Nat) = fun _ => 0 := funext fun a => by fin_cases a <;> rfl

/-- The product's left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted coordinate as its column; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted coordinate as its row … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row p and column q: ∑ₖ a(p, k) · b(k, q). -/
theorem product_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The first payload, the updated features' block: the leaky rectifier of the product (a change of format is the
    identity on extended reals). -/
theorem features_apply (x0 : FVec Ideal S5000x128 .f32) (x1 : FVec Ideal S128x128 .f32) (p : Fin 5000) (q : Fin 128) :
    k0_pay1 (F := Ideal) x0 x1 (ix2 p q) = Cert.Spec.leakyE (∑ k : Fin 128, x0 (ix2 p k) * x1 (ix2 k q)) := by
  refine (congrArg Cert.Spec.leakyE (product_apply (truncf .bf16 x0 bitsLt_bf16_f32) (truncf .bf16 x1 bitsLt_bf16_f32) p q)).trans ?_
  rfl

/-- A lane sum at row p: the sum over the 128 columns of that row. -/
theorem lane_sum_apply (w : FVec Ideal S5000x128 .f32) (p : Fin 5000) :
    multiReduction (F := Ideal) .add [1] S5000 w 0x00000000#32 reduces_S5000x128_S5000 (.inl rfl) rfl (ix1 p)
      = ∑ k : Fin 128, w (ix2 p k) := by
  refine (Ideal.multiReduction_add_single w 0x00000000#32 reduces_S5000x128_S5000 (.inl rfl) rfl (ix1 p)).trans ?_
  refine Finset.sum_congr rfl fun k _ => congrArg w ?_
  funext c; apply Fin.ext
  match c with
  | ⟨0, _⟩ => rfl
  | ⟨1, _⟩ => rfl

/-- A 1 × 128 row broadcast down the 5000 rows reads, at (p, k), the row's entry k. -/
theorem row_broadcast_apply (a : FVec Ideal S1x128 .f32) (p : Fin 5000) (k : Fin 128) :
    broadcastTo S5000x128 (shapeCast S1x128 a shapeCasts_S1x128_S1x128) broadcasts_S1x128_S5000x128 (ix2 p k) = a (ix2 (0 : Fin 1) k) := by
  refine (broadcastTo_apply _ broadcasts_S1x128_S5000x128 (ix2 p k) (ix2 (0 : Fin 1) k) ?_).trans ?_
  · intro c
    match c with
    | ⟨0, _⟩ => rfl
    | ⟨1, _⟩ => rfl
  · rw [shapeCast_self]

/-- A score payload: the row sums of the features' block against a broadcast row, as a column. At row p it is
    ∑ₖ v(p, k) · a(k). -/
theorem score_apply (v : FVec Ideal S5000x128 .f32) (a : FVec Ideal S1x128 .f32) (p : Fin 5000) :
    shapeCast S5000x1 (multiReduction (F := Ideal) .add [1] S5000
        (mulf v (broadcastTo S5000x128 (shapeCast S1x128 a shapeCasts_S1x128_S1x128) broadcasts_S1x128_S5000x128))
        0x00000000#32 reduces_S5000x128_S5000 (.inl rfl) rfl) shapeCasts_S5000_S5000x1 (ix2 p (0 : Fin 1))
      = ∑ k : Fin 128, v (ix2 p k) * a (ix2 (0 : Fin 1) k) := by
  refine (shapeCast_apply _ shapeCasts_S5000_S5000x1 (ix2 p (0 : Fin 1)) (ix1 p) ?_).trans ?_
  · rw [Shape.rowMajor_val_one, Shape.rowMajor_val_two]
    show p.val = p.val * 1 + 0
    omega
  refine (lane_sum_apply _ p).trans ?_
  refine Finset.sum_congr rfl fun k _ => ?_
  rw [mulf_apply, row_broadcast_apply]

/-- The second payload, the source scores' block. -/
theorem source_score_apply (x0 : FVec Ideal S5000x128 .f32) (x1 : FVec Ideal S128x128 .f32) (a : FVec Ideal S1x128 .f32) (p : Fin 5000) :
    k0_pay2 (F := Ideal) x0 x1 a (ix2 p (0 : Fin 1))
      = ∑ k : Fin 128, Cert.Spec.leakyE (∑ l : Fin 128, x0 (ix2 p l) * x1 (ix2 l k)) * a (ix2 (0 : Fin 1) k) := by
  refine (score_apply (k0_pay1 (F := Ideal) x0 x1) a p).trans ?_
  refine Finset.sum_congr rfl fun k _ => ?_
  rw [features_apply]

/-- The third payload, the destination scores' block. -/
theorem dest_score_apply (x0 : FVec Ideal S5000x128 .f32) (x1 : FVec Ideal S128x128 .f32) (a : FVec Ideal S1x128 .f32) (p : Fin 5000) :
    k0_pay3 (F := Ideal) x0 x1 a (ix2 p (0 : Fin 1))
      = ∑ k : Fin 128, Cert.Spec.leakyE (∑ l : Fin 128, x0 (ix2 p l) * x1 (ix2 l k)) * a (ix2 (0 : Fin 1) k) := by
  refine (score_apply (k0_pay1 (F := Ideal) x0 x1) a p).trans ?_
  refine Finset.sum_congr rfl fun k _ => ?_
  rw [features_apply]

/-! ## What the body leaves in each output buffer is the payload of the loaded blocks -/

theorem out_features (x0 : Vec Ideal S5000x128 .f32) (x1 : Vec Ideal S128x128 .f32) (x2 x3 : Vec Ideal S1x128 .f32) :
    out0_4 (F := Ideal) x0 x1 x2 x3 = k0_pay1 x0 x1 := by
  unfold out0_4
  rw [View.canon_unit_zero offsets_zero]
  simp only [View.ld_unit_zero (S := S5000x128) offsets_zero, View.ld_unit_zero (S := S128x128) offsets_zero]

theorem out_source_score (x0 : Vec Ideal S5000x128 .f32) (x1 : Vec Ideal S128x128 .f32) (x2 x3 : Vec Ideal S1x128 .f32) :
    out0_5 (F := Ideal) x0 x1 x2 x3 = k0_pay2 x0 x1 x2 := by
  unfold out0_5
  rw [View.canon_unit_zero offsets_zero]
  simp only [View.ld_unit_zero (S := S5000x128) offsets_zero, View.ld_unit_zero (S := S128x128) offsets_zero,
    View.ld_unit_zero (S := S1x128) offsets_zero]

theorem out_dest_score (x0 : Vec Ideal S5000x128 .f32) (x1 : Vec Ideal S128x128 .f32) (x2 x3 : Vec Ideal S1x128 .f32) :
    out0_6 (F := Ideal) x0 x1 x2 x3 = k0_pay3 x0 x1 x3 := by
  unfold out0_6
  rw [View.canon_unit_zero offsets_zero]
  simp only [View.ld_unit_zero (S := S5000x128) offsets_zero, View.ld_unit_zero (S := S128x128) offsets_zero,
    View.ld_unit_zero (S := S1x128) offsets_zero]

/-! ## From blocks to the arrays -/

/-- Two 5000 × 128 blocks agree when they agree at every row and column. -/
theorem ext_block {X Y : S5000x128.Idx → EReal} (h : ∀ (p : Fin 5000) (q : Fin 128), X (ix2 p q) = Y (ix2 p q)) : X = Y :=
  funext fun j => by
    obtain ⟨p, q, rfl⟩ : ∃ (p : Fin 5000) (q : Fin 128), j = ix2 p q := ⟨j 0, j 1, eq_ix2 j⟩
    exact h p q

/-- Two 5000 × 1 columns agree when they agree at every row. -/
theorem ext_column {X Y : S5000x1.Idx → EReal} (h : ∀ p : Fin 5000, X (ix2 p (0 : Fin 1)) = Y (ix2 p (0 : Fin 1))) : X = Y :=
  funext fun j => by
    obtain ⟨p, q, rfl⟩ : ∃ (p : Fin 5000) (q : Fin 1), j = ix2 p q := ⟨j 0, j 1, eq_ix2 j⟩
    obtain rfl : q = 0 := Subsingleton.elim _ _
    exact h p

/-- The block index maps, decided over the ten points: the row-blocked windows (the features in, the three outputs) are
    at block row t, column block 0; the whole-array windows (the matrix and the two rows) at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section Arrays

variable (V : (c : Dev nD) → (b : Ref sig .tc) → Buf (Elt Ideal) ((c : Thread nD τ).loc b)) (c : Dev nD)

/-- Point t's blocks of the node features, the update matrix and the two attention rows, as arrays of extended reals. -/
abbrev featuresBlock (t : Fin cfg0.N) : S5000x128.Idx → EReal := iblk0 (F := Ideal) V c 0 t
abbrev matrixBlock (t : Fin cfg0.N) : S128x128.Idx → EReal := iblk0 (F := Ideal) V c 1 t
abbrev sourceRowBlock (t : Fin cfg0.N) : S1x128.Idx → EReal := iblk0 (F := Ideal) V c 2 t
abbrev destRowBlock (t : Fin cfg0.N) : S1x128.Idx → EReal := iblk0 (F := Ideal) V c 3 t

/-- Row p of point t's block of the node features is row 5000·t + p of the array. -/
theorem features_block_apply (t : Fin cfg0.N) (p : Fin 5000) (k : Fin 128) (n : Fin 50000) (hn : n.val = t.val * 5000 + p.val) :
    featuresBlock V c t (ix2 p k) = (V c main_arg0 : S50000x128.Idx → EReal) (ix2 n k) := by
  obtain ⟨e0, e1, -⟩ := block_indices t
  show V c main_arg0 (((cfg0.win 0).blk t).view.emb (ix2 p k)) = V c main_arg0 (ix2 n k)
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- Every point's block of the update matrix is the whole matrix. -/
theorem matrix_block (t : Fin cfg0.N) : matrixBlock V c t = V c main_arg4 := by
  obtain ⟨-, -, e0, e1, -⟩ := block_indices t
  funext j
  show V c main_arg4 (((cfg0.win 1).blk t).view.emb j) = V c main_arg4 j
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- Every point's block of the first attention row is the whole row. -/
theorem source_row_block (t : Fin cfg0.N) : sourceRowBlock V c t = V c main_call0_v2 := by
  obtain ⟨-, -, -, -, e0, e1, -⟩ := block_indices t
  funext j
  show V c main_call0_v2 (((cfg0.win 2).blk t).view.emb j) = V c main_call0_v2 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- Every point's block of the second attention row is the whole row. -/
theorem dest_row_block (t : Fin cfg0.N) : destRowBlock V c t = V c main_call0_v5 := by
  obtain ⟨-, -, -, -, -, -, e0, e1, -⟩ := block_indices t
  funext j
  show V c main_call0_v5 (((cfg0.win 3).blk t).view.emb j) = V c main_call0_v5 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

end Arrays

/-! ## The three output arrays as functions of the arrays the region finds -/

/-- The updated features as one array: leaky (h · W) at every row and column. -/
def featuresArr (h : S50000x128.Idx → EReal) (wu : S128x128.Idx → EReal) : S50000x128.Idx → EReal :=
  fun i => Cert.Spec.hp h wu ⟨(i 0).val, idx2_lt0 i⟩ ⟨(i 1).val, idx2_lt1 i⟩

/-- A score as one array (a column): each row of the updated features against a 1 × 128 row. -/
def scoreArr (h : S50000x128.Idx → EReal) (wu : S128x128.Idx → EReal) (a : S1x128.Idx → EReal) : S50000x1.Idx → EReal :=
  fun i => ∑ k : Fin 128, Cert.Spec.hp h wu ⟨(i 0).val, idx2_lt0 i⟩ k * a (ix2 (0 : Fin 1) k)

section Arrays

variable (V : (c : Dev nD) → (b : Ref sig .tc) → Buf (Elt Ideal) ((c : Thread nD τ).loc b)) (c : Dev nD)

/-- Row p of point t's blocks is row 5000·t + p of the arrays, which is a row of the 50000. -/
theorem row_lt (t : Fin cfg0.N) (p : Fin 5000) : t.val * 5000 + p.val < 50000 := by
  have ht : t.val < 10 := (N_0 ▸ t.isLt : t.val < 10)
  have hp : p.val < 5000 := p.isLt
  omega

/-- The updated features of rows 5000·t … of the array, from point t's blocks. -/
theorem features_of_blocks (t : Fin cfg0.N) (p : Fin 5000) (q : Fin 128) :
    Cert.Spec.leakyE (∑ k : Fin 128, featuresBlock V c t (ix2 p k) * matrixBlock V c t (ix2 k q))
      = Cert.Spec.hp (V c main_arg0) (V c main_arg4) ⟨t.val * 5000 + p.val, row_lt t p⟩ q := by
  unfold Cert.Spec.hp
  refine congrArg Cert.Spec.leakyE (Finset.sum_congr rfl fun k _ => ?_)
  rw [features_block_apply V c t p k ⟨t.val * 5000 + p.val, row_lt t p⟩ rfl, matrix_block V c t]

/-- WHAT POINT t WRITES BACK to the features' array is block t of featuresArr. -/
theorem flushed_features (t : Fin cfg0.N) :
    (dat0 (F := Ideal) V c).flushed 4 t = ((cfg0.win 4).blk t).view.read (Elt Ideal) (featuresArr (V c main_arg0) (V c main_arg4)) := by
  show (cfg0.win 4).cut (grid0.coords t) ((dat0 V c).after 4 t) = _
  rw [after0_4, out_features]
  obtain ⟨-, -, -, -, -, -, -, -, e0, e1, -⟩ := block_indices t
  refine ext_block fun p q => ?_
  show k0_pay1 (F := Ideal) (iblk0 V c 0 t) (iblk0 V c 1 t) (ix2 p q)
    = featuresArr (V c main_arg0) (V c main_arg4) (((cfg0.win 4).blk t).view.emb (ix2 p q))
  have hemb : ((cfg0.win 4).blk t).view.emb (ix2 p q) = ix2 (⟨t.val * 5000 + p.val, row_lt t p⟩ : Fin 50000) q :=
    funext fun a => Fin.ext (by
      match a with
      | ⟨0, _⟩ => show win0_4.index t (0 : Fin 2) * 5000 + 1 * p.val = t.val * 5000 + p.val; omega
      | ⟨1, _⟩ => show win0_4.index t (1 : Fin 2) * 128 + 1 * q.val = q.val; omega)
  rw [hemb]
  refine (features_apply (featuresBlock V c t) (matrixBlock V c t) p q).trans ?_
  exact features_of_blocks V c t p q

/-- WHAT POINT t WRITES BACK to the source scores' array is block t of scoreArr at the first attention row. -/
theorem flushed_source_score (t : Fin cfg0.N) :
    (dat0 (F := Ideal) V c).flushed 5 t = ((cfg0.win 5).blk t).view.read (Elt Ideal) (scoreArr (V c main_arg0) (V c main_arg4) (V c main_call0_v2)) := by
  show (cfg0.win 5).cut (grid0.coords t) ((dat0 V c).after 5 t) = _
  rw [after0_5, out_source_score]
  obtain ⟨-, -, -, -, -, -, -, -, -, -, e0, e1, -⟩ := block_indices t
  refine ext_column fun p => ?_
  show k0_pay2 (F := Ideal) (iblk0 V c 0 t) (iblk0 V c 1 t) (iblk0 V c 2 t) (ix2 p (0 : Fin 1))
    = scoreArr (V c main_arg0) (V c main_arg4) (V c main_call0_v2) (((cfg0.win 5).blk t).view.emb (ix2 p (0 : Fin 1)))
  have hemb : ((cfg0.win 5).blk t).view.emb (ix2 p (0 : Fin 1)) = ix2 (⟨t.val * 5000 + p.val, row_lt t p⟩ : Fin 50000) (0 : Fin 1) :=
    funext fun a => Fin.ext (by
      match a with
      | ⟨0, _⟩ => show win0_5.index t (0 : Fin 2) * 5000 + 1 * p.val = t.val * 5000 + p.val; omega
      | ⟨1, _⟩ => show win0_5.index t (1 : Fin 2) * 1 + 1 * 0 = 0; omega)
  rw [hemb]
  refine (source_score_apply (featuresBlock V c t) (matrixBlock V c t) (sourceRowBlock V c t) p).trans ?_
  refine Finset.sum_congr rfl fun k _ => ?_
  rw [features_of_blocks V c t p k, source_row_block V c t]

/-- WHAT POINT t WRITES BACK to the destination scores' array is block t of scoreArr at the second attention row. -/
theorem flushed_dest_score (t : Fin cfg0.N) :
    (dat0 (F := Ideal) V c).flushed 6 t = ((cfg0.win 6).blk t).view.read (Elt Ideal) (scoreArr (V c main_arg0) (V c main_arg4) (V c main_call0_v5)) := by
  show (cfg0.win 6).cut (grid0.coords t) ((dat0 V c).after 6 t) = _
  rw [after0_6, out_dest_score]
  obtain ⟨-, -, -, -, -, -, -, -, -, -, -, -, e0, e1⟩ := block_indices t
  refine ext_column fun p => ?_
  show k0_pay3 (F := Ideal) (iblk0 V c 0 t) (iblk0 V c 1 t) (iblk0 V c 3 t) (ix2 p (0 : Fin 1))
    = scoreArr (V c main_arg0) (V c main_arg4) (V c main_call0_v5) (((cfg0.win 6).blk t).view.emb (ix2 p (0 : Fin 1)))
  have hemb : ((cfg0.win 6).blk t).view.emb (ix2 p (0 : Fin 1)) = ix2 (⟨t.val * 5000 + p.val, row_lt t p⟩ : Fin 50000) (0 : Fin 1) :=
    funext fun a => Fin.ext (by
      match a with
      | ⟨0, _⟩ => show win0_6.index t (0 : Fin 2) * 5000 + 1 * p.val = t.val * 5000 + p.val; omega
      | ⟨1, _⟩ => show win0_6.index t (1 : Fin 2) * 1 + 1 * 0 = 0; omega)
  rw [hemb]
  refine (dest_score_apply (featuresBlock V c t) (matrixBlock V c t) (destRowBlock V c t) p).trans ?_
  refine Finset.sum_congr rfl fun k _ => ?_
  rw [features_of_blocks V c t p k, dest_row_block V c t]

end Arrays

/-! ## The ten blocks of each output tile its array -/

/-- An index of the features' array is in point t's block iff each coordinate is in the block's range on its axis. -/
theorem mem_features_block (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_call0_v6_0).slice (win0_4.rect t)).set ↔ _
  rw [View.set_slice_whole, Rect.mem_set_unit]
  exact Iff.rfl

/-- The same for the source scores' array … -/
theorem mem_source_score_block (t : Fin cfg0.N) (i : S50000x1.Idx) :
    i ∈ ((cfg0.win 5).blk t).view.set ↔ ∀ a : Fin 2, win0_5.index t a * S5000x1.size a ≤ (i a).val ∧ (i a).val < win0_5.index t a * S5000x1.size a + S5000x1.size a := by
  show i ∈ ((View.whole main_call0_v6_1).slice (win0_5.rect t)).set ↔ _
  rw [View.set_slice_whole, Rect.mem_set_unit]
  exact Iff.rfl

/-- … and for the destination scores'. -/
theorem mem_dest_score_block (t : Fin cfg0.N) (i : S50000x1.Idx) :
    i ∈ ((cfg0.win 6).blk t).view.set ↔ ∀ a : Fin 2, win0_6.index t a * S5000x1.size a ≤ (i a).val ∧ (i a).val < win0_6.index t a * S5000x1.size a + S5000x1.size a := by
  show i ∈ ((View.whole main_call0_v6_2).slice (win0_6.rect t)).set ↔ _
  rw [View.set_slice_whole, Rect.mem_set_unit]
  exact Iff.rfl

/-- The point that writes row r: r / 5000, one of the ten. -/
theorem point_of_row (r : Nat) (hr : r < 50000) : ∃ t : Fin cfg0.N, t.val = r / 5000 :=
  ⟨⟨r / 5000, by rw [show cfg0.N = 10 from N_0]; omega⟩, rfl⟩

/-- Every index of the features' array is in the block of the point its row names, which writes it back. -/
theorem features_cover (i : S50000x128.Idx) :
    ∃ t : Fin cfg0.N, (cfg0.win 4).flush t = true ∧ i ∈ ((cfg0.win 4).blk t).view.set := by
  have hi0 : (i 0).val < 50000 := idx2_lt0 i
  have hi1 : (i 1).val < 128 := idx2_lt1 i
  obtain ⟨t, ht⟩ := point_of_row (i 0).val hi0
  obtain ⟨-, -, -, -, -, -, -, -, e0, e1, -⟩ := block_indices t
  refine ⟨t, flush0_4 t, ?_⟩
  rw [mem_features_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The same for the source scores' array … -/
theorem source_score_cover (i : S50000x1.Idx) :
    ∃ t : Fin cfg0.N, (cfg0.win 5).flush t = true ∧ i ∈ ((cfg0.win 5).blk t).view.set := by
  have hi0 : (i 0).val < 50000 := idx2_lt0 i
  have hi1 : (i 1).val < 1 := idx2_lt1 i
  obtain ⟨t, ht⟩ := point_of_row (i 0).val hi0
  obtain ⟨-, -, -, -, -, -, -, -, -, -, e0, e1, -⟩ := block_indices t
  refine ⟨t, flush0_5 t, ?_⟩
  rw [mem_source_score_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 1 ≤ (i 1).val ∧ (i 1).val < win0_5.index t (1 : Fin 2) * 1 + 1; omega

/-- … and for the destination scores'. -/
theorem dest_score_cover (i : S50000x1.Idx) :
    ∃ t : Fin cfg0.N, (cfg0.win 6).flush t = true ∧ i ∈ ((cfg0.win 6).blk t).view.set := by
  have hi0 : (i 0).val < 50000 := idx2_lt0 i
  have hi1 : (i 1).val < 1 := idx2_lt1 i
  obtain ⟨t, ht⟩ := point_of_row (i 0).val hi0
  obtain ⟨-, -, -, -, -, -, -, -, -, -, -, -, e0, e1⟩ := block_indices t
  refine ⟨t, flush0_6 t, ?_⟩
  rw [mem_dest_score_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 1 ≤ (i 1).val ∧ (i 1).val < win0_6.index t (1 : Fin 2) * 1 + 1; omega

/-! ## The arrays after the last write-back -/

section Arrays

variable (V : (c : Dev nD) → (b : Ref sig .tc) → Buf (Elt Ideal) ((c : Thread nD τ).loc b)) (c : Dev nD)

/-- The features' array ends holding the updated features of the arrays the region found. -/
theorem features_array : (dat0 (F := Ideal) V c).arrAt 4 cfg0.N = featuresArr (V c main_arg0) (V c main_arg4) :=
  (dat0 (F := Ideal) V c).arrAt_eq_of_cover 4 (featuresArr (V c main_arg0) (V c main_arg4))
    (fun t _ => flushed_features V c t) features_cover

/-- The source scores' array ends holding each updated row against the first attention row. -/
theorem source_score_array :
    (dat0 (F := Ideal) V c).arrAt 5 cfg0.N = scoreArr (V c main_arg0) (V c main_arg4) (V c main_call0_v2) :=
  (dat0 (F := Ideal) V c).arrAt_eq_of_cover 5 (scoreArr (V c main_arg0) (V c main_arg4) (V c main_call0_v2))
    (fun t _ => flushed_source_score V c t) source_score_cover

/-- The destination scores' array ends holding each updated row against the second attention row. -/
theorem dest_score_array :
    (dat0 (F := Ideal) V c).arrAt 6 cfg0.N = scoreArr (V c main_arg0) (V c main_arg4) (V c main_call0_v5) :=
  (dat0 (F := Ideal) V c).arrAt_eq_of_cover 6 (scoreArr (V c main_arg0) (V c main_arg4) (V c main_call0_v5))
    (fun t _ => flushed_dest_score V c t) dest_score_cover

/-- Entry (n, j) of the features' array after the region: h'(n, j). -/
theorem arr_hp (n : Fin 50000) (j : Fin 128) :
    ((dat0 (F := Ideal) V c).arrAt 4 cfg0.N : S50000x128.Idx → EReal) (ix2 n j) = Cert.Spec.hp (V c main_arg0) (V c main_arg4) n j := by
  rw [features_array]
  rfl

/-- Entry n of the source scores' array after the region: ∑ₖ h'(n, k) · a₁(k). -/
theorem arr_s1 (n : Fin 50000) :
    ((dat0 (F := Ideal) V c).arrAt 5 cfg0.N : S50000x1.Idx → EReal) (ix2 n (0 : Fin 1))
      = ∑ k : Fin 128, Cert.Spec.hp (V c main_arg0) (V c main_arg4) n k * (V c main_call0_v2 : S1x128.Idx → EReal) (ix2 (0 : Fin 1) k) := by
  rw [source_score_array]
  rfl

/-- Entry n of the destination scores' array after the region: ∑ₖ h'(n, k) · a₂(k). -/
theorem arr_s2 (n : Fin 50000) :
    ((dat0 (F := Ideal) V c).arrAt 6 cfg0.N : S50000x1.Idx → EReal) (ix2 n (0 : Fin 1))
      = ∑ k : Fin 128, Cert.Spec.hp (V c main_arg0) (V c main_arg4) n k * (V c main_call0_v5 : S1x128.Idx → EReal) (ix2 (0 : Fin 1) k) := by
  rw [dest_score_array]
  rfl

end Arrays

end Cert.KernelIdeal.NodeValue

end
-- ==== Proof.EdgeValue.lean ====
import proofs.«412961_j88510686036316_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

/-! # The edge logits as a whole array

The second kernel computes, for every one of the 600000 edges `e`, the logit
`σ(score e) · ∑ₖ feat e k · w k`: the logistic function of the edge's score times the inner product of
the edge's 64 features with one folded row `w`. The grid has 100 points; point `t` reads rows
`6000 t … 6000 t + 5999` of the features and of the scores, the whole row `w`, and writes rows
`6000 t … 6000 t + 5999` of the logits. Here: the body's payload at a row of its block (`pay_apply`), each input
block read as rows of its array (`edge_block_apply`, `score_block_apply`, `row_block_apply`), what point `t` writes
back as a block of one whole-array function (`flushed_eq`), the 100 blocks covering the array (`cover`), and so the
array after the region (`final`, `arr_logit`). -/

noncomputable section

namespace Cert.KernelIdeal.EdgeValue

open Cert.KernelIdeal Cert.KernelIdeal.Gen Idealize.ShloMosaic Idealize.ShloMosaic.TcCoe Idealize.ShloMosaic.ValueIdx Idealize.SL.Sem
open Idealize.ShloMosaic.Pipeline (Dat)

/-! ## The payload at a row -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The lane sum of a `[6000, 64]` block at row `p` is the sum over the 64 lanes. -/
theorem laneSum_apply (src : FVec Ideal S6000x64 .f32) (h : S6000x64.Reduces [1] S6000) (hφ : FKind.Formats .f32)
    (hacc : (0x00000000#32 : BitVec 32) = 0x00000000#32) (p : Fin 6000) :
    multiReduction (F := Ideal) .add [1] S6000 src 0x00000000#32 h hφ hacc (ix1 p) = ∑ k : Fin 64, src (ix2 p k) := by
  refine (Ideal.multiReduction_add_single src 0x00000000#32 h hφ hacc (ix1 p)).trans ?_
  show ∑ k : Fin 64, src (h.lift (ix1 p) k) = _
  refine Finset.sum_congr rfl fun k _ => congrArg src ?_
  funext a
  match a with
  | ⟨0, _⟩ => exact Fin.ext rfl
  | ⟨1, _⟩ => exact Fin.ext rfl

/-- The body's payload at row `p` of its block: the logistic of the score times the sum over the lanes of the edge
    block against the one row. -/
theorem pay_apply (x1 : Vec Ideal S6000x1 .f32) (x0 : Vec Ideal S6000x64 .f32) (x2 : Vec Ideal S1x64 .f32) (p : Fin 6000) :
    (k1_pay1 (F := Ideal) x1 x0 x2 : S6000x1.Idx → EReal) (ix2 p (0 : Fin 1))
      = Ideal.logistic ((x1 : S6000x1.Idx → EReal) (ix2 p (0 : Fin 1)))
        * ∑ k : Fin 64, (x0 : S6000x64.Idx → EReal) (ix2 p k) * (x2 : S1x64.Idx → EReal) (ix2 (0 : Fin 1) k) := by
  unfold k1_pay1
  dsimp only
  rw [shapeCast_self, shapeCast_self, mulf_apply]
  rw [shapeCast_a_a1_apply, laneSum_apply]
  show Ideal.logistic (x1 (ix2 p 0)) * _ = _
  congr 1
  refine Finset.sum_congr rfl fun k _ => ?_
  rw [mulf_apply, broadcastTo_1b_ab_apply]

/-- The same at any index of the block: its second coordinate is the column's only one. -/
theorem pay_at (x1 : Vec Ideal S6000x1 .f32) (x0 : Vec Ideal S6000x64 .f32) (x2 : Vec Ideal S1x64 .f32) (y : S6000x1.Idx) :
    (k1_pay1 (F := Ideal) x1 x0 x2 : S6000x1.Idx → EReal) y
      = Ideal.logistic ((x1 : S6000x1.Idx → EReal) (ix2 (⟨(y 0).val, idx2_lt0 y⟩ : Fin 6000) (0 : Fin 1)))
        * ∑ k : Fin 64, (x0 : S6000x64.Idx → EReal) (ix2 (⟨(y 0).val, idx2_lt0 y⟩ : Fin 6000) k) * (x2 : S1x64.Idx → EReal) (ix2 (0 : Fin 1) k) := by
  obtain ⟨p, q, rfl⟩ : ∃ (p : Fin 6000) (q : Fin 1), y = ix2 p q := ⟨y 0, y 1, eq_ix2 y⟩
  obtain rfl : q = 0 := Subsingleton.elim _ _
  exact pay_apply x1 x0 x2 p

/-! ## From blocks to the array -/

variable (V : (c : Dev nD) → (b : Ref sig .tc) → Buf (Elt Ideal) ((c : Thread nD τ).loc b)) (c : Dev nD)

theorem zeroOffsets : (![0, 0] : Fin 2 → Nat) = fun _ => 0 := funext fun a => by fin_cases a <;> rfl

/-- The logits as ONE function of the three arrays, index by index. -/
def logits (a0 : S600000x64.Idx → EReal) (a1 : S600000x1.Idx → EReal) (a2 : S1x64.Idx → EReal) : S600000x1.Idx → EReal :=
  fun i => Ideal.logistic (a1 (ix2 (⟨(i 0).val, idx2_lt0 i⟩ : Fin 600000) (0 : Fin 1)))
    * ∑ k : Fin 64, a0 (ix2 (⟨(i 0).val, idx2_lt0 i⟩ : Fin 600000) k) * a2 (ix2 (0 : Fin 1) k)

/-- The index maps over the grid: the features', the scores' and the logits' blocks move with the point along the
    rows, the folded row's block stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the features' block at point `t` is row `6000 t + p` of the features. -/
theorem edge_block_apply (t : Fin cfg1.N) (p : Fin 6000) (k : Fin 64) (r : Fin 600000) (hr : r.val = t.val * 6000 + p.val) :
    (iblk1 (F := Ideal) V c 0 t : Vec Ideal S6000x64 .f32) (ix2 p k) = (V c main_arg1 : S600000x64.Idx → EReal) (ix2 r k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 6000 + 1 * p.val = r.val; rw [e0, hr]; omega
  | ⟨1, _⟩ => show win1_0.index t (1 : Fin 2) * 64 + 1 * k.val = k.val; rw [e1]; omega

/-- Row `p` of the scores' block at point `t` is row `6000 t + p` of the scores. -/
theorem score_block_apply (t : Fin cfg1.N) (p : Fin 6000) (r : Fin 600000) (hr : r.val = t.val * 6000 + p.val) :
    (iblk1 (F := Ideal) V c 1 t : Vec Ideal S6000x1 .f32) (ix2 p (0 : Fin 1)) = (V c main_call0_v10 : S600000x1.Idx → EReal) (ix2 r (0 : Fin 1)) := by
  obtain ⟨-, -, e0, e1, -⟩ := idx_facts t
  unfold iblk1
  rw [View.read_apply]
  show V c main_call0_v10 _ = V c main_call0_v10 _
  congr 1
  funext a
  apply Fin.ext
  match a with
  | ⟨0, _⟩ => show win1_1.index t (0 : Fin 2) * 6000 + 1 * p.val = r.val; rw [e0, hr]; omega
  | ⟨1, _⟩ => show win1_1.index t (1 : Fin 2) * 1 + 1 * 0 = 0; rw [e1]

/-- The folded row's block at any point is the row. -/
theorem row_block_apply (t : Fin cfg1.N) (k : Fin 64) :
    (iblk1 (F := Ideal) V c 2 t : Vec Ideal S1x64 .f32) (ix2 (0 : Fin 1) k) = (V c main_call0_v12 : S1x64.Idx → EReal) (ix2 (0 : Fin 1) k) := by
  obtain ⟨-, -, -, -, e0, e1, -⟩ := idx_facts t
  unfold iblk1
  rw [View.read_apply]
  show V c main_call0_v12 _ = V c main_call0_v12 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * k.val = k.val; rw [e1]; omega

/-- WHAT POINT `t` WRITES BACK is block `t` of `logits` of the arrays as the region finds them. -/
theorem flushed_eq (t : Fin cfg1.N) :
    (dat1 (F := Ideal) V c).flushed 3 t
      = ((cfg1.win 3).blk t).view.read (Elt Ideal) (logits (V c main_arg1) (V c main_call0_v10) (V c main_call0_v12)) := by
  show (cfg1.win 3).cut (grid1.coords t) ((dat1 V c).after 3 t) = _
  rw [after1_3]
  unfold out1_3
  rw [View.canon_unit_zero zeroOffsets]
  simp only [View.ld_unit_zero (S := S6000x1) zeroOffsets, View.ld_unit_zero (S := S6000x64) zeroOffsets,
    View.ld_unit_zero (S := S1x64) zeroOffsets]
  obtain ⟨-, -, -, -, -, -, e0, e1⟩ := idx_facts t
  funext j
  have hj : (j 0).val < 6000 := (j 0).isLt
  refine (pay_at (iblk1 V c 1 t) (iblk1 V c 0 t) (iblk1 V c 2 t) ((cfg1.win 3).xinj (grid1.coords t) j)).trans ?_
  have hr : ((((cfg1.win 3).blk t).view.emb j) 0).val = t.val * 6000 + (j 0).val := by
    show win1_3.index t (0 : Fin 2) * 6000 + 1 * (j 0).val = _
    rw [e0]; omega
  exact congrArg₂ (· * ·)
    (congrArg Ideal.logistic (score_block_apply V c t _ _ hr))
    (Finset.sum_congr rfl fun k _ => congrArg₂ (· * ·) (edge_block_apply V c t _ k _ hr) (row_block_apply V c t k))

/-- An index of the logits is in point `t`'s block iff each coordinate is in the block's range on its axis. -/
theorem mem_blk (t : Fin cfg1.N) (i : S600000x1.Idx) :
    i ∈ ((cfg1.win 3).blk t).view.set ↔ ∀ a : Fin 2, win1_3.index t a * S6000x1.size a ≤ (i a).val ∧ (i a).val < win1_3.index t a * S6000x1.size a + S6000x1.size a := by
  show i ∈ ((View.whole main_call0_v13).slice (win1_3.rect t)).set ↔ _
  rw [View.set_slice_whole, Rect.mem_set_unit]
  exact Iff.rfl

/-- Every row of the logits is in the block of the point `row / 6000`. -/
theorem cover (i : S600000x1.Idx) : ∃ t : Fin cfg1.N, (cfg1.win 3).flush t = true ∧ i ∈ ((cfg1.win 3).blk t).view.set := by
  have hN : grid1.N = 100 := N_1
  have hi0 : (i 0).val < 600000 := (i 0).isLt
  have hi1 : (i 1).val < 1 := (i 1).isLt
  let t : Fin cfg1.N := ⟨(i 0).val / 6000, by show (i 0).val / 6000 < grid1.N; omega⟩
  obtain ⟨-, -, -, -, -, -, e0, e1⟩ := idx_facts t
  refine ⟨t, flush1_3 t, ?_⟩
  rw [mem_blk]
  intro a
  match a with
  | ⟨0, _⟩ =>
    show win1_3.index t (0 : Fin 2) * 6000 ≤ (i 0).val ∧ (i 0).val < win1_3.index t (0 : Fin 2) * 6000 + 6000
    rw [e0]; show (i 0).val / 6000 * 6000 ≤ (i 0).val ∧ (i 0).val < (i 0).val / 6000 * 6000 + 6000; omega
  | ⟨1, _⟩ =>
    show win1_3.index t (1 : Fin 2) * 1 ≤ (i 1).val ∧ (i 1).val < win1_3.index t (1 : Fin 2) * 1 + 1
    rw [e1]; omega

/-- THE ARRAY after the region: `logits` of the three arrays as the region finds them. -/
theorem final : (dat1 (F := Ideal) V c).arrAt 3 cfg1.N = logits (V c main_arg1) (V c main_call0_v10) (V c main_call0_v12) :=
  (dat1 V c).arrAt_eq_of_cover 3 (logits (V c main_arg1) (V c main_call0_v10) (V c main_call0_v12))
    (fun t _ => flushed_eq V c t) (cover)

/-- THE LOGIT OF EDGE `e` after the region: the logistic of its score times the inner product of its 64 features with
    the folded row. -/
theorem arr_logit (e : Fin 600000) :
    ((dat1 (F := Ideal) V c).arrAt 3 cfg1.N : S600000x1.Idx → EReal) (ix2 e (0 : Fin 1))
      = Ideal.logistic ((V c main_call0_v10 : S600000x1.Idx → EReal) (ix2 e (0 : Fin 1)))
        * ∑ k : Fin 64, (HMul.hMul : EReal → EReal → EReal) ((V c main_arg1 : S600000x64.Idx → EReal) (ix2 e k))
            ((V c main_call0_v12 : S1x64.Idx → EReal) (ix2 (0 : Fin 1) k)) := by
  rw [final]
  rfl

end Cert.KernelIdeal.EdgeValue

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.HostMid.lean ====
/-
  The host operations between the program's two kernels, read at an index.

  Between the first kernel's exit and the second kernel's entry the program takes rows out of three tables by the
  edges' endpoint indices, adds the two scalar takes, multiplies the edge matrix into the message vector and lays the
  resulting column out as a row. Each take is the fill-mode take: an index `i` is normalised to
  `i' = if i < 0 then i + 50000 else i`, the row `i'` (clamped into the table) is gathered, and the result is kept
  where `0 ≤ i' ≤ 49999` and replaced by a fill word elsewhere. With every index in `[0, 50000)` the normalisation
  is the identity, the mask is all ones, and the take at `(e, k)` is entry `k` of the row the index `e` names.

  * `hs_apply`: the taken node features at `(e, k)` are the first kernel's updated features at `(src e, k)`;
  * `score_apply`: the edge score at `e` is the source score of `src e` plus the destination score of `dst e`;
  * `wcomb_apply`: entry `k` of the folded edge matrix is `∑ j, W_e (k, j) · W_m (j, 0)`;
  * `edges_kept`: the edge-feature table is untouched.
-/
import proofs.«412961_j88510686036316_2_alg».proof.Proof.Gen.KernelIdeal.Frame
import proofs.«412961_j88510686036316_2_alg».proof.Proof.Spec
import proofs.«412961_j88510686036316_2_alg».proof.Proof.LibRowGatherScatter
import Idealize.ShloMosaic.Lib.StableHlo.Run
import Idealize.ShloMosaic.PureOps.Ideal.Laws
import Idealize.ShloMosaic.PureOps.Reduce
import Idealize.ShloMosaic.Lib.Pipeline.Value
import Idealize.ShloMosaic.Lib.Affine

set_option maxRecDepth 16384

noncomputable section

namespace Cert.KernelIdeal.HostMid
open Cert.KernelIdeal Cert.KernelIdeal.Gen Idealize.ShloMosaic Idealize.ShloMosaic.ValueIdx Idealize.SL.Sem
open scoped BigOperators

/-! ## The fill-mode take, as the operations compose it -/

/-- The index column the take reads rows at: a negative index has the table's length added, then the vector is
    made a column. -/
def normIdx (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- The in-bounds mask: `0 ≤ i'` and `i' ≤ 49999` at the normalised index, reduced by `and` over the unit axis. -/
def inBounds (idx : IVec S600000 32) : IVec S600000 1 :=
  Host.reduce IntOp.andi
    (andi (cmpi .sge (normIdx idx) (broadcastInDim S600000x1 ![] bcast_S_S600000x1 (constantI S_ 32 0#32)))
      (cmpi .sle (normIdx idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The take of 128-entry rows: the gathered row where the index is in bounds, else the fill word. -/
def takeRows (x : FVec Ideal S50000x128 .f32) (idx : IVec S600000 32) : FVec Ideal S600000x128 .f32 :=
  select (broadcastInDim S600000x128 ![0] bcast_S600000_S600000x128_0 (inBounds idx))
    (Host.gather gather_S50000x128_S600000x1_S600000x128_1_0_n_n_0_1_1128 x (normIdx idx))
    (broadcastInDim S600000x128 ![] bcast_S_S600000x128 (constant (F := Ideal) S_ .f32 0x7FC00000#32))

/-- The take of one-entry rows. -/
def takeCol (x : FVec Ideal S50000x1 .f32) (idx : IVec S600000 32) : FVec Ideal S600000x1 .f32 :=
  select (broadcastInDim S600000x1 ![0] bcast_S600000_S600000x1_0 (inBounds idx))
    (Host.gather gather_S50000x1_S600000x1_S600000x1_1_0_n_n_0_1_11 x (normIdx idx))
    (broadcastInDim S600000x1 ![] bcast_S_S600000x1 (constant (F := Ideal) S_ .f32 0x7FC00000#32))

/-! ## The take read at an index, the indices in range -/

/-- A left fold by `and` over words that are all `1`, started at `1`, is `1`. -/
theorem foldl_andi_ones {ι : Type} (f : ι → BitVec 1) (hf : ∀ n, f n = 1#1) (l : List ι) (init : BitVec 1)
    (hi : init = 1#1) : l.foldl (fun r n => IntOp.andi r (f n)) init = 1#1 := by
  subst hi
  induction l with
  | nil => rfl
  | cons a l ih =>
    have e : IntOp.andi (1#1) (1#1) = 1#1 := by decide
    rw [List.foldl_cons, hf a, e]; exact ih

/-- A vector made a column reads, at row `e`, the vector's entry `e`. -/
theorem col_apply {α : Type} (v : S600000.Idx → α) (e : Fin 600000) :
    broadcastInDim S600000x1 ![0] bcast_S600000_S600000x1_0 v (ix2 e (0 : Fin 1)) = v (ix1 e) :=
  broadcastInDim_apply ![0] _ v (ix2 e (0 : Fin 1)) (ix1 e) (by
    intro a
    match a with
    | ⟨0, _⟩ => exact (if_neg (show ¬ (600000 : ℕ) = 1 by decide)).symm)

/-- A vector laid along the rows of 128 columns reads, at `(e, k)`, the vector's entry `e`. -/
theorem rows_apply {α : Type} (v : S600000.Idx → α) (e : Fin 600000) (k : Fin 128) :
    broadcastInDim S600000x128 ![0] bcast_S600000_S600000x128_0 v (ix2 e k) = v (ix1 e) :=
  broadcastInDim_apply ![0] _ v (ix2 e k) (ix1 e) (by
    intro a
    match a with
    | ⟨0, _⟩ => exact (if_neg (show ¬ (600000 : ℕ) = 1 by decide)).symm)

abbrev InRange (x : S600000.Idx → BitVec 32) : Prop := ∀ i, 0 ≤ (x i).toInt ∧ (x i).toInt < 50000

/-- A nonnegative index is its own normalisation. -/
theorem normIdx_apply (idx : IVec S600000 32) (e : Fin 600000) (h : 0 ≤ (idx (ix1 e)).toInt) :
    normIdx idx (ix2 e (0 : Fin 1)) = idx (ix1 e) := by
  unfold normIdx
  rw [col_apply]
  show Scalar.select (IntOp.cmpi .slt (idx (ix1 e)) 0#32) _ (idx (ix1 e)) = idx (ix1 e)
  have hz : IntOp.cmpi .slt (idx (ix1 e)) 0#32 = 0#1 :=
    eq_zero_of_ne_one (fun h1 => by
      have h2 := IntOp.cmpi_slt.mp h1
      have z : (0#32 : BitVec 32).toInt = 0 := by decide
      omega)
  rw [hz, select_zero]

/-- With every index in `[0, 50000)` the in-bounds mask is all ones. -/
theorem inBounds_apply (idx : IVec S600000 32) (h : InRange idx) (j : S600000.Idx) : inBounds idx j = 1#1 := by
  unfold inBounds
  rw [Host.reduce_eq_foldl]
  refine foldl_andi_ones _ (fun i => ?_) _ _ rfl
  obtain ⟨e, r, rfl⟩ : ∃ (e : Fin 600000) (r : Fin 1), i = ix2 e r := ⟨i 0, i 1, eq_ix2 i⟩
  obtain rfl : r = 0 := Subsingleton.elim _ _
  show IntOp.andi (IntOp.cmpi .sge (normIdx idx (ix2 e (0 : Fin 1))) 0#32)
      (IntOp.cmpi .sle (normIdx idx (ix2 e (0 : Fin 1))) 49999#32) = 1#1
  rw [normIdx_apply idx e (h _).1]
  have z0 : (0#32 : BitVec 32).toInt = 0 := by decide
  have z1 : (49999#32 : BitVec 32).toInt = 49999 := by decide
  have hr := h (ix1 e)
  exact IntOp.andi_eq_one.mpr ⟨IntOp.cmpi_sge.mpr (by omega), IntOp.cmpi_sle.mpr (by omega)⟩

/-- THE TAKE OF ROWS AT `(e, k)`: entry `k` of the row the index names. -/
theorem takeRows_apply (x : FVec Ideal S50000x128 .f32) (idx : IVec S600000 32) (h : InRange idx) (e : Fin 600000)
    (k : Fin 128) : takeRows x idx (ix2 e k) = x (ix2 (Cert.Spec.node (idx (ix1 e)) (h _)) k) := by
  unfold takeRows
  rw [select_apply, rows_apply, inBounds_apply idx h, select_one]
  have hg : gather_S50000x128_S600000x1_S600000x128_1_0_n_n_0_1_1128
      = Cert.Gcn.rowGatherDims 50000 600000 128 gather_S50000x128_S600000x1_S600000x128_1_0_n_n_0_1_1128_wf := rfl
  rw [hg, Cert.Gcn.gather_rows_apply (by decide)]
  refine congrArg x (congrArg (fun r => ix2 r k) (Fin.ext ?_))
  show min ((normIdx idx (ix2 e (0 : Fin 1))).toInt.toNat) (50000 - 1) = (idx (ix1 e)).toInt.toNat
  rw [normIdx_apply idx e (h _).1]
  have hr := h (ix1 e)
  omega

/-- THE TAKE OF ONE-ENTRY ROWS AT `(e, 0)`. -/
theorem takeCol_apply (x : FVec Ideal S50000x1 .f32) (idx : IVec S600000 32) (h : InRange idx) (e : Fin 600000) :
    takeCol x idx (ix2 e (0 : Fin 1)) = x (ix2 (Cert.Spec.node (idx (ix1 e)) (h _)) (0 : Fin 1)) := by
  unfold takeCol
  rw [select_apply, col_apply, inBounds_apply idx h, select_one]
  have hg : gather_S50000x1_S600000x1_S600000x1_1_0_n_n_0_1_11
      = Cert.Gcn.rowGatherDims 50000 600000 1 gather_S50000x1_S600000x1_S600000x1_1_0_n_n_0_1_11_wf := rfl
  rw [hg, Cert.Gcn.gather_rows_apply (by decide)]
  refine congrArg x (congrArg (fun r => ix2 r (0 : Fin 1)) (Fin.ext ?_))
  show min ((normIdx idx (ix2 e (0 : Fin 1))).toInt.toNat) (50000 - 1) = (idx (ix1 e)).toInt.toNat
  rw [normIdx_apply idx e (h _).1]
  have hr := h (ix1 e)
  omega

/-! ## The product W_e · W_m and its reshape -/

/-- Where the product at `i` reads its operands, coordinate by coordinate: the left operand at `i`'s row and the
    contracted coordinate, the right operand at the contracted coordinate and `i`'s column. -/
theorem wdot_lhs_0 (i : S64x1.Idx) (q : dot_S64x128_S128x1_S64x1_1_0_0_1_n_n.contr.Idx) :
    (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
theorem wdot_lhs_1 (i : S64x1.Idx) (q : dot_S64x128_S128x1_S64x1_1_0_0_1_n_n.contr.Idx) :
    (dot_S64x128_S128x1_S64x1_1_0_0_1_n_n.lhsIdx i q 1).val = (q ⟨0, by decide⟩).val :=
  dot_S64x128_S128x1_S64x1_1_0_0_1_n_n.lhsIdx_val_of_single rfl i q
theorem wdot_rhs_0 (i : S64x1.Idx) (q : dot_S64x128_S128x1_S64x1_1_0_0_1_n_n.contr.Idx) :
    (dot_S64x128_S128x1_S64x1_1_0_0_1_n_n.rhsIdx i q 0).val = (q ⟨0, by decide⟩).val :=
  dot_S64x128_S128x1_S64x1_1_0_0_1_n_n.rhsIdx_val_of_single rfl i q
theorem wdot_rhs_1 (i : S64x1.Idx) (q : dot_S64x128_S128x1_S64x1_1_0_0_1_n_n.contr.Idx) :
    (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-- The product at `(k, 0)`: row `k` of the left operand against the right operand's column. -/
theorem wdot_apply (l : FVec Ideal S64x128 .f32) (r : FVec Ideal S128x1 .f32) (k : Fin 64) :
    Host.dotGeneral dot_S64x128_S128x1_S64x1_1_0_0_1_n_n none l r (ix2 k (0 : Fin 1))
      = ∑ j : Fin 128, l (ix2 k j) * r (ix2 j (0 : Fin 1)) := by
  simp only [Host.dotGeneral]
  rw [Ideal.dotGeneral_apply, ← Equiv.sum_comp (contrEquiv1 dot_S64x128_S128x1_S64x1_1_0_0_1_n_n 128 rfl rfl).symm]
  refine Finset.sum_congr rfl fun j _ => ?_
  have hj := contrEquiv1_symm_val dot_S64x128_S128x1_S64x1_1_0_0_1_n_n 128 rfl rfl j
  have el : dot_S64x128_S128x1_S64x1_1_0_0_1_n_n.lhsIdx (ix2 k (0 : Fin 1)) ((contrEquiv1 dot_S64x128_S128x1_S64x1_1_0_0_1_n_n 128 rfl rfl).symm j) = ix2 k j := funext fun a => Fin.ext (by
    match a with
    | ⟨0, _⟩ => exact wdot_lhs_0 _ _
    | ⟨1, _⟩ => exact (wdot_lhs_1 _ _).trans hj)
  have er : dot_S64x128_S128x1_S64x1_1_0_0_1_n_n.rhsIdx (ix2 k (0 : Fin 1)) ((contrEquiv1 dot_S64x128_S128x1_S64x1_1_0_0_1_n_n 128 rfl rfl).symm j) = ix2 j (0 : Fin 1) := funext fun a => Fin.ext (by
    match a with
    | ⟨0, _⟩ => exact (wdot_rhs_0 _ _).trans hj
    | ⟨1, _⟩ => exact wdot_rhs_1 _ _)
  rw [el, er]

/-- A 64 × 1 column recast as a 1 × 64 row reads, at `(0, k)`, the column's entry `(k, 0)`. -/
theorem colToRow_apply {α : Type} (y : S64x1.Idx → α) (k : Fin 64) :
    shapeCast S1x64 y shapeCasts_S64x1_S1x64 (ix2 (0 : Fin 1) k) = y (ix2 k (0 : Fin 1)) :=
  shapeCast_apply y shapeCasts_S64x1_S1x64 (ix2 (0 : Fin 1) k) (ix2 k (0 : Fin 1)) (by
    rw [Shape.rowMajor_val_two, Shape.rowMajor_val_two]
    show k.val * 1 + 0 = 0 * 64 + k.val
    omega)

/-! ## The stretch's results over the buffers at the first kernel's exit -/

variable (m : (ℓ : Loc nD τ sig) → Buf (Elt Ideal) ℓ) (ρ : Dev nD → PrngReg) (c : Dev nD)

/-- the index arrays as the stretch finds them -/
abbrev srcW : S600000.Idx → BitVec 32 := W2 m ρ c (Proc.devRef .tc main_arg2)
abbrev dstW : S600000.Idx → BitVec 32 := W2 m ρ c (Proc.devRef .tc main_arg3)

set_option maxHeartbeats 4000000 in
/-- The taken node features are the take of rows of the first kernel's updated features by the source indices. -/
theorem W3_v7 :
    (W3 m ρ c (Proc.devRef .tc main_call0_v7) : S600000x128.Idx → EReal)
      = takeRows (W2 m ρ c (Proc.devRef .tc main_call0_v6_0)) (srcW m ρ c) := by
  show StableHlo.after hostOps1 (W2 m ρ c) (Proc.devRef .tc main_call0_v7) = _
  after_results_simp
  simp only [StableHlo.TRef.ofBuf, StableHlo.TRef.toBuf, cast_eq]
  rfl

set_option maxHeartbeats 4000000 in
/-- The edge scores are the take of the source scores by the source indices plus the take of the destination scores
    by the destination indices. -/
theorem W3_v10 :
    (W3 m ρ c (Proc.devRef .tc main_call0_v10) : S600000x1.Idx → EReal)
      = addf (takeCol (W2 m ρ c (Proc.devRef .tc main_call0_v6_1)) (srcW m ρ c))
          (takeCol (W2 m ρ c (Proc.devRef .tc main_call0_v6_2)) (dstW m ρ c)) := by
  show StableHlo.after hostOps1 (W2 m ρ c) (Proc.devRef .tc main_call0_v10) = _
  after_results_simp
  simp only [StableHlo.TRef.ofBuf, StableHlo.TRef.toBuf, cast_eq]
  rfl

set_option maxHeartbeats 4000000 in
/-- The folded edge matrix is the product of the edge matrix and the message vector, its column laid out as a row. -/
theorem W3_v12 :
    (W3 m ρ c (Proc.devRef .tc main_call0_v12) : S1x64.Idx → EReal)
      = shapeCast S1x64 (Host.dotGeneral (F := Ideal) (φ₁ := .f32) (φ₂ := .f32) dot_S64x128_S128x1_S64x1_1_0_0_1_n_n none
          (W2 m ρ c (Proc.devRef .tc main_arg5)) (W2 m ρ c (Proc.devRef .tc main_arg7))) shapeCasts_S64x1_S1x64 := by
  show StableHlo.after hostOps1 (W2 m ρ c) (Proc.devRef .tc main_call0_v12) = _
  after_results_simp
  simp only [StableHlo.TRef.ofBuf, StableHlo.TRef.toBuf, cast_eq]
  rfl

/-! ## The statements -/

theorem hs_apply (hs : InRange (srcW m ρ c)) (e : Fin 600000) (k : Fin 128) :
    (W3 m ρ c (Proc.devRef .tc main_call0_v7) : S600000x128.Idx → EReal) (ix2 e k)
      = (W2 m ρ c (Proc.devRef .tc main_call0_v6_0) : S50000x128.Idx → EReal) (ix2 (Cert.Spec.node (srcW m ρ c (ix1 e)) (hs _)) k) :=
  (congrFun (W3_v7 m ρ c) (ix2 e k)).trans (takeRows_apply _ _ hs e k)

theorem score_apply (hs : InRange (srcW m ρ c)) (hd : InRange (dstW m ρ c)) (e : Fin 600000) :
    (W3 m ρ c (Proc.devRef .tc main_call0_v10) : S600000x1.Idx → EReal) (ix2 e (0 : Fin 1))
      = @HAdd.hAdd EReal EReal EReal instHAdd
          ((W2 m ρ c (Proc.devRef .tc main_call0_v6_1) : S50000x1.Idx → EReal) (ix2 (Cert.Spec.node (srcW m ρ c (ix1 e)) (hs _)) (0 : Fin 1)))
          ((W2 m ρ c (Proc.devRef .tc main_call0_v6_2) : S50000x1.Idx → EReal) (ix2 (Cert.Spec.node (dstW m ρ c (ix1 e)) (hd _)) (0 : Fin 1))) := by
  rw [congrFun (W3_v10 m ρ c) (ix2 e (0 : Fin 1)), addf_apply, takeCol_apply _ _ hs e, takeCol_apply _ _ hd e]

theorem wcomb_apply (k : Fin 64) :
    (W3 m ρ c (Proc.devRef .tc main_call0_v12) : S1x64.Idx → EReal) (ix2 (0 : Fin 1) k)
      = ∑ j : Fin 128, @HMul.hMul EReal EReal EReal instHMul
          ((W2 m ρ c (Proc.devRef .tc main_arg5) : S64x128.Idx → EReal) (ix2 k j))
          ((W2 m ρ c (Proc.devRef .tc main_arg7) : S128x1.Idx → EReal) (ix2 j (0 : Fin 1))) := by
  rw [congrFun (W3_v12 m ρ c) (ix2 (0 : Fin 1) k), colToRow_apply, wdot_apply]

set_option maxHeartbeats 1000000 in
/-- No operation of the stretch writes the edge-feature table. -/
theorem edges_kept : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.HostMid

end
-- ==== Proof.SpecNode.lean ====
/-
  The node a 32-bit index word names does not depend on how the word, or the evidence that it is in range, is spelt.
-/
import proofs.«412961_j88510686036316_2_alg».proof.Proof.Spec

noncomputable section

namespace Cert.Spec

theorem node_congr {w w' : BitVec 32} (e : w = w') (h : 0 ≤ w.toInt ∧ w.toInt < 50000) (h' : 0 ≤ w'.toInt ∧ w'.toInt < 50000) :
    node w h = node w' h' := by
  subst e; rfl

end Cert.Spec

end
-- ==== Proof.KernelValue.lean ====
/-
  What the kernel program's buffers hold, entry by entry, in the specification's terms.

  Following the program through its five segments: the node-update call leaves the updated features `hp` and the
  two per-node scores `s1`, `s2`; the host gathers the source rows and adds the gathered scores, and folds the
  edge matrix with the message vector; the edge call leaves one logit per edge. The index arrays are in range, so each
  fill-mode `take` is the plain row gather.
-/
import proofs.«412961_j88510686036316_2_alg».proof.Proof.Boundary
import proofs.«412961_j88510686036316_2_alg».proof.Proof.NodeValue
import proofs.«412961_j88510686036316_2_alg».proof.Proof.EdgeValue
import proofs.«412961_j88510686036316_2_alg».proof.Proof.HostMid
import proofs.«412961_j88510686036316_2_alg».proof.Proof.SpecNode
import Idealize.ShloMosaic.Lib.Pipeline.Value

set_option maxRecDepth 16384

noncomputable section

namespace Cert.KernelIdeal.KernelValue

open Cert.KernelIdeal Cert.KernelIdeal.Gen Cert.KernelIdeal.Boundary Idealize.ShloMosaic Idealize.ShloMosaic.TcCoe
  Idealize.ShloMosaic.ValueIdx Idealize.SL.Sem
open scoped BigOperators

variable (m : (ℓ : Loc nD τ sig) → Buf (Elt Ideal) ℓ) (ρ : Dev nD → PrngReg) (c : Dev nD)

/-! ## The arguments, at their array types -/

abbrev xh : S50000x128.Idx → EReal := m ((c : Thread nD τ).loc main_arg0)
abbrev xe : S600000x64.Idx → EReal := m ((c : Thread nD τ).loc main_arg1)
abbrev xsrc : S600000.Idx → BitVec 32 := m ((c : Thread nD τ).loc main_arg2)
abbrev xdst : S600000.Idx → BitVec 32 := m ((c : Thread nD τ).loc main_arg3)
abbrev xwu : S128x128.Idx → EReal := m ((c : Thread nD τ).loc main_arg4)
abbrev xwe : S64x128.Idx → EReal := m ((c : Thread nD τ).loc main_arg5)
abbrev xa : S256x1.Idx → EReal := m ((c : Thread nD τ).loc main_arg6)
abbrev xwm : S128x1.Idx → EReal := m ((c : Thread nD τ).loc main_arg7)

abbrev InRange (x : S600000.Idx → BitVec 32) : Prop := ∀ i, 0 ≤ (x i).toInt ∧ (x i).toInt < 50000

/-! ## The attention vector's halves, read as rows -/

theorem a1_at (k : Fin 128) :
    (W1 m ρ c (Proc.devRef .tc main_call0_v2) : S1x128.Idx → EReal) (ix2 (0 : Fin 1) k)
      = xa m c (ix2 (⟨k.val, by omega⟩ : Fin 256) (0 : Fin 1)) := by
  rw [a1_row]
  rw [shapeCast_apply _ _ (ix2 (0 : Fin 1) k) (ix1 k) (by rw [Shape.rowMajor_val_one, Shape.rowMajor_val_two]; show k.val = 0 * 128 + k.val; omega)]
  rw [shapeCast_apply _ _ (ix1 k) (ix2 k (0 : Fin 1)) (by rw [Shape.rowMajor_val_one, Shape.rowMajor_val_two]; show k.val * 1 + 0 = k.val; omega)]
  exact extractStridedSlice_apply _ _ _ _ (ix2 (⟨k.val, by omega⟩ : Fin 256) (0 : Fin 1))
    (fun a => by match a with | ⟨0, _⟩ => (show k.val = 0 + k.val; omega) | ⟨1, _⟩ => rfl)

theorem a2_at (k : Fin 128) :
    (W1 m ρ c (Proc.devRef .tc main_call0_v5) : S1x128.Idx → EReal) (ix2 (0 : Fin 1) k)
      = xa m c (ix2 (⟨128 + k.val, by omega⟩ : Fin 256) (0 : Fin 1)) := by
  rw [a2_row]
  rw [shapeCast_apply _ _ (ix2 (0 : Fin 1) k) (ix1 k) (by rw [Shape.rowMajor_val_one, Shape.rowMajor_val_two]; show k.val = 0 * 128 + k.val; omega)]
  rw [shapeCast_apply _ _ (ix1 k) (ix2 k (0 : Fin 1)) (by rw [Shape.rowMajor_val_one, Shape.rowMajor_val_two]; show k.val * 1 + 0 = k.val; omega)]
  exact extractStridedSlice_apply _ _ _ _ (ix2 (⟨128 + k.val, by omega⟩ : Fin 256) (0 : Fin 1))
    (fun a => by match a with | ⟨0, _⟩ => rfl | ⟨1, _⟩ => rfl)

/-! ## After the node-update call -/

theorem hp_at (n : Fin 50000) (j : Fin 128) :
    (W2 m ρ c (Proc.devRef .tc main_call0_v6_0) : S50000x128.Idx → EReal) (ix2 n j) = Cert.Spec.hp (xh m c) (xwu m c) n j := by
  have h := NodeValue.arr_hp (V1 m ρ) c n j
  rw [show V1 m ρ c main_arg0 = xh m c from W1_arg0 m ρ c, show V1 m ρ c main_arg4 = xwu m c from W1_arg4 m ρ c] at h
  rw [← h]
  exact congrFun (W2_arr m ρ c 4) (ix2 n j)

theorem s1_at (n : Fin 50000) :
    (W2 m ρ c (Proc.devRef .tc main_call0_v6_1) : S50000x1.Idx → EReal) (ix2 n (0 : Fin 1))
      = Cert.Spec.s1 (xh m c) (xwu m c) (xa m c) n := by
  have h := NodeValue.arr_s1 (V1 m ρ) c n
  rw [show V1 m ρ c main_arg0 = xh m c from W1_arg0 m ρ c, show V1 m ρ c main_arg4 = xwu m c from W1_arg4 m ρ c] at h
  have h2 : (∑ k : Fin 128, Cert.Spec.hp (xh m c) (xwu m c) n k * (V1 m ρ c main_call0_v2 : S1x128.Idx → EReal) (ix2 (0 : Fin 1) k) : EReal)
      = Cert.Spec.s1 (xh m c) (xwu m c) (xa m c) n := by
    unfold Cert.Spec.s1
    exact Finset.sum_congr rfl fun k _ => congrArg (fun x : EReal => Cert.Spec.hp (xh m c) (xwu m c) n k * x) (a1_at m ρ c k)
  exact (congrFun (W2_arr m ρ c 5) (ix2 n (0 : Fin 1))).trans (h.trans h2)

theorem s2_at (n : Fin 50000) :
    (W2 m ρ c (Proc.devRef .tc main_call0_v6_2) : S50000x1.Idx → EReal) (ix2 n (0 : Fin 1))
      = Cert.Spec.s2 (xh m c) (xwu m c) (xa m c) n := by
  have h := NodeValue.arr_s2 (V1 m ρ) c n
  rw [show V1 m ρ c main_arg0 = xh m c from W1_arg0 m ρ c, show V1 m ρ c main_arg4 = xwu m c from W1_arg4 m ρ c] at h
  have h2 : (∑ k : Fin 128, Cert.Spec.hp (xh m c) (xwu m c) n k * (V1 m ρ c main_call0_v5 : S1x128.Idx → EReal) (ix2 (0 : Fin 1) k) : EReal)
      = Cert.Spec.s2 (xh m c) (xwu m c) (xa m c) n := by
    unfold Cert.Spec.s2
    exact Finset.sum_congr rfl fun k _ => congrArg (fun x : EReal => Cert.Spec.hp (xh m c) (xwu m c) n k * x) (a2_at m ρ c k)
  exact (congrFun (W2_arr m ρ c 6) (ix2 n (0 : Fin 1))).trans (h.trans h2)

/-! ## After the host stretch between the calls -/

theorem src_eq : HostMid.srcW m ρ c = xsrc m c := W2_arg2 m ρ c
theorem dst_eq : HostMid.dstW m ρ c = xdst m c := W2_arg3 m ρ c

theorem hs_at (hs : InRange (xsrc m c)) (e : Fin 600000) (k : Fin 128) :
    (W3 m ρ c (Proc.devRef .tc main_call0_v7) : S600000x128.Idx → EReal) (ix2 e k)
      = Cert.Spec.hp (xh m c) (xwu m c) (Cert.Spec.node (xsrc m c (ix1 e)) (hs _)) k := by
  have hs' : HostMid.InRange (HostMid.srcW m ρ c) := fun i => (congrFun (src_eq m ρ c) i) ▸ hs i
  rw [HostMid.hs_apply m ρ c hs' e k, hp_at]
  exact congrArg (fun n => Cert.Spec.hp (xh m c) (xwu m c) n k) (Cert.Spec.node_congr (congrFun (src_eq m ρ c) (ix1 e)) _ _)

theorem score_at (hs : InRange (xsrc m c)) (hd : InRange (xdst m c)) (e : Fin 600000) :
    (W3 m ρ c (Proc.devRef .tc main_call0_v10) : S600000x1.Idx → EReal) (ix2 e (0 : Fin 1))
      = Cert.Spec.s1 (xh m c) (xwu m c) (xa m c) (Cert.Spec.node (xsrc m c (ix1 e)) (hs _))
        + Cert.Spec.s2 (xh m c) (xwu m c) (xa m c) (Cert.Spec.node (xdst m c (ix1 e)) (hd _)) := by
  have hs' : HostMid.InRange (HostMid.srcW m ρ c) := fun i => (congrFun (src_eq m ρ c) i) ▸ hs i
  have hd' : HostMid.InRange (HostMid.dstW m ρ c) := fun i => (congrFun (dst_eq m ρ c) i) ▸ hd i
  rw [HostMid.score_apply m ρ c hs' hd' e, s1_at, s2_at]
  rw [Cert.Spec.node_congr (congrFun (src_eq m ρ c) (ix1 e)) (hs' _) (hs _),
    Cert.Spec.node_congr (congrFun (dst_eq m ρ c) (ix1 e)) (hd' _) (hd _)]

theorem wc_at (k : Fin 64) :
    (W3 m ρ c (Proc.devRef .tc main_call0_v12) : S1x64.Idx → EReal) (ix2 (0 : Fin 1) k) = Cert.Spec.wc (xwe m c) (xwm m c) k := by
  rw [HostMid.wcomb_apply m ρ c k, W2_arg5, W2_arg7]
  rfl

theorem e_at : W3 m ρ c (Proc.devRef .tc main_arg1) = m ((c : Thread nD τ).loc main_arg1) :=
  (HostMid.edges_kept m ρ c).trans (W2_arg1 m ρ c)

/-! ## After the edge call -/

theorem logit_at (hs : InRange (xsrc m c)) (hd : InRange (xdst m c)) (e : Fin 600000) :
    (W4 m ρ c (Proc.devRef .tc main_call0_v13) : S600000x1.Idx → EReal) (ix2 e (0 : Fin 1))
      = Cert.Spec.logit (xh m c) (xwu m c) (xa m c) (xe m c) (xwe m c) (xwm m c)
          (Cert.Spec.node (xsrc m c (ix1 e)) (hs _)) (Cert.Spec.node (xdst m c (ix1 e)) (hd _)) e := by
  have hsum : (∑ k : Fin 64, (HMul.hMul : EReal → EReal → EReal) ((V3 m ρ c main_arg1 : S600000x64.Idx → EReal) (ix2 e k))
        ((V3 m ρ c main_call0_v12 : S1x64.Idx → EReal) (ix2 (0 : Fin 1) k)) : EReal)
      = ∑ k : Fin 64, xe m c (ix2 e k) * Cert.Spec.wc (xwe m c) (xwm m c) k :=
    Finset.sum_congr rfl fun k _ => by
      rw [show (V3 m ρ c main_call0_v12 : S1x64.Idx → EReal) (ix2 (0 : Fin 1) k) = Cert.Spec.wc (xwe m c) (xwm m c) k from wc_at m ρ c k,
        show V3 m ρ c main_arg1 = m ((c : Thread nD τ).loc main_arg1) from e_at m ρ c]
  have hA := EdgeValue.arr_logit (V3 m ρ) c e
  rw [show (V3 m ρ c main_call0_v10 : S600000x1.Idx → EReal) (ix2 e (0 : Fin 1)) = _ from score_at m ρ c hs hd e, hsum] at hA
  exact (congrFun (W4_arr m ρ c 3) (ix2 e (0 : Fin 1))).trans hA

end Cert.KernelIdeal.KernelValue

end
-- ==== Proof.RefRead.lean ====
/-
  The reference program's stages read at an index, as the entries of the specification.

  The reference computes, in order: the updated node features (a matrix product followed by the leaky rectifier), the
  rows of that table gathered at the edges' source and destination nodes, the two score columns (each gathered table
  against one half of the attention vector) and their sum, the logistic function of that sum, the edge features times
  the edge matrix, and the product of the two against the message vector. Each is read here at one index and written
  with the specification's scalars: the updated entry, a node's score as a source and as a destination.

  The two gathers take their start indices from the index words after a wrap of negative words (a word below zero
  has the table's height added). For words in the table's range, the wrap and the gather's clamp leave the word as it
  is, so the gathered row is the row the word names.
-/
import proofs.«412961_j88510686036316_2_alg».proof.Proof.Gen.ReferenceIdeal.Read
import proofs.«412961_j88510686036316_2_alg».proof.Proof.Spec
import proofs.«412961_j88510686036316_2_alg».proof.Proof.LibRowGatherScatter

noncomputable section

namespace Cert.ReferenceIdeal.RefRead

open Cert.ReferenceIdeal Cert.ReferenceIdeal.Read Idealize.ShloMosaic Idealize.ShloMosaic.ValueIdx
open scoped BigOperators

/-- Every index word names a node: read as a signed integer it lies in the table's range. -/
abbrev InRange (x : (⟨S600000, .i32⟩ : BufTy).Contents (Elt Ideal)) : Prop := ∀ i, 0 ≤ (x i).toInt ∧ (x i).toInt < 50000

/-! ## The operand indices of the matrix products and of the layout operations, by coordinates -/

theorem lidx0 (n : Fin 50000) (j k : Fin 128) : lidx_main_v0 (ix2 n j) k = ix2 n k :=
  funext fun a => Fin.ext (by match a with | ⟨0, _⟩ => rfl | ⟨1, _⟩ => rfl)
theorem ridx0 (n : Fin 50000) (j k : Fin 128) : ridx_main_v0 (ix2 n j) k = ix2 k j :=
  funext fun a => Fin.ext (by match a with | ⟨0, _⟩ => rfl | ⟨1, _⟩ => rfl)

theorem idx11 (e : Fin 600000) : idx_main_v11 (ix2 e (0 : Fin 1)) = ix1 e :=
  funext fun a => Fin.ext (by match a with | ⟨0, _⟩ => rfl)
theorem idx18 (e : Fin 600000) : idx_main_v18 (ix2 e (0 : Fin 1)) = ix1 e :=
  funext fun a => Fin.ext (by match a with | ⟨0, _⟩ => rfl)

theorem lidx21 (e : Fin 600000) (k : Fin 128) : lidx_main_v21 (ix2 e (0 : Fin 1)) k = ix2 e k :=
  funext fun a => Fin.ext (by match a with | ⟨0, _⟩ => rfl | ⟨1, _⟩ => rfl)
theorem ridx21 (e : Fin 600000) (k : Fin 128) : ridx_main_v21 (ix2 e (0 : Fin 1)) k = ix2 k (0 : Fin 1) :=
  funext fun a => Fin.ext (by match a with | ⟨0, _⟩ => rfl | ⟨1, _⟩ => rfl)
theorem lidx23 (e : Fin 600000) (k : Fin 128) : lidx_main_v23 (ix2 e (0 : Fin 1)) k = ix2 e k :=
  funext fun a => Fin.ext (by match a with | ⟨0, _⟩ => rfl | ⟨1, _⟩ => rfl)
theorem ridx23 (e : Fin 600000) (k : Fin 128) : ridx_main_v23 (ix2 e (0 : Fin 1)) k = ix2 k (0 : Fin 1) :=
  funext fun a => Fin.ext (by match a with | ⟨0, _⟩ => rfl | ⟨1, _⟩ => rfl)

theorem idx20 (k : Fin 128) : idx_main_v20 (ix2 k (0 : Fin 1)) = ix2 (⟨k.val, by omega⟩ : Fin 256) (0 : Fin 1) :=
  funext fun a => Fin.ext (by match a with | ⟨0, _⟩ => rfl | ⟨1, _⟩ => rfl)
theorem idx22 (k : Fin 128) : idx_main_v22 (ix2 k (0 : Fin 1)) = ix2 (⟨128 + k.val, by omega⟩ : Fin 256) (0 : Fin 1) :=
  funext fun a => Fin.ext (by match a with | ⟨0, _⟩ => rfl | ⟨1, _⟩ => rfl)

theorem lidx31 (e : Fin 600000) (j : Fin 128) (k : Fin 64) : lidx_main_v31 (ix2 e j) k = ix2 e k :=
  funext fun a => Fin.ext (by match a with | ⟨0, _⟩ => rfl | ⟨1, _⟩ => rfl)
theorem ridx31 (e : Fin 600000) (j : Fin 128) (k : Fin 64) : ridx_main_v31 (ix2 e j) k = ix2 k j :=
  funext fun a => Fin.ext (by match a with | ⟨0, _⟩ => rfl | ⟨1, _⟩ => rfl)
theorem idx32 (e : Fin 600000) (j : Fin 128) : idx_main_v32 (ix2 e j) = ix2 e (0 : Fin 1) :=
  funext fun a => Fin.ext (by match a with | ⟨0, _⟩ => rfl | ⟨1, _⟩ => rfl)
theorem lidx34 (e : Fin 600000) (j : Fin 128) : lidx_main_v34 (ix2 e (0 : Fin 1)) j = ix2 e j :=
  funext fun a => Fin.ext (by match a with | ⟨0, _⟩ => rfl | ⟨1, _⟩ => rfl)
theorem ridx34 (e : Fin 600000) (j : Fin 128) : ridx_main_v34 (ix2 e (0 : Fin 1)) j = ix2 j (0 : Fin 1) :=
  funext fun a => Fin.ext (by match a with | ⟨0, _⟩ => rfl | ⟨1, _⟩ => rfl)

/-! ## The updated node features -/

/-- The leaky node update at `(n, j)` is the specification's updated entry. -/
theorem ref_hp (x0 : (⟨S50000x128, .f32⟩ : BufTy).Contents (Elt Ideal)) (x4 : (⟨S128x128, .f32⟩ : BufTy).Contents (Elt Ideal))
    (n : Fin 50000) (j : Fin 128) : val_main_v5 (F := Ideal) x0 x4 (ix2 n j) = Cert.Spec.hp x0 x4 n j := by
  rw [val_main_v5_apply, val_main_v2_apply, val_main_v4_apply, val_main_v0_apply, val_main_v1_apply, val_main_v3_apply,
    val_main_cst_apply, val_main_cst_0_apply]
  simp only [lidx0, ridx0]
  rfl

/-! ## The start indices and the gathered rows -/

/-- A word in the table's range is not below zero, so the wrap of negative words leaves it as it is. -/
theorem wrap_inRange (w : BitVec 32) (h : 0 ≤ w.toInt ∧ w.toInt < 50000) :
    Scalar.select (IntOp.cmpi .slt w 0#32) (IntOp.addi w 50000#32) w = w := by
  have hc : ¬IntOp.cmpi .slt w 0#32 = 1#1 := by
    rw [IntOp.cmpi_slt]
    have h0 : (0#32 : BitVec 32).toInt = 0 := by decide
    omega
  rw [eq_zero_of_ne_one hc, select_zero]

/-- The source gather's start index of edge `e` is the source word of `e`. -/
theorem start_src (x2 : (⟨S600000, .i32⟩ : BufTy).Contents (Elt Ideal)) (hs : InRange x2) (e : Fin 600000) :
    val_main_v11 (F := Ideal) x2 (ix2 e (0 : Fin 1)) = x2 (ix1 e) := by
  rw [val_main_v11_apply, val_main_v10_apply, val_main_v7_apply, val_main_v9_apply, val_main_v6_apply, val_main_v8_apply,
    val_main_c_apply, val_main_c_1_apply, idx11]
  exact wrap_inRange _ (hs _)

/-- The destination gather's start index of edge `e` is the destination word of `e`. -/
theorem start_dst (x3 : (⟨S600000, .i32⟩ : BufTy).Contents (Elt Ideal)) (hd : InRange x3) (e : Fin 600000) :
    val_main_v18 (F := Ideal) x3 (ix2 e (0 : Fin 1)) = x3 (ix1 e) := by
  rw [val_main_v18_apply, val_main_v17_apply, val_main_v14_apply, val_main_v16_apply, val_main_v13_apply, val_main_v15_apply,
    val_main_c_2_apply, val_main_c_3_apply, idx18]
  exact wrap_inRange _ (hd _)

/-- The program's gather record is the row gather's. -/
theorem gather_eq : gather_S50000x128_S600000x1_S600000x128_1_0_n_n_0_1_1128
    = Cert.Gcn.rowGatherDims 50000 600000 128 Facts₀.gather_S50000x128_S600000x1_S600000x128_1_0_n_n_0_1_1128_wf := rfl

/-- The clamp into the table's rows leaves a word in range as it is: the row it names. -/
theorem clamp_inRange (w : BitVec 32) (h : 0 ≤ w.toInt ∧ w.toInt < 50000) (hlt : min w.toInt.toNat (50000 - 1) < 50000) :
    (⟨min w.toInt.toNat (50000 - 1), hlt⟩ : Fin 50000) = Cert.Spec.node w h := by
  refine Fin.ext ?_
  show min w.toInt.toNat (50000 - 1) = w.toInt.toNat
  omega

/-- The rows gathered at the source nodes: entry `(e, k)` is the updated entry `k` of the source node of `e`. -/
theorem ref_hs (x0 : (⟨S50000x128, .f32⟩ : BufTy).Contents (Elt Ideal)) (x2 : (⟨S600000, .i32⟩ : BufTy).Contents (Elt Ideal))
    (x4 : (⟨S128x128, .f32⟩ : BufTy).Contents (Elt Ideal)) (hs : InRange x2) (e : Fin 600000) (k : Fin 128) :
    val_main_v12 (F := Ideal) x0 x2 x4 (ix2 e k) = Cert.Spec.hp x0 x4 (Cert.Spec.node (x2 (ix1 e)) (hs _)) k := by
  unfold val_main_v12
  rw [gather_eq, Cert.Gcn.gather_rows_apply (by decide)]
  simp only [start_src x2 hs e]
  rw [clamp_inRange _ (hs _), ref_hp]

/-- The rows gathered at the destination nodes, likewise. -/
theorem ref_hd (x0 : (⟨S50000x128, .f32⟩ : BufTy).Contents (Elt Ideal)) (x3 : (⟨S600000, .i32⟩ : BufTy).Contents (Elt Ideal))
    (x4 : (⟨S128x128, .f32⟩ : BufTy).Contents (Elt Ideal)) (hd : InRange x3) (e : Fin 600000) (k : Fin 128) :
    val_main_v19 (F := Ideal) x0 x3 x4 (ix2 e k) = Cert.Spec.hp x0 x4 (Cert.Spec.node (x3 (ix1 e)) (hd _)) k := by
  unfold val_main_v19
  rw [gather_eq, Cert.Gcn.gather_rows_apply (by decide)]
  simp only [start_dst x3 hd e]
  rw [clamp_inRange _ (hd _), ref_hp]

/-! ## The score and the logit before the softmax -/

/-- The score of edge `e`: its source node's score as a source plus its destination node's score as a destination. -/
theorem ref_score (x0 : (⟨S50000x128, .f32⟩ : BufTy).Contents (Elt Ideal)) (x2 x3 : (⟨S600000, .i32⟩ : BufTy).Contents (Elt Ideal))
    (x4 : (⟨S128x128, .f32⟩ : BufTy).Contents (Elt Ideal)) (x6 : (⟨S256x1, .f32⟩ : BufTy).Contents (Elt Ideal))
    (hs : InRange x2) (hd : InRange x3) (e : Fin 600000) :
    val_main_v24 (F := Ideal) x0 x2 x3 x4 x6 (ix2 e (0 : Fin 1))
      = Cert.Spec.s1 x0 x4 x6 (Cert.Spec.node (x2 (ix1 e)) (hs _)) + Cert.Spec.s2 x0 x4 x6 (Cert.Spec.node (x3 (ix1 e)) (hd _)) := by
  rw [val_main_v24_apply, val_main_v21_apply, val_main_v23_apply]
  simp only [lidx21, ridx21, lidx23, ridx23, val_main_v20_apply, val_main_v22_apply, idx20, idx22, ref_hs x0 x2 x4 hs,
    ref_hd x0 x3 x4 hd, Ideal.addf_def]
  rfl

/-- The word of one is the extended real one. -/
theorem ofBits_one_f32 : Ideal.ofBits .f32 0x3F800000#32 = 1 := IdealRules.sign_bit.ideal_onePat .f32

/-- The logit of edge `e` before the softmax: the logistic function of the score times the edge's folded features,
    summed against the message vector. -/
theorem ref_logit_raw (x0 : (⟨S50000x128, .f32⟩ : BufTy).Contents (Elt Ideal)) (x1 : (⟨S600000x64, .f32⟩ : BufTy).Contents (Elt Ideal))
    (x2 x3 : (⟨S600000, .i32⟩ : BufTy).Contents (Elt Ideal)) (x4 : (⟨S128x128, .f32⟩ : BufTy).Contents (Elt Ideal))
    (x5 : (⟨S64x128, .f32⟩ : BufTy).Contents (Elt Ideal)) (x6 : (⟨S256x1, .f32⟩ : BufTy).Contents (Elt Ideal))
    (x7 : (⟨S128x1, .f32⟩ : BufTy).Contents (Elt Ideal)) (hs : InRange x2) (hd : InRange x3) (e : Fin 600000) :
    val_main_v34 (F := Ideal) x0 x1 x2 x3 x4 x5 x6 x7 (ix2 e (0 : Fin 1))
      = ∑ j : Fin 128, (Ideal.logistic (Cert.Spec.s1 x0 x4 x6 (Cert.Spec.node (x2 (ix1 e)) (hs _)) + Cert.Spec.s2 x0 x4 x6 (Cert.Spec.node (x3 (ix1 e)) (hd _)))
          * ∑ k : Fin 64, x1 (ix2 e k) * x5 (ix2 k j)) * x7 (ix2 j (0 : Fin 1)) := by
  rw [val_main_v34_apply]
  refine Finset.sum_congr rfl fun j _ => ?_
  rw [lidx34, ridx34, val_main_v33_apply, val_main_v32_apply, idx32, val_main_v30_apply, val_main_v29_apply, val_main_v28_apply,
    val_main_v27_apply, val_main_v26_apply, val_main_v25_apply, val_main_cst_4_apply, val_main_cst_5_apply, val_main_v31_apply,
    ref_score x0 x2 x3 x4 x6 hs hd e]
  simp only [lidx31, ridx31, Ideal.mulf_def, Ideal.hostDivf_def, Ideal.addf_def, Ideal.hostUnary_exp_def, Ideal.hostNegf_def,
    Ideal.negf_def, Ideal.ofBits_def, ofBits_one_f32]
  rfl

end Cert.ReferenceIdeal.RefRead

end
-- ==== Proof.LogitAlgebra.lean ====
/-
  Finiteness and the one algebraic law of the specification.

  Over the extended reals multiplication does not distribute over addition once an infinity is present, so every
  rearrangement below is carried out in ℝ: each quantity is first shown to be (the image of) a real number, the
  coercion is pushed outward through products and finite sums, and the identity is then an identity of real numbers.
-/
import proofs.«412961_j88510686036316_2_alg».proof.Proof.Spec
import Mathlib.Data.EReal.Operations
import Mathlib.Algebra.BigOperators.Ring.Finset

namespace Cert.Spec

open Idealize.ShloMosaic Idealize.ShloMosaic.ValueIdx
open scoped BigOperators

/-- "every entry is a real" -/
def Fin' {a b : Nat} (x : Arr a b) : Prop := ∀ i, ∃ r : ℝ, x i = (r : EReal)

/-- The coercion ℝ → EReal commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two reals is a real. -/
theorem mul_real (x y : EReal) (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two reals is a real. -/
theorem add_real (x y : EReal) (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A finite sum of reals is a real. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact add_real _ _ (hf a (Finset.mem_insert_self a s)) (ih fun i hi => hf i (Finset.mem_insert_of_mem hi))

/-- The logistic function of a real is the real `1 / (1 + e⁻ˣ)`. -/
theorem logistic_real (x : EReal) (hx : ∃ r : ℝ, x = (r : EReal)) : ∃ r : ℝ, Ideal.logistic x = (r : EReal) := by
  obtain ⟨r, rfl⟩ := hx
  exact ⟨_, Ideal.logistic_coe r⟩

/-- The rectifier's slope literal has exponent field 120, neither all ones nor zero: it denotes a normal real. -/
theorem slope_real : ∃ c : ℝ, FloatOps.ofBits (F := Ideal) .f32 0x3C23D70A#32 = (c : EReal) := by
  simp only [Ideal.ofBits_def, Ideal.ofBits, Ideal.ieee]
  rw [if_neg (by decide), if_neg (by decide)]
  exact ⟨_, rfl⟩

/-- The leaky rectifier of a real is a real: either the argument itself or the slope times the argument. -/
theorem leakyE_real (y : EReal) (hy : ∃ r : ℝ, y = (r : EReal)) : ∃ r : ℝ, leakyE y = (r : EReal) := by
  unfold leakyE Scalar.select
  split
  · exact hy
  · rw [Ideal.mulf_def]
    exact mul_real _ _ slope_real hy

theorem hp_real (h : Arr 50000 128) (wu : Arr 128 128) (hh : Fin' h) (hwu : Fin' wu) (n : Fin 50000) (j : Fin 128) :
    ∃ r : ℝ, hp h wu n j = (r : EReal) :=
  leakyE_real _ (sum_real _ _ fun _ _ => mul_real _ _ (hh _) (hwu _))

theorem s1_real (h : Arr 50000 128) (wu : Arr 128 128) (a : Arr 256 1) (hh : Fin' h) (hwu : Fin' wu) (ha : Fin' a)
    (n : Fin 50000) : ∃ r : ℝ, s1 h wu a n = (r : EReal) :=
  sum_real _ _ fun _ _ => mul_real _ _ (hp_real h wu hh hwu _ _) (ha _)

theorem s2_real (h : Arr 50000 128) (wu : Arr 128 128) (a : Arr 256 1) (hh : Fin' h) (hwu : Fin' wu) (ha : Fin' a)
    (n : Fin 50000) : ∃ r : ℝ, s2 h wu a n = (r : EReal) :=
  sum_real _ _ fun _ _ => mul_real _ _ (hp_real h wu hh hwu _ _) (ha _)

theorem wc_real (we : Arr 64 128) (wm : Arr 128 1) (hwe : Fin' we) (hwm : Fin' wm) (k : Fin 64) :
    ∃ r : ℝ, wc we wm k = (r : EReal) :=
  sum_real _ _ fun _ _ => mul_real _ _ (hwe _) (hwm _)

theorem logit_real (h : Arr 50000 128) (wu : Arr 128 128) (a : Arr 256 1) (ed : Arr 600000 64) (we : Arr 64 128)
    (wm : Arr 128 1) (hh : Fin' h) (hwu : Fin' wu) (ha : Fin' a) (hed : Fin' ed) (hwe : Fin' we) (hwm : Fin' wm)
    (s d : Fin 50000) (e : Fin 600000) : ∃ r : ℝ, logit h wu a ed we wm s d e = (r : EReal) :=
  mul_real _ _ (logistic_real _ (add_real _ _ (s1_real h wu a hh hwu ha s) (s2_real h wu a hh hwu ha d)))
    (sum_real _ _ fun _ _ => mul_real _ _ (hed _) (wc_real we wm hwe hwm _))

/-- the reference's per-row product with the message vector is the kernel's product with the folded vector -/
theorem fold_message (σ : EReal) (hσ : ∃ r : ℝ, σ = (r : EReal)) (ed : Arr 600000 64) (we : Arr 64 128)
    (wm : Arr 128 1) (hed : Fin' ed) (hwe : Fin' we) (hwm : Fin' wm) (e : Fin 600000) :
    ∑ j : Fin 128, (σ * ∑ k : Fin 64, ed (ix2 e k) * we (ix2 k j)) * wm (ix2 j (0 : Fin 1))
      = σ * ∑ k : Fin 64, ed (ix2 e k) * wc we wm k := by
  obtain ⟨t, rfl⟩ := hσ
  choose fe hfe using hed
  choose fw hfw using hwe
  choose fm hfm using hwm
  unfold wc
  -- every entry is a real: move the whole identity into ℝ
  simp only [hfe, hfw, hfm, ← EReal.coe_mul, ← coe_sum]
  congr 1
  -- in ℝ: distribute, exchange the two finite sums, and reassociate each term
  simp only [Finset.mul_sum, Finset.sum_mul]
  rw [Finset.sum_comm]
  exact Finset.sum_congr rfl fun k _ => Finset.sum_congr rfl fun j _ => by ring

end Cert.Spec
-- ==== Proof.RefValue.lean ====
/-
  The reference's logits in the specification's form.

  Reading the reference's stages gives edge `e`'s logit as `∑ j, (σ · ∑ k, ed e k · we k j) · wm j`, the per-row
  product with the message vector; the specification (and the kernel) have `σ · ∑ k, ed e k · (∑ j, we k j · wm j)`.
  The two agree because every number involved is a real: the gate `σ` is the logistic function of a finite score,
  and `ed`, `we`, `wm` are finite by the precondition.
-/
import proofs.«412961_j88510686036316_2_alg».proof.Proof.RefRead
import proofs.«412961_j88510686036316_2_alg».proof.Proof.LogitAlgebra

noncomputable section

namespace Cert.ReferenceIdeal.RefValue

open Cert.ReferenceIdeal Cert.ReferenceIdeal.Read Cert.ReferenceIdeal.RefRead Idealize.ShloMosaic Idealize.ShloMosaic.ValueIdx

variable (x0 : (⟨S50000x128, .f32⟩ : BufTy).Contents (Elt Ideal)) (x1 : (⟨S600000x64, .f32⟩ : BufTy).Contents (Elt Ideal))
  (x2 x3 : (⟨S600000, .i32⟩ : BufTy).Contents (Elt Ideal)) (x4 : (⟨S128x128, .f32⟩ : BufTy).Contents (Elt Ideal))
  (x5 : (⟨S64x128, .f32⟩ : BufTy).Contents (Elt Ideal)) (x6 : (⟨S256x1, .f32⟩ : BufTy).Contents (Elt Ideal))
  (x7 : (⟨S128x1, .f32⟩ : BufTy).Contents (Elt Ideal))

/-- Edge `e`'s logit in the reference is the specification's. -/
theorem ref_logit (h0 : Cert.Spec.Fin' (x0 : Cert.Spec.Arr 50000 128)) (h1 : Cert.Spec.Fin' (x1 : Cert.Spec.Arr 600000 64))
    (h4 : Cert.Spec.Fin' (x4 : Cert.Spec.Arr 128 128)) (h5 : Cert.Spec.Fin' (x5 : Cert.Spec.Arr 64 128))
    (h6 : Cert.Spec.Fin' (x6 : Cert.Spec.Arr 256 1)) (h7 : Cert.Spec.Fin' (x7 : Cert.Spec.Arr 128 1))
    (hs : InRange x2) (hd : InRange x3) (e : Fin 600000) :
    val_main_v34 (F := Ideal) x0 x1 x2 x3 x4 x5 x6 x7 (ix2 e (0 : Fin 1))
      = Cert.Spec.logit x0 x4 x6 x1 x5 x7 (Cert.Spec.node (x2 (ix1 e)) (hs _)) (Cert.Spec.node (x3 (ix1 e)) (hd _)) e := by
  rw [ref_logit_raw x0 x1 x2 x3 x4 x5 x6 x7 hs hd e]
  exact Cert.Spec.fold_message _
    (Cert.Spec.logistic_real _ (Cert.Spec.add_real _ _ (Cert.Spec.s1_real x0 x4 x6 h0 h4 h6 _) (Cert.Spec.s2_real x0 x4 x6 h0 h4 h6 _)))
    x1 x5 x7 h1 h5 h7 e

/-- The specification's logit is a real. -/
theorem spec_logit_real (h0 : Cert.Spec.Fin' (x0 : Cert.Spec.Arr 50000 128)) (h1 : Cert.Spec.Fin' (x1 : Cert.Spec.Arr 600000 64))
    (h4 : Cert.Spec.Fin' (x4 : Cert.Spec.Arr 128 128)) (h5 : Cert.Spec.Fin' (x5 : Cert.Spec.Arr 64 128))
    (h6 : Cert.Spec.Fin' (x6 : Cert.Spec.Arr 256 1)) (h7 : Cert.Spec.Fin' (x7 : Cert.Spec.Arr 128 1))
    (s d : Fin 50000) (e : Fin 600000) : ∃ r : ℝ, Cert.Spec.logit x0 x4 x6 x1 x5 x7 s d e = (r : EReal) :=
  Cert.Spec.logit_real x0 x4 x6 x1 x5 x7 h0 h4 h6 h1 h5 h7 s d e

end Cert.ReferenceIdeal.RefValue

end
-- ==== Proof.Softmax.lean ====
/-
  The two spellings of the softmax over all edges are one function on a column of finite logits.

  Both maxima are the supremum M of ALL the logits: a reduction with a commutative, associative body into a
  shape whose every axis has size one folds over every source index, the fold of max from the bottom element is
  the supremum, and one more maximum with the bottom element changes nothing. Both sums are then the total sum
  S of the terms exp (L i - M), from the initial value zero. The kernel program divides by max (S, c) for a
  small positive constant c <= 1, the reference by S. On finite logits the supremum is attained at some index
  i0, it is a real, every term is the exponential of a real, hence not negative, and the term at i0 is
  exp 0 = 1: so 1 <= S, max (S, c) = S, and the two quotients are the same. (With an infinite logit S could be 0,
  and the two would differ.)
-/
import proofs.«412961_j88510686036316_2_alg».proof.Proof.Tail
import Idealize.ShloMosaic.PureOps.Ideal.Laws
import Idealize.ShloMosaic.PureOps.Reduce
import Idealize.ShloMosaic.Lib.IdealHost
import Idealize.ShloMosaic.Lib.ValueIdx

namespace Cert.Tail

open Idealize.ShloMosaic

/-! ## Reductions into a shape of unit axes -/

/-- A one-operand reduction with a commutative and associative body, into a shape whose every axis has size one
    (rank zero included), folds from the initial value over EVERY source index: every source index drops to the
    one result index. -/
theorem hostReduce_total {α : Type} {s t u : Shape} {axes : List (Fin s.rank)} (f : α → α → α) [Std.Commutative f]
    [Std.Associative f] (x : s.Idx → α) (init : u.Idx → α) (h : s.ReducesTo axes t) (hu : 0 < u.numel)
    (ht : ∀ b, t.size b = 1) (j : t.Idx) :
    Host.reduce f x init h hu j = Finset.univ.fold f (init (Shape.Idx.first hu)) x := by
  rw [Host.reduce_eq_fold, Finset.filter_true_of_mem fun i _ => funext fun b => Fin.ext (by
    have := (h.drop i b).isLt; have := (j b).isLt; have := ht b; omega)]

/-- The f32 pattern of minus infinity is the bottom element. -/
theorem ofBits_neg_inf_f32 : Ideal.ofBits .f32 0xFF800000#32 = ⊥ := by simp [Ideal.ofBits, Ideal.ieee]

/-- The f32 pattern `0x0DA24260` (sign clear, exponent field 27, fraction field 2245216) is
    10633824 · 2⁻¹²³, which is at most one. -/
theorem ofBits_tiny_le_one : Ideal.ofBits .f32 0x0DA24260#32 ≤ 1 := by
  have h : Ideal.ofBits .f32 0x0DA24260#32 = (((10633824 : ℝ) * ((2 : ℝ) ^ 123)⁻¹ : ℝ) : EReal) := by
    simp [Ideal.ofBits, Ideal.ieee, -EReal.coe_mul]
  rw [h]
  exact_mod_cast (by norm_num : ((10633824 : ℝ) * ((2 : ℝ) ^ 123)⁻¹) ≤ 1)

/-- A maximum reduction from minus infinity into a shape of unit axes is, at every result index, the supremum of
    all the source's entries. -/
theorem reduce_max_total {s t u : Shape} {axes : List (Fin s.rank)} (L : FVec Ideal s .f32) (h : s.ReducesTo axes t)
    (hu : 0 < u.numel) (ht : ∀ b, t.size b = 1) :
    Host.reduce FloatOps.maximumf L (constant u .f32 0xFF800000#32) h hu = fun _ => Finset.univ.sup L := by
  funext j
  rw [hostReduce_total _ _ _ h hu ht j]
  show Finset.univ.fold max (Ideal.ofBits .f32 0xFF800000#32) L = _
  rw [ofBits_neg_inf_f32]; rfl

/-- A sum reduction from zero into a shape of unit axes is, at every result index, the sum of all the source's
    entries. -/
theorem reduceAdd_zero_total {s t u : Shape} {axes : List (Fin s.rank)} (x : FVec Ideal s .f32) (h : s.ReducesTo axes t)
    (hu : 0 < u.numel) (ht : ∀ b, t.size b = 1) :
    Host.reduceAdd x (constant u .f32 0x00000000#32) h hu = fun _ => ∑ i, x i := by
  funext j
  rw [ValueIdx.hostReduceAdd_apply, Ideal.hostReduceAdd_total h ht]
  show Ideal.ofBits .f32 0x00000000#32 + _ = _
  rw [Ideal.ofBits_zero_f32, zero_add]

/-- A constant array broadcast is the constant array. -/
theorem broadcastInDim_const {α : Type} {s T : Shape} (dims : Fin s.rank → Fin T.rank) (h : s.BroadcastsInDim T dims)
    (c : α) : broadcastInDim T dims h (fun _ => c) = fun _ => c := rfl

/-! ## The sum of the shifted exponentials is at least one -/

/-- Over a nonempty finite family of REAL entries the supremum is attained, so the exponentials of the entries
    minus the supremum are all not negative and one of them is `exp 0 = 1`: their sum is at least one. -/
theorem one_le_sum_exp_sub_sup {ι : Type} [Fintype ι] [Nonempty ι] (L : ι → EReal)
    (hL : ∀ i, ∃ r : ℝ, L i = (r : EReal)) :
    1 ≤ ∑ i, Ideal.exp (L i - Finset.univ.sup L) := by
  obtain ⟨i₀, -, h₀⟩ := Finset.exists_mem_eq_sup Finset.univ Finset.univ_nonempty L
  obtain ⟨r₀, hr₀⟩ := hL i₀
  have hnn : ∀ i ∈ Finset.univ, 0 ≤ Ideal.exp (L i - Finset.univ.sup L) := by
    intro i _
    obtain ⟨r, hr⟩ := hL i
    rw [h₀, hr₀, hr, ← EReal.coe_sub]
    show (0 : EReal) ≤ ((Real.exp (r - r₀) : ℝ) : EReal)
    exact EReal.coe_nonneg.mpr (Real.exp_pos _).le
  have h1 : Ideal.exp (L i₀ - Finset.univ.sup L) = 1 := by
    rw [h₀, hr₀, ← EReal.coe_sub, sub_self]
    show ((Real.exp 0 : ℝ) : EReal) = 1
    rw [Real.exp_zero, EReal.coe_one]
  calc (1 : EReal) = Ideal.exp (L i₀ - Finset.univ.sup L) := h1.symm
    _ ≤ ∑ i, Ideal.exp (L i - Finset.univ.sup L) := Finset.single_le_sum hnn (Finset.mem_univ i₀)

/-! ## The two softmaxes -/

/-- The column has an entry: 0 < 600000. -/
instance : Nonempty Cert.KernelIdeal.S600000x1.Idx :=
  ⟨ValueIdx.ix2 (⟨0, by norm_num⟩ : Fin 600000) (0 : Fin 1)⟩

theorem sm_eq (L : Idealize.ShloMosaic.FVec Idealize.ShloMosaic.Ideal Cert.KernelIdeal.S600000x1 .f32)
    (hL : ∀ i, ∃ r : ℝ, L i = (r : EReal)) :
    smK (F := Idealize.ShloMosaic.Ideal) L = smR (F := Idealize.ShloMosaic.Ideal) L := by
  -- the kernel program's spelling: numerator exp (L i - M), divisor max (S, c)
  have hK : smK (F := Ideal) L
      = Host.divf (Host.exp (subf L (fun _ => Finset.univ.sup L)))
          (fun _ => max (∑ i, Host.exp (subf L (fun _ => Finset.univ.sup L)) i) (Ideal.ofBits .f32 0x0DA24260#32)) := by
    unfold smK
    rw [reduce_max_total L Cert.KernelIdeal.Gen.reducesTo_S600000x1_S_d0_1 Cert.KernelIdeal.Gen.h_S_ (fun b => b.elim0),
      broadcastInDim_const,
      reduceAdd_zero_total _ Cert.KernelIdeal.Gen.reducesTo_S600000x1_S_d0_1 Cert.KernelIdeal.Gen.h_S_ (fun b => b.elim0)]
    rfl
  -- the reference's spelling: one more maximum with minus infinity, divisor S
  have hR : smR (F := Ideal) L
      = Host.divf (Host.exp (subf L (fun _ => Finset.univ.sup L)))
          (fun _ => ∑ i, Host.exp (subf L (fun _ => Finset.univ.sup L)) i) := by
    unfold smR
    rw [reduce_max_total L Cert.ReferenceIdeal.Gen.reducesTo_S600000x1_S1_d0 Cert.ReferenceIdeal.Gen.h_S_ (by decide)]
    have hbot : maximumf (broadcastInDim Cert.ReferenceIdeal.S1 ![] Cert.ReferenceIdeal.Gen.bcast_S_S1
          (constant Cert.ReferenceIdeal.S_ .f32 0xFF800000#32)) (fun _ => Finset.univ.sup L)
        = fun _ => Finset.univ.sup L := by
      funext j
      show max (Ideal.ofBits .f32 0xFF800000#32) (Finset.univ.sup L) = _
      rw [ofBits_neg_inf_f32]; exact max_eq_right bot_le
    rw [hbot, broadcastInDim_const, broadcastInDim_const,
      reduceAdd_zero_total _ Cert.ReferenceIdeal.Gen.reducesTo_S600000x1_S1_d0 Cert.ReferenceIdeal.Gen.h_S_ (by decide)]
    rfl
  -- the constant is at most one, and one is at most the sum
  have hle : Ideal.ofBits .f32 0x0DA24260#32 ≤ ∑ i, Host.exp (subf L (fun _ => Finset.univ.sup L)) i :=
    le_trans ofBits_tiny_le_one (one_le_sum_exp_sub_sup L hL)
  rw [hK, hR, max_eq_left hle]

end Cert.Tail
-- ==== Proof.PreDecode.lean ====
/-
  The printed precondition, read back. The predicate is the conjunction of sixteen reductions by `and` (each from the
  constant 1, over every axis of its operand): for each of the fourteen float arrays, of the entrywise test
  |x| < +∞ (the f32 pattern 0x7F800000 denotes +∞); for each of the two index arrays, of the entrywise test
  0 ≤ v ∧ v < 50000, both compares signed. Stated to be 1, it says: every entry of every float array is a real, and
  every index word, read signed, lies in [0, 50000).

  Two generic facts, each over an array of any shape, carry the reading: a reduction by `and` into the one-index
  result that is 1 met a 1 at every entry; an extended real whose absolute value max x (−x) is below +∞ is neither
  infinity, and a signed compare's word being 1 is the order fact between the signed readings.
-/
import proofs.«412961_j88510686036316_2_alg».proof.Proof.Gen.Pre_finite_inputs
import Idealize.ShloMosaic.Lib.ReduceAll
import Idealize.ShloMosaic.Lib.ValueIdx
import Idealize.ShloMosaic.PureOps.Ideal

noncomputable section

namespace Cert.PreDecode

open Idealize.ShloMosaic Cert.Pre_finite_inputs

/-- The rank-0 result has one index. -/
instance subsingleton_S_ : Subsingleton S_.Idx := ⟨fun a b => funext fun d => d.elim0⟩

/-- The f32 pattern 0x7F800000 denotes +∞. -/
theorem ofBits_inf : Ideal.ofBits .f32 0x7F800000#32 = ⊤ := by simp [Ideal.ofBits, Ideal.ieee]

/-- An extended real with |x| = max x (−x) below +∞ is a real: at ⊥ the maximum is −⊥ = ⊤, at ⊤ it is ⊤. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | coe r => exact ⟨r, rfl⟩
  | top => simp [Ideal.cmp] at h

/-- A float array whose entrywise test |x| < +∞, reduced by `and` over every axis, is 1 has only real entries. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) :
    ∃ r : ℝ, x i = (r : EReal) :=
  real_of_abs_lt_inf (x i) (Host.reduce_andi_all _ _ hr hu _ e i)

/-- An index array whose entrywise test lo ≤ v ∧ v < hi (signed), reduced by `and`, is 1 has every word, read signed,
    in [lo, hi). -/
theorem range_of_all {s : Shape} {axes : List (Fin s.rank)} (x : IVec s 32) (lo hi : BitVec 32)
    (hb : S_.BroadcastsInDim s (![] : Fin 0 → Fin s.rank)) (hr : s.ReducesTo axes S_) (hu : 0 < S_.numel)
    (e : Host.reduce IntOp.andi
          (andi (cmpi .sge x (broadcastInDim s ![] hb (constantI S_ 32 lo)))
                (cmpi .slt x (broadcastInDim s ![] hb (constantI S_ 32 hi))))
          (constantI S_ 1 1#1) hr hu ValueIdx.ix0 = 1#1) (i : s.Idx) :
    lo.toInt ≤ (x i).toInt ∧ (x i).toInt < hi.toInt := by
  have hi' : IntOp.andi (IntOp.cmpi .sge (x i) lo) (IntOp.cmpi .slt (x i) hi) = 1#1 :=
    Host.reduce_andi_all _ _ hr hu _ e i
  obtain ⟨h1, h2⟩ := IntOp.andi_eq_one.1 hi'
  exact ⟨IntOp.cmpi_sge.1 h1, IntOp.cmpi_slt.1 h2⟩

/-- The conjunction of two one-index words is 1 exactly when both are. -/
theorem and_split (a b : IVec S_ 1) (h : andi a b ValueIdx.ix0 = 1#1) : a ValueIdx.ix0 = 1#1 ∧ b ValueIdx.ix0 = 1#1 :=
  IntOp.andi_eq_one.1 h

theorem decode (x0 : FVec Ideal S50000x128 .f32) (x1 : FVec Ideal S600000x64 .f32) (x2 x3 : IVec S600000 32) (x4 : FVec Ideal S128x128 .f32) (x5 : FVec Ideal S64x128 .f32) (x6 : FVec Ideal S256x1 .f32) (x7 : FVec Ideal S128x1 .f32) (x8 : FVec Ideal S128x512 .f32) (x9 : FVec Ideal S512 .f32) (x10 : FVec Ideal S512x128 .f32) (x11 : FVec Ideal S128 .f32) (x12 : FVec Ideal S128x16 .f32) (x13 : FVec Ideal S16 .f32) (x14 : FVec Ideal S16x1 .f32) (x15 : FVec Ideal S1 .f32)
    (h : Cert.Pre_finite_inputs.fn (F := Ideal) x0 x1 x2 x3 x4 x5 x6 x7 x8 x9 x10 x11 x12 x13 x14 x15 = fun _ => 1#1) :
    (∀ i, ∃ r : ℝ, x0 i = (r : EReal)) ∧ (∀ i, ∃ r : ℝ, x1 i = (r : EReal)) ∧ (∀ i, ∃ r : ℝ, x4 i = (r : EReal))
    ∧ (∀ i, ∃ r : ℝ, x5 i = (r : EReal)) ∧ (∀ i, ∃ r : ℝ, x6 i = (r : EReal)) ∧ (∀ i, ∃ r : ℝ, x7 i = (r : EReal))
    ∧ (∀ i, 0 ≤ (x2 i).toInt ∧ (x2 i).toInt < 50000) ∧ (∀ i, 0 ≤ (x3 i).toInt ∧ (x3 i).toInt < 50000) := by
  have e := congrFun h ValueIdx.ix0
  dsimp only [fn, fn_part1, fn_part2, fn_part3, fn_part4] at e
  -- the conjunction is nested to the left: peel the last conjunct fifteen times
  obtain ⟨e, e3⟩ := and_split _ _ e
  obtain ⟨e, e2⟩ := and_split _ _ e
  obtain ⟨e, -⟩ := and_split _ _ e
  obtain ⟨e, -⟩ := and_split _ _ e
  obtain ⟨e, -⟩ := and_split _ _ e
  obtain ⟨e, -⟩ := and_split _ _ e
  obtain ⟨e, -⟩ := and_split _ _ e
  obtain ⟨e, -⟩ := and_split _ _ e
  obtain ⟨e, -⟩ := and_split _ _ e
  obtain ⟨e, -⟩ := and_split _ _ e
  obtain ⟨e, e7⟩ := and_split _ _ e
  obtain ⟨e, e6⟩ := and_split _ _ e
  obtain ⟨e, e5⟩ := and_split _ _ e
  obtain ⟨e, e4⟩ := and_split _ _ e
  obtain ⟨e0, e1⟩ := and_split _ _ e
  have z0 : (0#32 : BitVec 32).toInt = 0 := by decide
  have z5 : (50000#32 : BitVec 32).toInt = 50000 := by decide
  refine ⟨finite_of_all x0 _ _ _ e0, finite_of_all x1 _ _ _ e1, finite_of_all x4 _ _ _ e4, finite_of_all x5 _ _ _ e5,
    finite_of_all x6 _ _ _ e6, finite_of_all x7 _ _ _ e7, fun i => ?_, fun i => ?_⟩
  · have := range_of_all x2 _ _ _ _ _ e2 i
    rwa [z0, z5] at this
  · have := range_of_all x3 _ _ _ _ _ e3 i
    rwa [z0, z5] at this

end Cert.PreDecode
-- ==== Proof.Bridge.lean ====
/-
  The kernel program's result is the reference's, as functions of the same arguments.

  Both results are the shared tail of (softmax of the logits, gathered source rows, destination indices, weights). The
  logits agree entry by entry (the node scores commute with the gathers because the indices are in range; the edge matrix
  folds with the message vector because everything is finite), the gathered rows agree entry by entry, and on finite
  logits the two spellings of the softmax are one function.
-/
import proofs.«412961_j88510686036316_2_alg».proof.Proof.KernelValue
import proofs.«412961_j88510686036316_2_alg».proof.Proof.RefValue
import proofs.«412961_j88510686036316_2_alg».proof.Proof.Softmax
import proofs.«412961_j88510686036316_2_alg».proof.Proof.PreDecode

set_option maxRecDepth 16384

noncomputable section

namespace Cert.Bridge

open Cert.KernelIdeal Cert.KernelIdeal.Gen Cert.KernelIdeal.Boundary Cert.KernelIdeal.KernelValue
  Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Every index of an E × 1 column is `(e, 0)`. -/
theorem col_idx {n : Nat} (i : (⟨2, ![n, 1]⟩ : Shape).Idx) : ∃ e : Fin n, i = ix2 e (0 : Fin 1) := by
  have h1 : @Eq (Fin 1) (i 1) 0 := Subsingleton.elim _ _
  exact ⟨i 0, (eq_ix2 i).trans (congrArg (ix2 (i 0)) h1)⟩

theorem result_eq
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = fun _ => 1#1) :
    W5 m ρ c (Proc.devRef .tc main_v0)
      = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  obtain ⟨h0, h1, h4, h5, h6, h7, hs, hd⟩ := Cert.PreDecode.decode _ _ _ _ _ _ _ _ _ _ _ _ _ _ _ _ hpre
  -- the logits
  have hL : W4 m ρ c (Proc.devRef .tc main_call0_v13)
      = Cert.ReferenceIdeal.Read.val_main_v34 (F := Ideal) (xh m c) (xe m c) (xsrc m c) (xdst m c) (xwu m c) (xwe m c) (xa m c) (xwm m c) := by
    funext i
    obtain ⟨e, rfl⟩ := col_idx (n := 600000) i
    exact (logit_at m ρ c hs hd e).trans
      (Cert.ReferenceIdeal.RefValue.ref_logit (xh m c) (xe m c) (xsrc m c) (xdst m c) (xwu m c) (xwe m c) (xa m c) (xwm m c) h0 h1 h4 h5 h6 h7 hs hd e).symm
  -- the gathered source rows
  have hH : W3 m ρ c (Proc.devRef .tc main_call0_v7)
      = Cert.ReferenceIdeal.Read.val_main_v12 (F := Ideal) (xh m c) (xsrc m c) (xwu m c) := by
    funext i
    obtain ⟨e, k, rfl⟩ : ∃ (e : Fin 600000) (k : Fin 128), i = ix2 e k := ⟨i 0, i 1, eq_ix2 (n0 := 600000) (n1 := 128) i⟩
    exact (hs_at m ρ c hs e k).trans
      (Cert.ReferenceIdeal.RefRead.ref_hs (xh m c) (xsrc m c) (xwu m c) hs e k).symm
  -- the logits are reals
  have hfin : ∀ i, ∃ r : ℝ, Cert.ReferenceIdeal.Read.val_main_v34 (F := Ideal) (xh m c) (xe m c) (xsrc m c) (xdst m c) (xwu m c) (xwe m c) (xa m c) (xwm m c) i = (r : EReal) := by
    intro i
    obtain ⟨e, rfl⟩ := col_idx (n := 600000) i
    rw [Cert.ReferenceIdeal.RefValue.ref_logit (xh m c) (xe m c) (xsrc m c) (xdst m c) (xwu m c) (xwe m c) (xa m c) (xwm m c) h0 h1 h4 h5 h6 h7 hs hd e]
    exact Cert.ReferenceIdeal.RefValue.spec_logit_real (xh m c) (xe m c) (xwu m c) (xwe m c) (xa m c) (xwm m c) h0 h1 h4 h5 h6 h7 _ _ e
  rw [result_tail, W4_arg3, W4_arg8, W4_arg9, W4_arg10, W4_arg11, W4_arg12, W4_arg13, W4_arg14, W4_arg15, W4_hs, hL, hH,
    Cert.Tail.sm_eq _ hfin]
  rfl

end Cert.Bridge

end
-- ==== Proof.lean ====
/-
  One message-passing layer of a graph network, 50000 nodes with 128 features and 600000 edges with 64 features,
  followed by a global readout and a four-layer perceptron: the Pallas program against its jnp reference, over the
  extended reals.

  Both compute, with `σ` the logistic function, `leaky y = y` for `y > 0` and `0.01f · y` otherwise,
    h' = leaky (h · W_u)                                                            (node update)
    score e = h'[src e] · a[:128] + h'[dst e] · a[128:]                            (attention score of edge e)
    logit e = ((σ (score e) · (ed e · W_e)) · W_m                                  (reference)
            = σ (score e) · (ed e · (W_e · W_m))                                   (kernel: the two matrices folded first)
    w = softmax over ALL edges of logit,   msg e = leaky (w e · h'[src e]),   g = ∑_e msg e   (via segment_sum over dst)
    out = relu (relu (relu (g W1 + b1) W2 + b2) W3 + b3) W4 + b4.
  The kernel program computes `h'` and the per-NODE scores `s1 = h' · a[:128]`, `s2 = h' · a[128:]` in one pallas_call
  (ten row blocks), gathers `s1[src] + s2[dst]` on the host, and computes the logits in a second pallas_call (a hundred
  row blocks); gathering a node's score is the score of the gathered row. It gathers with `jnp.take`, which FILLS
  out-of-range reads, where the reference's `h'[src]` CLAMPS: the two agree exactly when the indices are in range,
  which the precondition states for `src` and `dst` (outside it the reference itself indexes out of range). Folding
  `W_e` with `W_m` first moves factors across sums, which needs every number finite: the precondition's finiteness of
  `h`, `ed`, `W_u`, `W_e`, `a`, `W_m`. The kernel divides by `max (∑ exp (logit − max), 1e-30)`; the sum is at least 1
  (the maximum is attained and the logits are finite), so the guard never binds. From the softmax weights on the two
  programs apply the same operations, carried as one function and never opened.

  The three frames: the two programs with pallas_calls by their generated frame certificates, the reference by its
  generated run. `preserves` is trivial: the ideal pass rewrote nothing. The kernel program's run with its result named
  is the launch theorem called once more (Proof/KernelRun.lean).
-/
import proofs.«412961_j88510686036316_2_alg».proof.Defs
import proofs.«412961_j88510686036316_2_alg».proof.Proof.Gen.Kernel
import proofs.«412961_j88510686036316_2_alg».proof.Proof.Gen.Kernel.Frame
import proofs.«412961_j88510686036316_2_alg».proof.Proof.Gen.KernelIdeal
import proofs.«412961_j88510686036316_2_alg».proof.Proof.Gen.KernelIdeal.Frame
import proofs.«412961_j88510686036316_2_alg».proof.Proof.Gen.ReferenceIdeal
import proofs.«412961_j88510686036316_2_alg».proof.Proof.Gen.ReferenceIdeal.Run
import proofs.«412961_j88510686036316_2_alg».proof.Proof.Gen.ReferenceIdeal.Read
import proofs.«412961_j88510686036316_2_alg».proof.Proof.Gen.Pre_finite_inputs
import proofs.«412961_j88510686036316_2_alg».proof.Proof.KernelRun
import proofs.«412961_j88510686036316_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, and the reference's result is the kernel program's:
    the reference's last stage at its arguments, which are the kernel's, is the kernel's result buffer. -/
theorem algebraic : Cert.algebraic_KernelIdeal_ReferenceIdeal := by
  intro m g m' g' hpre hagree
  refine ⟨fun c => Cert.KernelIdeal.Gen.W5 m g c (Proc.devRef .tc Cert.KernelIdeal.main_v0), Cert.KernelIdeal.Gen.run_result m g, ?_⟩
  refine (θ_run Cert.ReferenceIdeal.defs _ _).mono (fun _ h c => ⟨(h c).1.trans ?_, (h c).2⟩)
    (Cert.ReferenceIdeal.Value.run (F := Ideal) m' g')
  obtain ⟨a0, a1, a2, a3, a4, a5, a6, a7, a8, a9, a10, a11, a12, a13, a14, a15⟩ := hagree c
  rw [Cert.ReferenceIdeal.Read.val_main_v72_eq m' c, a0, a1, a2, a3, a4, a5, a6, a7, a8, a9, a10, a11, a12, a13, a14, a15]
  exact (Cert.Bridge.result_eq m g c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
